-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v35) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x16x16 : Shape := ⟨4, ![1024, 64, 16, 16]⟩
abbrev S2048x16384 : Shape := ⟨2, ![2048, 16384]⟩
abbrev S2048 : Shape := ⟨1, ![2048]⟩
abbrev S16x2048 : Shape := ⟨2, ![16, 2048]⟩
abbrev S16 : Shape := ⟨1, ![16]⟩
abbrev S25x16 : Shape := ⟨2, ![25, 16]⟩
abbrev S2048x16 : Shape := ⟨2, ![2048, 16]⟩
abbrev S16384x2048 : Shape := ⟨2, ![16384, 2048]⟩
abbrev S16384 : Shape := ⟨1, ![16384]⟩
abbrev S_ : Shape := ⟨0, ![]⟩

class Facts : Prop where
  bcast_S_S1024x64x16x16 : S_.BroadcastsInDim S1024x64x16x16 (![] : Fin 0 → Fin S1024x64x16x16.rank)
  reducesTo_S1024x64x16x16_S_d0_1_2_3 : S1024x64x16x16.ReducesTo [0, 1, 2, 3] S_
  h_S_ : 0 < S_.numel
  bcast_S_S2048x16384 : S_.BroadcastsInDim S2048x16384 (![] : Fin 0 → Fin S2048x16384.rank)
  reducesTo_S2048x16384_S_d0_1 : S2048x16384.ReducesTo [0, 1] S_
  bcast_S_S2048 : S_.BroadcastsInDim S2048 (![] : Fin 0 → Fin S2048.rank)
  reducesTo_S2048_S_d0 : S2048.ReducesTo [0] S_
  bcast_S_S16x2048 : S_.BroadcastsInDim S16x2048 (![] : Fin 0 → Fin S16x2048.rank)
  reducesTo_S16x2048_S_d0_1 : S16x2048.ReducesTo [0, 1] S_
  bcast_S_S16 : S_.BroadcastsInDim S16 (![] : Fin 0 → Fin S16.rank)
  reducesTo_S16_S_d0 : S16.ReducesTo [0] S_
  bcast_S_S25x16 : S_.BroadcastsInDim S25x16 (![] : Fin 0 → Fin S25x16.rank)
  reducesTo_S25x16_S_d0_1 : S25x16.ReducesTo [0, 1] S_
  bcast_S_S2048x16 : S_.BroadcastsInDim S2048x16 (![] : Fin 0 → Fin S2048x16.rank)
  reducesTo_S2048x16_S_d0_1 : S2048x16.ReducesTo [0, 1] S_
  bcast_S_S16384x2048 : S_.BroadcastsInDim S16384x2048 (![] : Fin 0 → Fin S16384x2048.rank)
  reducesTo_S16384x2048_S_d0_1 : S16384x2048.ReducesTo [0, 1] S_
  bcast_S_S16384 : S_.BroadcastsInDim S16384 (![] : Fin 0 → Fin S16384.rank)
  reducesTo_S16384_S_d0 : S16384.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2048 .f32) (main_arg12 : FVec F S16384x2048 .f32) (main_arg13 : FVec F S16384 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S16384x2048 .f32 := Host.absf main_arg12
  let main_cst_22 : FVec F S_ .f32 := constant S_ .f32 0x7F800000#32
  let main_v60 : FVec F S16384x2048 .f32 := broadcastInDim S16384x2048 ![] bcast_S_S16384x2048 main_cst_22
  let main_v61 : IVec S16384x2048 1 := cmpf .olt main_v59 main_v60
  let main_c_23 : IVec S_ 1 := constantI S_ 1 1#1
  let main_v62 : IVec S_ 1 := (fun x v => Host.reduce IntOp.andi x v reducesTo_S16384x2048_S_d0_1 h_S_) main_v61 main_c_23
  let main_v63 : IVec S_ 1 := andi main_v58 main_v62
  let main_v64 : FVec F S16384 .f32 := Host.absf main_arg13
  let main_cst_24 : FVec F S_ .f32 := constant S_ .f32 0x7F800000#32
  let main_v65 : FVec F S16384 .f32 := broadcastInDim S16384 ![] bcast_S_S16384 main_cst_24
  let main_v66 : IVec S16384 1 := cmpf .olt main_v64 main_v65
  let main_c_25 : IVec S_ 1 := constantI S_ 1 1#1
  let main_v67 : IVec S_ 1 := (fun x v => Host.reduce IntOp.andi x v reducesTo_S16384_S_d0 h_S_) main_v66 main_c_25
  fn_part4 (F := F) main_v63 main_v67

def fn_part2 {F : FTy → Type} [FloatOps F] (main_arg7 : FVec F S25x16 .f32) (main_arg8 : FVec F S2048x16 .f32) (main_arg9 : FVec F S2048 .f32) (main_arg10 : FVec F S2048 .f32) (main_arg11 : FVec F S2048 .f32) (main_arg12 : FVec F S16384x2048 .f32) (main_arg13 : FVec F S16384 .f32) (main_v33 : IVec S_ 1) : IVec S_ 1 :=
  let main_v34 : FVec F S25x16 .f32 := Host.absf main_arg7
  let main_cst_12 : FVec F S_ .f32 := constant S_ .f32 0x7F800000#32
  let main_v35 : FVec F S25x16 .f32 := broadcastInDim S25x16 ![] bcast_S_S25x16 main_cst_12
  let main_v36 : IVec S25x16 1 := cmpf .olt main_v34 main_v35
  let main_c_13 : IVec S_ 1 := constantI S_ 1 1#1
  let main_v37 : IVec S_ 1 := (fun x v => Host.reduce IntOp.andi x v reducesTo_S25x16_S_d0_1 h_S_) main_v36 main_c_13
  let main_v38 : IVec S_ 1 := andi main_v33 main_v37
  let main_v39 : FVec F S2048x16 .f32 := Host.absf main_arg8
  let main_cst_14 : FVec F S_ .f32 := constant S_ .f32 0x7F800000#32
  let main_v40 : FVec F S2048x16 .f32 := broadcastInDim S2048x16 ![] bcast_S_S2048x16 main_cst_14
  let main_v41 : IVec S2048x16 1 := cmpf .olt main_v39 main_v40
  let main_c_15 : IVec S_ 1 := constantI S_ 1 1#1
  let main_v42 : IVec S_ 1 := (fun x v => Host.reduce IntOp.andi x v reducesTo_S2048x16_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_v48 main_v49 main_v50

def fn_part1 {F : FTy → Type} [FloatOps F] (main_arg4 : FVec F S2048 .f32) (main_arg5 : FVec F S16x2048 .f32) (main_arg6 : FVec F S16 .f32) (main_arg7 : FVec F S25x16 .f32) (main_arg8 : FVec F S2048x16 .f32) (main_arg9 : FVec F S2048 .f32) (main_arg10 : FVec F S2048 .f32) (main_arg11 : FVec F S2048 .f32) (main_arg12 : FVec F S16384x2048 .f32) (main_arg13 : FVec F S16384 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S16x2048 .f32 := Host.absf main_arg5
  let main_cst_8 : FVec F S_ .f32 := constant S_ .f32 0x7F800000#32
  let main_v25 : FVec F S16x2048 .f32 := broadcastInDim S16x2048 ![] bcast_S_S16x2048 main_cst_8
  let main_v26 : IVec S16x2048 1 := cmpf .olt main_v24 main_v25
  let main_c_9 : IVec S_ 1 := constantI S_ 1 1#1
  let main_v27 : IVec S_ 1 := (fun x v => Host.reduce IntOp.andi x v reducesTo_S16x2048_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1024x64x16x16 .f32) (main_arg1 : FVec F S2048x16384 .f32) (main_arg2 : FVec F S2048 .f32) (main_arg3 : FVec F S2048 .f32) (main_arg4 : FVec F S2048 .f32) (main_arg5 : FVec F S16x2048 .f32) (main_arg6 : FVec F S16 .f32) (main_arg7 : FVec F S25x16 .f32) (main_arg8 : FVec F S2048x16 .f32) (main_arg9 : FVec F S2048 .f32) (main_arg10 : FVec F S2048 .f32) (main_arg11 : FVec F S2048 .f32) (main_arg12 : FVec F S16384x2048 .f32) (main_arg13 : FVec F S16384 .f32) : IVec S_ 1 :=
  let main_v0 : FVec F S1024x64x16x16 .f32 := Host.absf main_arg0
  let main_cst : FVec F S_ .f32 := constant S_ .f32 0x7F800000#32
  let main_v1 : FVec F S1024x64x16x16 .f32 := broadcastInDim S1024x64x16x16 ![] bcast_S_S1024x64x16x16 main_cst
  let main_v2 : IVec S1024x64x16x16 1 := cmpf .olt main_v0 main_v1
  let main_c : IVec S_ 1 := constantI S_ 1 1#1
  let main_v3 : IVec S_ 1 := (fun x v => Host.reduce IntOp.andi x v reducesTo_S1024x64x16x16_S_d0_1_2_3 h_S_) main_v2 main_c
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_v13 main_v16
-- ==== Kernel.lean ====
abbrev S1024x64x16x16 : Shape := ⟨4, ![1024, 64, 16, 16]⟩
abbrev S2048x16384 : Shape := ⟨2, ![2048, 16384]⟩
abbrev S2048 : Shape := ⟨1, ![2048]⟩
abbrev S16x2048 : Shape := ⟨2, ![16, 2048]⟩
abbrev S16 : Shape := ⟨1, ![16]⟩
abbrev S25x16 : Shape := ⟨2, ![25, 16]⟩
abbrev S2048x16 : Shape := ⟨2, ![2048, 16]⟩
abbrev S16384x2048 : Shape := ⟨2, ![16384, 2048]⟩
abbrev S16384 : Shape := ⟨1, ![16384]⟩
abbrev S1024x16384 : Shape := ⟨2, ![1024, 16384]⟩
abbrev S1024x2048 : Shape := ⟨2, ![1024, 2048]⟩
abbrev S1024x1024 : Shape := ⟨2, ![1024, 1024]⟩
abbrev S2048x1024 : Shape := ⟨2, ![2048, 1024]⟩
abbrev S1x2048 : Shape := ⟨2, ![1, 2048]⟩
abbrev S1024x16 : Shape := ⟨2, ![1024, 16]⟩
abbrev S1x16 : Shape := ⟨2, ![1, 16]⟩
abbrev S16x25 : Shape := ⟨2, ![16, 25]⟩
abbrev S1024x25 : Shape := ⟨2, ![1024, 25]⟩
abbrev S_ : Shape := ⟨0, ![]⟩
abbrev S1024 : Shape := ⟨1, ![1024]⟩
abbrev S1024x1 : Shape := ⟨2, ![1024, 1]⟩
abbrev S1x1024 : Shape := ⟨2, ![1, 1024]⟩

abbrev nBuf : Space → Nat
  | .hbm => 99
  | .vmem => 16
  | .smem => 0
  | _ => 0

abbrev bufTy : (tb : Table) → Fin (tcTables nBuf tb) → BufTy
  | .hbm, ⟨0, _⟩ => ⟨S1024x64x16x16, .f32⟩
  | .hbm, ⟨1, _⟩ => ⟨S2048x16384, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S16x2048, .f32⟩
  | .hbm, ⟨6, _⟩ => ⟨S16, .f32⟩
  | .hbm, ⟨7, _⟩ => ⟨S25x16, .f32⟩
  | .hbm, ⟨8, _⟩ => ⟨S2048x16, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S16384x2048, .f32⟩
  | .hbm, ⟨13, _⟩ => ⟨S16384, .f32⟩
  | .hbm, ⟨14, _⟩ => ⟨S1024x16384, .f32⟩
  | .hbm, ⟨15, _⟩ => ⟨S1024x2048, .f32⟩
  | .hbm, ⟨16, _⟩ => ⟨S2048x16, .f32⟩
  | .hbm, ⟨17, _⟩ => ⟨S1024x16, .f32⟩
  | .hbm, ⟨18, _⟩ => ⟨S1x16, .f32⟩
  | .hbm, ⟨19, _⟩ => ⟨S1024x16, .f32⟩
  | .hbm, ⟨20, _⟩ => ⟨S1024x16, .f32⟩
  | .hbm, ⟨21, _⟩ => ⟨S16x25, .f32⟩
  | .hbm, ⟨22, _⟩ => ⟨S1024x25, .f32⟩
  | .hbm, ⟨23, _⟩ => ⟨S_, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1024x1, .f32⟩
  | .hbm, ⟨29, _⟩ => ⟨S1024x25, .f32⟩
  | .hbm, ⟨30, _⟩ => ⟨S1024x25, .f32⟩
  | .hbm, ⟨31, _⟩ => ⟨S1024x25, .f32⟩
  | .hbm, ⟨32, _⟩ => ⟨S_, .f32⟩
  | .hbm, ⟨33, _⟩ => ⟨S1024, .f32⟩
  | .hbm, ⟨34, _⟩ => ⟨S1024x1, .f32⟩
  | .hbm, ⟨35, _⟩ => ⟨S1024x25, .f32⟩
  | .hbm, ⟨36, _⟩ => ⟨S1024x25, .f32⟩
  | .hbm, ⟨37, _⟩ => ⟨S_, .f32⟩
  | .hbm, ⟨38, _⟩ => ⟨S1024x25, .f32⟩
  | .hbm, ⟨39, _⟩ => ⟨S1024x25, .f32⟩
  | .hbm, ⟨40, _⟩ => ⟨S_, .f32⟩
  | .hbm, ⟨41, _⟩ => ⟨S1024x25, .f32⟩
  | .hbm, ⟨42, _⟩ => ⟨S1024x25, .f32⟩
  | .hbm, ⟨43, _⟩ => ⟨S1024x25, .f32⟩
  | .hbm, ⟨44, _⟩ => ⟨S1024x25, .f32⟩
  | .hbm, ⟨45, _⟩ => ⟨S_, .f32⟩
  | .hbm, ⟨46, _⟩ => ⟨S1024x25, .f32⟩
  | .hbm, ⟨47, _⟩ => ⟨S1024x25, .f32⟩
  | .hbm, ⟨48, _⟩ => ⟨S1024x25, .f32⟩
  | .hbm, ⟨49, _⟩ => ⟨S1024x25, .f32⟩
  | .hbm, ⟨50, _⟩ => ⟨S_, .f32⟩
  | .hbm, ⟨51, _⟩ => ⟨S1024, .f32⟩
  | .hbm, ⟨52, _⟩ => ⟨S1024x1, .f32⟩
  | .hbm, ⟨53, _⟩ => ⟨S_, .f32⟩
  | .hbm, ⟨54, _⟩ => ⟨S1024x1, .f32⟩
  | .hbm, ⟨55, _⟩ => ⟨S1024x1, .f32⟩
  | .hbm, ⟨56, _⟩ => ⟨S1024x25, .f32⟩
  | .hbm, ⟨57, _⟩ => ⟨S1024x25, .f32⟩
  | .hbm, ⟨58, _⟩ => ⟨S1024x16, .f32⟩
  | .hbm, ⟨59, _⟩ => ⟨S16x2048, .f32⟩
  | .hbm, ⟨60, _⟩ => ⟨S1024x2048, .f32⟩
  | .hbm, ⟨61, _⟩ => ⟨S1x2048, .f32⟩
  | .hbm, ⟨62, _⟩ => ⟨S1024x2048, .f32⟩
  | .hbm, ⟨63, _⟩ => ⟨S1024x2048, .f32⟩
  | .hbm, ⟨64, _⟩ => ⟨S_, .f32⟩
  | .hbm, ⟨65, _⟩ => ⟨S2048, .f32⟩
  | .hbm, ⟨66, _⟩ => ⟨S_, .f32⟩
  | .hbm, ⟨67, _⟩ => ⟨S2048, .f32⟩
  | .hbm, ⟨68, _⟩ => ⟨S2048, .f32⟩
  | .hbm, ⟨69, _⟩ => ⟨S1x2048, .f32⟩
  | .hbm, ⟨70, _⟩ => ⟨S1024x2048, .f32⟩
  | .hbm, ⟨71, _⟩ => ⟨S1024x2048, .f32⟩
  | .hbm, ⟨72, _⟩ => ⟨S1024x2048, .f32⟩
  | .hbm, ⟨73, _⟩ => ⟨S_, .f32⟩
  | .hbm, ⟨74, _⟩ => ⟨S2048, .f32⟩
  | .hbm, ⟨75, _⟩ => ⟨S_, .f32⟩
  | .hbm, ⟨76, _⟩ => ⟨S2048, .f32⟩
  | .hbm, ⟨77, _⟩ => ⟨S2048, .f32⟩
  | .hbm, ⟨78, _⟩ => ⟨S1x2048, .f32⟩
  | .hbm, ⟨79, _⟩ => ⟨S1024x2048, .f32⟩
  | .hbm, ⟨80, _⟩ => ⟨S1024x2048, .f32⟩
  | .hbm, ⟨81, _⟩ => ⟨S_, .f32⟩
  | .hbm, ⟨82, _⟩ => ⟨S2048, .f32⟩
  | .hbm, ⟨83, _⟩ => ⟨S2048, .f32⟩
  | .hbm, ⟨84, _⟩ => ⟨S2048, .f32⟩
  | .hbm, ⟨85, _⟩ => ⟨S1x2048, .f32⟩
  | .hbm, ⟨86, _⟩ => ⟨S1024x2048, .f32⟩
  | .hbm, ⟨87, _⟩ => ⟨S1024x2048, .f32⟩
  | .hbm, ⟨88, _⟩ => ⟨S1x2048, .f32⟩
  | .hbm, ⟨89, _⟩ => ⟨S1024x2048, .f32⟩
  | .hbm, ⟨90, _⟩ => ⟨S1024x2048, .f32⟩
  | .hbm, ⟨91, _⟩ => ⟨S1x2048, .f32⟩
  | .hbm, ⟨92, _⟩ => ⟨S1024x2048, .f32⟩
  | .hbm, ⟨93, _⟩ => ⟨S1024x2048, .f32⟩
  | .hbm, ⟨94, _⟩ => ⟨S_, .f32⟩
  | .hbm, ⟨95, _⟩ => ⟨S1024x2048, .f32⟩
  | .hbm, ⟨96, _⟩ => ⟨S1024x2048, .f32⟩
  | .hbm, ⟨97, _⟩ => ⟨S1024x16384, .f32⟩
  | .hbm, ⟨98, _⟩ => ⟨S1024x64x16x16, .f32⟩
  | .local _ .vmem, ⟨0, _⟩ => ⟨S1024x1024, .f32⟩
  | .local _ .vmem, ⟨1, _⟩ => ⟨S1024x1024, .f32⟩
  | .local _ .vmem, ⟨2, _⟩ => ⟨S2048x1024, .f32⟩
  | .local _ .vmem, ⟨3, _⟩ => ⟨S2048x1024, .f32⟩
  | .local _ .vmem, ⟨4, _⟩ => ⟨S2048, .f32⟩
  | .local _ .vmem, ⟨5, _⟩ => ⟨S2048, .f32⟩
  | .local _ .vmem, ⟨6, _⟩ => ⟨S2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .f32⟩
  | .local _ .vmem, ⟨12, _⟩ => ⟨S1024, .f32⟩
  | .local _ .vmem, ⟨13, _⟩ => ⟨S1024, .f32⟩
  | .local _ .vmem, ⟨14, _⟩ => ⟨S1024x1024, .f32⟩
  | .local _ .vmem, ⟨15, _⟩ => ⟨S1024x1024, .f32⟩
  | _, _ => ⟨S1024x64x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_call0_cst : Ref sig .tc := ⟨.hbm, 40, rfl⟩
abbrev main_call0_v0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call1_cst : Ref sig .tc := ⟨.hbm, 94, rfl⟩
abbrev main_call1_v0 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v15 : BitVec 1 := Scalar.cmpi .eq arg0 c15_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1024x64x16x16_S1024x16384 : S1024x64x16x16.ShapeCasts S1024x16384
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  transposes_S2048x1024_p1_0_S1024x2048 : S2048x1024.Transposes [1, 0] S1024x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  reduces_S1024x2048_S2048 : S1024x2048.Reduces [0] S2048
  transposes_S16x2048_S2048x16_1_0 : S16x2048.Transposes [1, 0] S2048x16
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  transposes_S25x16_S16x25_1_0 : S25x16.Transposes [1, 0] S16x25
  reducesTo_S1024x25_S1024_d1 : S1024x25.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x25_0_1 : S1024x1.BroadcastsInDim S1024x25 (![0, 1] : Fin 2 → Fin S1024x25.rank)
  bcast_S_S1024x25 : S_.BroadcastsInDim S1024x25 (![] : Fin 0 → Fin S1024x25.rank)
  bcast_S_S1024x1 : S_.BroadcastsInDim S1024x1 (![] : Fin 0 → Fin S1024x1.rank)
  transposes_S2048x16_S16x2048_1_0 : S2048x16.Transposes [1, 0] S16x2048
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  reducesTo_S1024x2048_S2048_d0 : S1024x2048.ReducesTo [0] S2048
  bcast_S_S2048 : S_.BroadcastsInDim S2048 (![] : Fin 0 → Fin S2048.rank)
  bcast_S_S1024x2048 : S_.BroadcastsInDim S1024x2048 (![] : Fin 0 → Fin S1024x2048.rank)
  transposes_S1024x2048_p1_0_S2048x1024 : S1024x2048.Transposes [1, 0] S2048x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S1024x16384_S1024x64x16x16 : S1024x16384.ShapeCasts S1024x64x16x16
  dot_S1024x1024_S1024x2048_S1024x2048_1_0_0_1_n_n_wf : DotDims.WF S1024x1024 S1024x2048 S1024x2048 [1] [0] [0] [1] [] []
  dot_S1024x2048_S2048x16_S1024x16_1_0_0_1_n_n_wf : DotDims.WF S1024x2048 S2048x16 S1024x16 [1] [0] [0] [1] [] []
  dot_S1024x16_S16x25_S1024x25_1_0_0_1_n_n_wf : DotDims.WF S1024x16 S16x25 S1024x25 [1] [0] [0] [1] [] []
  dot_S1024x25_S25x16_S1024x16_1_0_0_1_n_n_wf : DotDims.WF S1024x25 S25x16 S1024x16 [1] [0] [0] [1] [] []
  dot_S1024x16_S16x2048_S1024x2048_1_0_0_1_n_n_wf : DotDims.WF S1024x16 S16x2048 S1024x2048 [1] [0] [0] [1] [] []
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x16384.size a
  hwx0_0 : ∀ i : grid0.Coords, EltTy.bits .f32 = 32 ∨ (Rect.block (s := S1024x16384) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x16384.size a
  hwx0_1 : ∀ i : grid0.Coords, EltTy.bits .f32 = 32 ∨ (Rect.block (s := S2048x16384) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S2048.size a
  hwx0_3 : ∀ i : grid0.Coords, EltTy.bits .f32 = 32 ∨ (Rect.block (s := S2048) S2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S1024x2048.size a
  hwx1_0 : ∀ i : grid1.Coords, EltTy.bits .f32 = 32 ∨ (Rect.block (s := S1024x2048) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S16384x2048.size a
  hwx1_1 : ∀ i : grid1.Coords, EltTy.bits .f32 = 32 ∨ (Rect.block (s := S16384x2048) S1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S16384.size a
  hwx1_2 : ∀ i : grid1.Coords, EltTy.bits .f32 = 32 ∨ (Rect.block (s := S16384) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x16384.size a
  hwx1_3 : ∀ i : grid1.Coords, EltTy.bits .f32 = 32 ∨ (Rect.block (s := S1024x16384) S1024x1024.size (cc1_transform_3 i) (hinb1_3 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x2048_S2048x16_S1024x16_1_0_0_1_n_n : DotDims S1024x2048 S2048x16 S1024x16 where
  lhsContracting := [1]
  rhsContracting := [0]
  lhsNonContracting := [0]
  rhsNonContracting := [1]
  lhsBatch := []
  rhsBatch := []
  wf := dot_S1024x2048_S2048x16_S1024x16_1_0_0_1_n_n_wf
def dot_S1024x16_S16x25_S1024x25_1_0_0_1_n_n : DotDims S1024x16 S16x25 S1024x25 where
  lhsContracting := [1]
  rhsContracting := [0]
  lhsNonContracting := [0]
  rhsNonContracting := [1]
  lhsBatch := []
  rhsBatch := []
  wf := dot_S1024x16_S16x25_S1024x25_1_0_0_1_n_n_wf
def dot_S1024x25_S25x16_S1024x16_1_0_0_1_n_n : DotDims S1024x25 S25x16 S1024x16 where
  lhsContracting := [1]
  rhsContracting := [0]
  lhsNonContracting := [0]
  rhsNonContracting := [1]
  lhsBatch := []
  rhsBatch := []
  wf := dot_S1024x25_S25x16_S1024x16_1_0_0_1_n_n_wf
def dot_S1024x16_S16x2048_S1024x2048_1_0_0_1_n_n : DotDims S1024x16 S16x2048 S1024x2048 where
  lhsContracting := [1]
  rhsContracting := [0]
  lhsNonContracting := [0]
  rhsNonContracting := [1]
  lhsBatch := []
  rhsBatch := []
  wf := dot_S1024x16_S16x2048_S1024x2048_1_0_0_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x2048.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v66) S1024x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v67) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024x64x16x16 : Shape := ⟨4, ![1024, 64, 16, 16]⟩
abbrev S2048x16384 : Shape := ⟨2, ![2048, 16384]⟩
abbrev S2048 : Shape := ⟨1, ![2048]⟩
abbrev S16x2048 : Shape := ⟨2, ![16, 2048]⟩
abbrev S16 : Shape := ⟨1, ![16]⟩
abbrev S25x16 : Shape := ⟨2, ![25, 16]⟩
abbrev S2048x16 : Shape := ⟨2, ![2048, 16]⟩
abbrev S16384x2048 : Shape := ⟨2, ![16384, 2048]⟩
abbrev S16384 : Shape := ⟨1, ![16384]⟩
abbrev S1024x16384 : Shape := ⟨2, ![1024, 16384]⟩
abbrev S1024x2048 : Shape := ⟨2, ![1024, 2048]⟩
abbrev S1x2048 : Shape := ⟨2, ![1, 2048]⟩
abbrev S_ : Shape := ⟨0, ![]⟩
abbrev S1024x16 : Shape := ⟨2, ![1024, 16]⟩
abbrev S1x16 : Shape := ⟨2, ![1, 16]⟩
abbrev S16x25 : Shape := ⟨2, ![16, 25]⟩
abbrev S1024x25 : Shape := ⟨2, ![1024, 25]⟩
abbrev S1024 : Shape := ⟨1, ![1024]⟩
abbrev S1024x1 : Shape := ⟨2, ![1024, 1]⟩
abbrev S1x16384 : Shape := ⟨2, ![1, 16384]⟩

abbrev nBuf : Space → Nat
  | .hbm => 140
  | .vmem => 0
  | .smem => 0
  | _ => 0

abbrev hbmTy0_0 (i : Nat) : BufTy := match i % 128 with
  | 0 => ⟨S1024x64x16x16, .f32⟩
  | 1 => ⟨S2048x16384, .f32⟩
  | 2 => ⟨S2048, .f32⟩
  | 3 => ⟨S2048, .f32⟩
  | 4 => ⟨S2048, .f32⟩
  | 5 => ⟨S16x2048, .f32⟩
  | 6 => ⟨S16, .f32⟩
  | 7 => ⟨S25x16, .f32⟩
  | 8 => ⟨S2048x16, .f32⟩
  | 9 => ⟨S2048, .f32⟩
  | 10 => ⟨S2048, .f32⟩
  | 11 => ⟨S2048, .f32⟩
  | 12 => ⟨S16384x2048, .f32⟩
  | 13 => ⟨S16384, .f32⟩
  | 14 => ⟨S1024x16384, .f32⟩
  | 15 => ⟨S16384x2048, .f32⟩
  | 16 => ⟨S1024x2048, .f32⟩
  | 17 => ⟨S1x2048, .f32⟩
  | 18 => ⟨S1024x2048, .f32⟩
  | 19 => ⟨S1024x2048, .f32⟩
  | 20 => ⟨S_, .f32⟩
  | 21 => ⟨S2048, .f32⟩
  | 22 => ⟨S_, .f32⟩
  | 23 => ⟨S2048, .f32⟩
  | 24 => ⟨S2048, .f32⟩
  | 25 => ⟨S1x2048, .f32⟩
  | 26 => ⟨S1024x2048, .f32⟩
  | 27 => ⟨S1024x2048, .f32⟩
  | 28 => ⟨S1024x2048, .f32⟩
  | 29 => ⟨S_, .f32⟩
  | 30 => ⟨S2048, .f32⟩
  | 31 => ⟨S_, .f32⟩
  | 32 => ⟨S2048, .f32⟩
  | 33 => ⟨S2048, .f32⟩
  | 34 => ⟨S1x2048, .f32⟩
  | 35 => ⟨S1024x2048, .f32⟩
  | 36 => ⟨S1024x2048, .f32⟩
  | 37 => ⟨S_, .f32⟩
  | 38 => ⟨S2048, .f32⟩
  | 39 => ⟨S2048, .f32⟩
  | 40 => ⟨S2048, .f32⟩
  | 41 => ⟨S1x2048, .f32⟩
  | 42 => ⟨S1024x2048, .f32⟩
  | 43 => ⟨S1024x2048, .f32⟩
  | 44 => ⟨S1x2048, .f32⟩
  | 45 => ⟨S1024x2048, .f32⟩
  | 46 => ⟨S1024x2048, .f32⟩
  | 47 => ⟨S1x2048, .f32⟩
  | 48 => ⟨S1024x2048, .f32⟩
  | 49 => ⟨S1024x2048, .f32⟩
  | 50 => ⟨S_, .f32⟩
  | 51 => ⟨S1024x2048, .f32⟩
  | 52 => ⟨S1024x2048, .f32⟩
  | 53 => ⟨S2048x16, .f32⟩
  | 54 => ⟨S1024x16, .f32⟩
  | 55 => ⟨S1x16, .f32⟩
  | 56 => ⟨S1024x16, .f32⟩
  | 57 => ⟨S1024x16, .f32⟩
  | 58 => ⟨S16x25, .f32⟩
  | 59 => ⟨S1024x25, .f32⟩
  | 60 => ⟨S_, .f32⟩
  | 61 => ⟨S1024, .f32⟩
  | 62 => ⟨S_, .f32⟩
  | 63 => ⟨S1024, .f32⟩
  | 64 => ⟨S1024, .f32⟩
  | 65 => ⟨S1024x1, .f32⟩
  | 66 => ⟨S1024x25, .f32⟩
  | 67 => ⟨S1024x25, .f32⟩
  | 68 => ⟨S1024x25, .f32⟩
  | 69 => ⟨S_, .f32⟩
  | 70 => ⟨S1024, .f32⟩
  | 71 => ⟨S1024x1, .f32⟩
  | 72 => ⟨S1024x25, .f32⟩
  | 73 => ⟨S1024x25, .f32⟩
  | 74 => ⟨S_, .f32⟩
  | 75 => ⟨S1024x25, .f32⟩
  | 76 => ⟨S1024x25, .f32⟩
  | 77 => ⟨S_, .f32⟩
  | 78 => ⟨S1024x25, .f32⟩
  | 79 => ⟨S1024x25, .f32⟩
  | 80 => ⟨S1024x25, .f32⟩
  | 81 => ⟨S1024x25, .f32⟩
  | 82 => ⟨S_, .f32⟩
  | 83 => ⟨S1024x25, .f32⟩
  | 84 => ⟨S1024x25, .f32⟩
  | 85 => ⟨S1024x25, .f32⟩
  | 86 => ⟨S1024x25, .f32⟩
  | 87 => ⟨S_, .f32⟩
  | 88 => ⟨S1024, .f32⟩
  | 89 => ⟨S1024x1, .f32⟩
  | 90 => ⟨S_, .f32⟩
  | 91 => ⟨S1024x1, .f32⟩
  | 92 => ⟨S1024x1, .f32⟩
  | 93 => ⟨S1024x25, .f32⟩
  | 94 => ⟨S1024x25, .f32⟩
  | 95 => ⟨S1024x16, .f32⟩
  | 96 => ⟨S16x2048, .f32⟩
  | 97 => ⟨S1024x2048, .f32⟩
  | 98 => ⟨S1x2048, .f32⟩
  | 99 => ⟨S1024x2048, .f32⟩
  | 100 => ⟨S1024x2048, .f32⟩
  | 101 => ⟨S_, .f32⟩
  | 102 => ⟨S2048, .f32⟩
  | 103 => ⟨S_, .f32⟩
  | 104 => ⟨S2048, .f32⟩
  | 105 => ⟨S2048, .f32⟩
  | 106 => ⟨S1x2048, .f32⟩
  | 107 => ⟨S1024x2048, .f32⟩
  | 108 => ⟨S1024x2048, .f32⟩
  | 109 => ⟨S1024x2048, .f32⟩
  | 110 => ⟨S_, .f32⟩
  | 111 => ⟨S2048, .f32⟩
  | 112 => ⟨S_, .f32⟩
  | 113 => ⟨S2048, .f32⟩
  | 114 => ⟨S2048, .f32⟩
  | 115 => ⟨S1x2048, .f32⟩
  | 116 => ⟨S1024x2048, .f32⟩
  | 117 => ⟨S1024x2048, .f32⟩
  | 118 => ⟨S_, .f32⟩
  | 119 => ⟨S2048, .f32⟩
  | 120 => ⟨S2048, .f32⟩
  | 121 => ⟨S2048, .f32⟩
  | 122 => ⟨S1x2048, .f32⟩
  | 123 => ⟨S1024x2048, .f32⟩
  | 124 => ⟨S1024x2048, .f32⟩
  | 125 => ⟨S1x2048, .f32⟩
  | 126 => ⟨S1024x2048, .f32⟩
  | 127 => ⟨S1024x2048, .f32⟩
  | _ => ⟨S1024x64x16x16, .f32⟩

abbrev hbmTy0_1 (i : Nat) : BufTy := match i % 128 with
  | 0 => ⟨S1x2048, .f32⟩
  | 1 => ⟨S1024x2048, .f32⟩
  | 2 => ⟨S1024x2048, .f32⟩
  | 3 => ⟨S_, .f32⟩
  | 4 => ⟨S1024x2048, .f32⟩
  | 5 => ⟨S1024x2048, .f32⟩
  | 6 => ⟨S2048x16384, .f32⟩
  | 7 => ⟨S1024x16384, .f32⟩
  | 8 => ⟨S1x16384, .f32⟩
  | 9 => ⟨S1024x16384, .f32⟩
  | 10 => ⟨S1024x16384, .f32⟩
  | 11 => ⟨S1024x64x16x16, .f32⟩
  | _ => ⟨S1024x64x16x16, .f32⟩

abbrev hbmTy (i : Nat) : BufTy := match i / 128 with
  | 0 => hbmTy0_0 i
  | 1 => hbmTy0_1 i
  | _ => ⟨S1024x64x16x16, .f32⟩

abbrev bufTy : (tb : Table) → Fin (tcTables nBuf tb) → BufTy
  | .hbm, ⟨i, _⟩ => hbmTy i
  | _, _ => ⟨S1024x64x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_7 : Ref sig .tc := ⟨.hbm, 74, rfl⟩
abbrev main_v50 : Ref sig .tc := ⟨.hbm, 75, rfl⟩
abbrev main_v51 : Ref sig .tc := ⟨.hbm, 76, rfl⟩
abbrev main_call1_cst : Ref sig .tc := ⟨.hbm, 77, rfl⟩
abbrev main_call1_v0 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_11 : Ref sig .tc := ⟨.hbm, 101, rfl⟩
abbrev main_v71 : Ref sig .tc := ⟨.hbm, 102, rfl⟩
abbrev main_cst_12 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_13 : Ref sig .tc := ⟨.hbm, 110, rfl⟩
abbrev main_v78 : Ref sig .tc := ⟨.hbm, 111, rfl⟩
abbrev main_cst_14 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_15 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_call2_cst : Ref sig .tc := ⟨.hbm, 131, rfl⟩
abbrev main_call2_v0 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩

abbrev nD : Nat := 1
abbrev τ : Topo := Topo.v7x

variable {F : FTy → Type} [FloatOps F]

class Facts₀ : Prop where
  shapeCasts_S1024x64x16x16_S1024x16384 : S1024x64x16x16.ShapeCasts S1024x16384
  transposes_S2048x16384_S16384x2048_1_0 : S2048x16384.Transposes [1, 0] S16384x2048
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  reducesTo_S1024x2048_S2048_d0 : S1024x2048.ReducesTo [0] S2048
  h_S_ : 0 < S_.numel
  bcast_S_S2048 : S_.BroadcastsInDim S2048 (![] : Fin 0 → Fin S2048.rank)
  bcast_S_S1024x2048 : S_.BroadcastsInDim S1024x2048 (![] : Fin 0 → Fin S1024x2048.rank)
  transposes_S16x2048_S2048x16_1_0 : S16x2048.Transposes [1, 0] S2048x16
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  transposes_S25x16_S16x25_1_0 : S25x16.Transposes [1, 0] S16x25
  reducesTo_S1024x25_S1024_d1 : S1024x25.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x25_0_1 : S1024x1.BroadcastsInDim S1024x25 (![0, 1] : Fin 2 → Fin S1024x25.rank)
  bcast_S_S1024x25 : S_.BroadcastsInDim S1024x25 (![] : Fin 0 → Fin S1024x25.rank)
  bcast_S_S1024x1 : S_.BroadcastsInDim S1024x1 (![] : Fin 0 → Fin S1024x1.rank)
  transposes_S2048x16_S16x2048_1_0 : S2048x16.Transposes [1, 0] S16x2048
  transposes_S16384x2048_S2048x16384_1_0 : S16384x2048.Transposes [1, 0] S2048x16384
  bcast_S16384_S1x16384_1 : S16384.BroadcastsInDim S1x16384 (![1] : Fin 1 → Fin S1x16384.rank)
  bcast_S1x16384_S1024x16384_0_1 : S1x16384.BroadcastsInDim S1024x16384 (![0, 1] : Fin 2 → Fin S1024x16384.rank)
  shapeCasts_S1024x16384_S1024x64x16x16 : S1024x16384.ShapeCasts S1024x64x16x16
  dot_S1024x16384_S16384x2048_S1024x2048_1_0_0_1_n_n_wf : DotDims.WF S1024x16384 S16384x2048 S1024x2048 [1] [0] [0] [1] [] []
  dot_S1024x2048_S2048x16_S1024x16_1_0_0_1_n_n_wf : DotDims.WF S1024x2048 S2048x16 S1024x16 [1] [0] [0] [1] [] []
  dot_S1024x16_S16x25_S1024x25_1_0_0_1_n_n_wf : DotDims.WF S1024x16 S16x25 S1024x25 [1] [0] [0] [1] [] []
  dot_S1024x25_S25x16_S1024x16_1_0_0_1_n_n_wf : DotDims.WF S1024x25 S25x16 S1024x16 [1] [0] [0] [1] [] []
  dot_S1024x16_S16x2048_S1024x2048_1_0_0_1_n_n_wf : DotDims.WF S1024x16 S16x2048 S1024x2048 [1] [0] [0] [1] [] []
  dot_S1024x2048_S2048x16384_S1024x16384_1_0_0_1_n_n_wf : DotDims.WF S1024x2048 S2048x16384 S1024x16384 [1] [0] [0] [1] [] []

variable [Facts₀]

def dot_S1024x16384_S16384x2048_S1024x2048_1_0_0_1_n_n : DotDims S1024x16384 S16384x2048 S1024x2048 where
  lhsContracting := [1]
  rhsContracting := [0]
  lhsNonContracting := [0]
  rhsNonContracting := [1]
  lhsBatch := []
  rhsBatch := []
  wf := dot_S1024x16384_S16384x2048_S1024x2048_1_0_0_1_n_n_wf
def dot_S1024x2048_S2048x16_S1024x16_1_0_0_1_n_n : DotDims S1024x2048 S2048x16 S1024x16 where
  lhsContracting := [1]
  rhsContracting := [0]
  lhsNonContracting := [0]
  rhsNonContracting := [1]
  lhsBatch := []
  rhsBatch := []
  wf := dot_S1024x2048_S2048x16_S1024x16_1_0_0_1_n_n_wf
def dot_S1024x16_S16x25_S1024x25_1_0_0_1_n_n : DotDims S1024x16 S16x25 S1024x25 where
  lhsContracting := [1]
  rhsContracting := [0]
  lhsNonContracting := [0]
  rhsNonContracting := [1]
  lhsBatch := []
  rhsBatch := []
  wf := dot_S1024x16_S16x25_S1024x25_1_0_0_1_n_n_wf
def dot_S1024x25_S25x16_S1024x16_1_0_0_1_n_n : DotDims S1024x25 S25x16 S1024x16 where
  lhsContracting := [1]
  rhsContracting := [0]
  lhsNonContracting := [0]
  rhsNonContracting := [1]
  lhsBatch := []
  rhsBatch := []
  wf := dot_S1024x25_S25x16_S1024x16_1_0_0_1_n_n_wf
def dot_S1024x16_S16x2048_S1024x2048_1_0_0_1_n_n : DotDims S1024x16 S16x2048 S1024x2048 where
  lhsContracting := [1]
  rhsContracting := [0]
  lhsNonContracting := [0]
  rhsNonContracting := [1]
  lhsBatch := []
  rhsBatch := []
  wf := dot_S1024x16_S16x2048_S1024x2048_1_0_0_1_n_n_wf
def dot_S1024x2048_S2048x16384_S1024x16384_1_0_0_1_n_n : DotDims S1024x2048 S2048x16384 S1024x16384 where
  lhsContracting := [1]
  rhsContracting := [0]
  lhsNonContracting := [0]
  rhsNonContracting := [1]
  lhsBatch := []
  rhsBatch := []
  wf := dot_S1024x2048_S2048x16384_S1024x16384_1_0_0_1_n_n_wf

class Facts : Prop extends Facts₀ where

variable [Facts]
-- ==== Proof.KEnc.lean ====
/-
  The encoder region (the first pallas_call): Linear -> BatchNorm -> ReLU with the contraction axis cut into
  16 column blocks of 1024. The scratch accumulator carries the running sum of the blocks' products from one
  grid point to the next; the output block (the whole 1024 x 2048 result) is stored at the last point only.
  Everything is stated at a parameter `V`: what the core's buffers hold when the region is entered.
-/
import proofs.«108296_j46119358825052_1_alg».proof.Proof.Gen.Kernel.Launch
import proofs.«108296_j46119358825052_1_alg».proof.Proof.Gen.Kernel.Skeleton
import proofs.«108296_j46119358825052_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Enc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at position `n`: zero plus the products of column blocks `0 … n`
    of the activations and the weights, added one block at a time. -/
def acc (c : Dev nD) : (n : ℕ) → n < cfg0.N → Vec F S1024x2048 .f32
  | 0, h => k0_pay2 (blk V c 0 ⟨0, h⟩) (blk V c 1 ⟨0, h⟩) (k0_pay1 (F := F))
  | n + 1, h => k0_pay2 (blk V c 0 ⟨n + 1, h⟩) (blk V c 1 ⟨n + 1, h⟩) (acc c n (Nat.lt_of_succ_lt h))

/-- What the epilogue makes of the accumulator at point `t`: bias, batch statistics over the rows,
    normalisation, scale and shift, and the positive part. Only its value at the last point is ever written back. -/
def outAt (c : Dev nD) (t : Fin cfg0.N) : Vec F S1024x2048 .f32 :=
  k0_pay3 (acc V c t.val t.isLt) (blk V c 2 t) (blk V c 3 t) (blk V c 4 t)

/-- The scoped buffers of the core that belong to the second call (its seven staging buffers), each whole at
    some contents: what the encoder's body neither reads nor writes. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The invariant before position `n`: before the first point the scoped buffers at anything; afterwards the
    accumulator at the running sum, the other scoped buffers at anything; the generator register at some state. -/
def Phi (c : Dev nD) : (n : ℕ) → n ≤ cfg0.N → sProp 𝕄
  | 0, _ => Pipeline.ΦA spec0 c
  | n + 1, hn => iprop(owns (c : Thread nD τ) (Memref.whole cc0_scratch0 : Memref sig .tc .vmem S1024x2048 .f32) fullShare (acc V c n hn) ∗ (others (F := F) c ∗ ∃ r, prngReg c r))

/-- The proof data of the encoder's pipeline on core `c`. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outAt V c t
  Φ t := Phi V c t.val (Nat.le_of_lt_succ t.isLt)
  q _ := fullShare
  owed _ := 0

theorem dat_A (c : Dev nD) (w : Fin cfg0.W) : (dat V c).A w = V c (Pipeline.arrRef spec0 w) := by
  dsimp only [dat]

/-! ## The body on whole buffers, one run per control case

The body's two conditionals depend on the grid coordinate only, so a point is in one of three cases: the first
point (the accumulator is zeroed first), a middle point, the last point (the epilogue is stored). Every load and
every store is of a buffer's full extent, so a load reads the buffer's contents and a store leaves its payload. -/

/-- The first conditional of the body: the grid coordinate is zero. -/
abbrev atFirst (i : grid0.Coords) : Prop :=
  Scalar.cmpi .ne (Scalar.extui (Scalar.cmpi .eq (BitVec.ofNat 32 (i 0).val) 0#32)) 0#32 = 1#1

/-- The zero offsets of a rank-2 rectangle, as the constant function. -/
theorem off2_zero : (![0, 0] : Fin 2 → ℕ) = fun _ => 0 := by
  funext a; fin_cases a <;> rfl

/-- The zero offset of a rank-1 rectangle, as the constant function. -/
theorem off1_zero : (![0] : Fin 1 → ℕ) = fun _ => 0 := by
  funext a; fin_cases a; rfl

/-- A load of the full extent of a whole buffer reads its contents. -/
theorem load_full {S : Shape} {e : EltTy} (M : Memref sig .tc .vmem S e) (h : M.IsWhole) {off : Fin S.rank → ℕ}
    (hz : off = fun _ => 0) (inb : ∀ a, off a + S.size a ≤ S.size a) (x : S.Idx → Elt F e) :
    View.readAt (Elt F) M.view (Rect.unit off S.size inb).toLoadRect (h.unread x) = x := by
  rw [View.readAt_eq_ld, h.read_unread, View.ld_unit_zero hz]

/-- After a list of stores whose last one fills the full extent, the buffer reads that store's payload. -/
theorem read_after_full {S : Shape} {e : EltTy} (M : Memref sig .tc .vmem S e) (f : M.view.ty.Contents (Elt F)) {off : Fin S.rank → ℕ}
    (hz : off = fun _ => 0) (inb : ∀ a, off a + S.size a ≤ S.size a) (w : S.Idx → Elt F e) (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

set_option maxHeartbeats 1000000 in
/-- THE FIRST POINT. The accumulator, whatever it held, is set to zero and then to zero plus the product of the
    two input blocks; the inputs are left as found. -/
theorem run_first (c : Dev nD) (i : grid0.Coords)
    (arg1 : Memref sig .tc .vmem S1024x1024 .f32) (harg1 : arg1.IsWhole) (arg2 : Memref sig .tc .vmem S2048x1024 .f32) (harg2 : arg2.IsWhole)
    (arg3 : Memref sig .tc .vmem S2048 .f32) (harg3 : arg3.IsWhole) (arg4 : Memref sig .tc .vmem S2048 .f32) (harg4 : arg4.IsWhole)
    (arg5 : Memref sig .tc .vmem S2048 .f32) (harg5 : arg5.IsWhole) (arg6 : Memref sig .tc .vmem S1024x2048 .f32) (harg6 : arg6.IsWhole)
    (arg7 : Memref sig .tc .vmem S1024x2048 .f32) (harg7 : arg7.IsWhole)
    (h1 : atFirst i) (h2 : ¬ k0_cond2 i = 1#1)
    (x1 : Vec F S1024x1024 .f32) (x2 : Vec F S2048x1024 .f32) (a : Vec F S1024x2048 .f32)
    (E : Set ℕ) (K : PUnit → sProp 𝕄) :
    iprop(owns (c : Thread nD τ) arg1 fullShare x1 ∗ owns (c : Thread nD τ) arg2 fullShare x2 ∗ owns (c : Thread nD τ) arg7 fullShare a
        ∗ (iprop(owns (c : Thread nD τ) arg1 fullShare x1 ∗ owns (c : Thread nD τ) arg2 fullShare x2
              ∗ owns (c : Thread nD τ) arg7 fullShare (k0_pay2 x1 x2 (k0_pay1 (F := F)))) -∗ K ⟨⟩))
      ⊢ wp frame (wpE (defs₀ (F := F)) Variants.none c none) E
          (cc0__encoder_kernel i arg1 harg1 arg2 harg2 arg3 harg3 arg4 harg4 arg5 harg5 arg6 harg6 arg7 harg7) K := by
  simp only [cc0__encoder_kernel_eq_skeleton]; unfold cc0__encoder_kernel_skel
  unfold owns
  iintro ⟨⟨%f1, %hf1, H1⟩, ⟨%f2, %hf2, H2⟩, ⟨%f7, %hf7, H7⟩, Hk⟩
  obtain rfl := harg1.eq_unread hf1; obtain rfl := harg2.eq_unread hf2; obtain rfl := harg7.eq_unread hf7
  sl_exec (disch := first | exact h1 | exact h2)
  sl_step
  iapply Hk
  isplitl [H1]
  · iexists _; isplitr; · ipureintro; exact hf1
    iexact H1
  isplitl [H2]
  · iexists _; isplitr; · ipureintro; exact hf2
    iexact H2
  iexists _; isplitr
  swap; · iexact H7
  ipureintro
  sl_unfold_words
  rw [read_after_full arg7 _ off2_zero, load_full arg1 harg1 off2_zero, load_full arg2 harg2 off2_zero,
    View.readCov_unit_zero _ off2_zero]

set_option maxHeartbeats 1000000 in
/-- A MIDDLE POINT. The accumulator gains the product of the two input blocks; the inputs are left as found. -/
theorem run_mid (c : Dev nD) (i : grid0.Coords)
    (arg1 : Memref sig .tc .vmem S1024x1024 .f32) (harg1 : arg1.IsWhole) (arg2 : Memref sig .tc .vmem S2048x1024 .f32) (harg2 : arg2.IsWhole)
    (arg3 : Memref sig .tc .vmem S2048 .f32) (harg3 : arg3.IsWhole) (arg4 : Memref sig .tc .vmem S2048 .f32) (harg4 : arg4.IsWhole)
    (arg5 : Memref sig .tc .vmem S2048 .f32) (harg5 : arg5.IsWhole) (arg6 : Memref sig .tc .vmem S1024x2048 .f32) (harg6 : arg6.IsWhole)
    (arg7 : Memref sig .tc .vmem S1024x2048 .f32) (harg7 : arg7.IsWhole)
    (h1 : ¬ atFirst i) (h2 : ¬ k0_cond2 i = 1#1)
    (x1 : Vec F S1024x1024 .f32) (x2 : Vec F S2048x1024 .f32) (a : Vec F S1024x2048 .f32)
    (E : Set ℕ) (K : PUnit → sProp 𝕄) :
    iprop(owns (c : Thread nD τ) arg1 fullShare x1 ∗ owns (c : Thread nD τ) arg2 fullShare x2 ∗ owns (c : Thread nD τ) arg7 fullShare a
        ∗ (iprop(owns (c : Thread nD τ) arg1 fullShare x1 ∗ owns (c : Thread nD τ) arg2 fullShare x2
              ∗ owns (c : Thread nD τ) arg7 fullShare (k0_pay2 x1 x2 a)) -∗ K ⟨⟩))
      ⊢ wp frame (wpE (defs₀ (F := F)) Variants.none c none) E
          (cc0__encoder_kernel i arg1 harg1 arg2 harg2 arg3 harg3 arg4 harg4 arg5 harg5 arg6 harg6 arg7 harg7) K := by
  simp only [cc0__encoder_kernel_eq_skeleton]; unfold cc0__encoder_kernel_skel
  unfold owns
  iintro ⟨⟨%f1, %hf1, H1⟩, ⟨%f2, %hf2, H2⟩, ⟨%f7, %hf7, H7⟩, Hk⟩
  obtain rfl := harg1.eq_unread hf1; obtain rfl := harg2.eq_unread hf2; obtain rfl := harg7.eq_unread hf7
  sl_exec (disch := first | exact h1 | exact h2)
  sl_step
  iapply Hk
  isplitl [H1]
  · iexists _; isplitr; · ipureintro; exact hf1
    iexact H1
  isplitl [H2]
  · iexists _; isplitr; · ipureintro; exact hf2
    iexact H2
  iexists _; isplitr
  swap; · iexact H7
  ipureintro
  sl_unfold_words
  rw [read_after_full arg7 _ off2_zero, load_full arg1 harg1 off2_zero, load_full arg2 harg2 off2_zero,
    load_full arg7 harg7 off2_zero]

set_option maxHeartbeats 1000000 in
/-- THE LAST POINT. The accumulator gains the product of the two input blocks, and the output buffer, whatever it
    held, is set to the epilogue of the new accumulator with the bias, scale and shift vectors; the five inputs are
    left as found. -/
theorem run_last (c : Dev nD) (i : grid0.Coords)
    (arg1 : Memref sig .tc .vmem S1024x1024 .f32) (harg1 : arg1.IsWhole) (arg2 : Memref sig .tc .vmem S2048x1024 .f32) (harg2 : arg2.IsWhole)
    (arg3 : Memref sig .tc .vmem S2048 .f32) (harg3 : arg3.IsWhole) (arg4 : Memref sig .tc .vmem S2048 .f32) (harg4 : arg4.IsWhole)
    (arg5 : Memref sig .tc .vmem S2048 .f32) (harg5 : arg5.IsWhole) (arg6 : Memref sig .tc .vmem S1024x2048 .f32) (harg6 : arg6.IsWhole)
    (arg7 : Memref sig .tc .vmem S1024x2048 .f32) (harg7 : arg7.IsWhole)
    (h1 : ¬ atFirst i) (h2 : k0_cond2 i = 1#1)
    (x1 : Vec F S1024x1024 .f32) (x2 : Vec F S2048x1024 .f32) (x3 x4 x5 : Vec F S2048 .f32) (x6 : Vec F S1024x2048 .f32) (a : Vec F S1024x2048 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare a
        ∗ (iprop(owns (c : Thread nD τ) arg1 fullShare x1 ∗ owns (c : Thread nD τ) arg2 fullShare x2 ∗ owns (c : Thread nD τ) arg3 fullShare x3
              ∗ owns (c : Thread nD τ) arg4 fullShare x4 ∗ owns (c : Thread nD τ) arg5 fullShare x5
              ∗ owns (c : Thread nD τ) arg6 fullShare (k0_pay3 (k0_pay2 x1 x2 a) x3 x4 x5)
              ∗ owns (c : Thread nD τ) arg7 fullShare (k0_pay2 x1 x2 a)) -∗ K ⟨⟩))
      ⊢ wp frame (wpE (defs₀ (F := F)) Variants.none c none) E
          (cc0__encoder_kernel i arg1 harg1 arg2 harg2 arg3 harg3 arg4 harg4 arg5 harg5 arg6 harg6 arg7 harg7) K := by
  simp only [cc0__encoder_kernel_eq_skeleton]; unfold cc0__encoder_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | exact h1 | exact h2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [read_after_full arg6 _ off2_zero, View.readCov_unit_zero _ off2_zero, load_full arg1 harg1 off2_zero,
      load_full arg2 harg2 off2_zero, load_full arg7 harg7 off2_zero, load_full arg3 harg3 off1_zero,
      load_full arg4 harg4 off1_zero, load_full arg5 harg5 off1_zero]
  iexists _; isplitr
  swap; · iexact H7
  ipureintro
  sl_unfold_words
  rw [read_after_full arg7 _ off2_zero, load_full arg1 harg1 off2_zero, load_full arg2 harg2 off2_zero,
    load_full arg7 harg7 off2_zero]

/-! ## The conditionals in closed form, and where the output window is idle -/

/-- The first conditional holds at point 0 and nowhere else — decided over the sixteen points. -/
theorem atFirst_iff : ∀ t : Fin cfg0.N, atFirst (grid0.coords t) ↔ t.val = 0 :=
  (by decide +kernel : ∀ t : Fin grid0.N, atFirst (grid0.coords t) ↔ t.val = 0)

/-- The second conditional holds at point 15 and nowhere else — decided over the sixteen points. -/
theorem atLast_iff : ∀ t : Fin cfg0.N, k0_cond2 (grid0.coords t) = 1#1 ↔ t.val = 15 :=
  (by decide +kernel : ∀ t : Fin grid0.N, k0_cond2 (grid0.coords t) = 1#1 ↔ t.val = 15)

/-- Where the second conditional fails the output window is idle: the body stores nothing into its buffer. -/
theorem out_idle (t : Fin cfg0.N) (h : ¬ k0_cond2 (grid0.coords t) = 1#1) : cfg0.idle 5 (grid0.coords t) = true := by
  show (!(k0_cond2 (grid0.coords t) == 1#1)) = true
  rw [Bool.not_eq_true', beq_eq_false_iff_ne]; exact h

/-- Where it holds the window is live. -/
theorem out_live (t : Fin cfg0.N) (h : k0_cond2 (grid0.coords t) = 1#1) : cfg0.idle 5 (grid0.coords t) = false := by
  show (!(k0_cond2 (grid0.coords t) == 1#1)) = false
  rw [h]; rfl

/-- Before the last point the output block is not written back. -/
theorem out_kept (t : Fin cfg0.N) (h : t.val ≠ 15) : (cfg0.win 5).flush t = false := by
  have hN : t.val < 16 := lt_of_lt_of_eq t.isLt N_0
  cases hf : (cfg0.win 5).flush t
  · rfl
  · exact absurd ((flush0_5 t).mp hf) (by omega)

/-! ## The invariant, unfolded -/

/-- The class invariant with the accumulator split off the other scoped buffers. -/
theorem PhiA_split (c : Dev nD) :
    (Pipeline.ΦA spec0 c : sProp 𝕄)
      = iprop(((∃ d, owns (c : Thread nD τ) (Memref.whole cc0_scratch0 : Memref sig .tc .vmem S1024x2048 .f32) fullShare d) ∗ others (F := F) c) ∗ (∃ r, prngReg c r)) := by
  unfold Pipeline.ΦA others; rw [scopedRest0_eq]; simp only [owns_whole]

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop(owns (c : Thread nD τ) (Memref.whole cc0_scratch0 : Memref sig .tc .vmem S1024x2048 .f32) fullShare (acc V c n hn) ∗ (others (F := F) c ∗ ∃ r, prngReg c r)) := rfl

/-- Before a point that is not the first the accumulator holds the running sum up to the point before. -/
theorem Phi_pos (c : Dev nD) (n : ℕ) (h : n ≤ cfg0.N) (hz : n ≠ 0) :
    Phi V c n h = iprop(owns (c : Thread nD τ) (Memref.whole cc0_scratch0 : Memref sig .tc .vmem S1024x2048 .f32) fullShare (acc V c (n - 1) (by omega)) ∗ (others (F := F) c ∗ ∃ r, prngReg c r)) := by
  cases n with
  | zero => exact absurd rfl hz
  | succ n => rfl

theorem Phi_before (c : Dev nD) (t : Fin cfg0.N) : (dat V c).Φ t.castSucc = Phi V c t.val (Nat.le_of_lt t.isLt) := by
  dsimp only [dat]; simp only [Fin.coe_castSucc]

theorem Phi_after (c : Dev nD) (t : Fin cfg0.N) : (dat V c).Φ t.succ = Phi V c (t.val + 1) t.isLt := rfl

/-- The running sum at the first point: zero plus the first product. -/
theorem acc_first (c : Dev nD) (t : Fin cfg0.N) (h : t.val = 0) :
    acc V c t.val t.isLt = k0_pay2 (blk V c 0 t) (blk V c 1 t) (k0_pay1 (F := F)) := by
  obtain ⟨n, hn⟩ := t
  cases n with
  | zero => rfl
  | succ n => exact absurd h (Nat.succ_ne_zero n)

/-- The running sum at a later point: the sum up to the point before plus this point's product. -/
theorem acc_later (c : Dev nD) (t : Fin cfg0.N) (h : t.val ≠ 0) :
    acc V c t.val t.isLt = k0_pay2 (blk V c 0 t) (blk V c 1 t) (acc V c (t.val - 1) (Nat.lt_of_le_of_lt (Nat.sub_le _ _) t.isLt)) := by
  obtain ⟨n, hn⟩ := t
  cases n with
  | zero => exact absurd rfl h
  | succ n => rfl

/-! ## What the body finds in the windows' buffers and leaves there -/

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = outAt V c t := by dsimp only [dat]

/-- An input window's buffer holds the window's block at every point, fetched there or not: the body never
    stores into it, and where the pipeline does not fetch, the block index has not moved. -/
theorem found_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [dat_A]) t d).trans
    (by unfold Dat.fetched Dat.blockOf blk; rw [dat_A]; rfl)
theorem found_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [dat_A]) t d).trans
    (by unfold Dat.fetched Dat.blockOf blk; rw [dat_A]; rfl)
theorem found_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [dat_A]) t d).trans
    (by unfold Dat.fetched Dat.blockOf blk; rw [dat_A]; rfl)
theorem found_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [dat_A]) t d).trans
    (by unfold Dat.fetched Dat.blockOf blk; rw [dat_A]; rfl)
theorem found_4 (c : Dev nD) (t : Fin cfg0.N) (d) : (dat V c).before 4 t d = blk V c 4 t :=
  ((dat V c).before_in_eq_fetched 4 rfl (fun _ => rfl) (fun _ _ _ => rfl)
    (fun t => by rw [after_4]; unfold Dat.blockOf blk; rw [dat_A]) t d).trans
    (by unfold Dat.fetched Dat.blockOf blk; rw [dat_A]; rfl)

/-- An input window is never idle, so the body must leave its block in the buffer. -/
theorem left_0 (c : Dev nD) (t : Fin cfg0.N) :
    (dat V c).leavesExact 0 t = owns (c : Thread nD τ) (st0_0 t) fullShare (blk V c 0 t) := by
  show owns (c : Thread nD τ) (st0_0 t) fullShare ((dat V c).after 0 t) = _
  rw [after_0]
theorem left_1 (c : Dev nD) (t : Fin cfg0.N) :
    (dat V c).leavesExact 1 t = owns (c : Thread nD τ) (st0_1 t) fullShare (blk V c 1 t) := by
  show owns (c : Thread nD τ) (st0_1 t) fullShare ((dat V c).after 1 t) = _
  rw [after_1]
theorem left_2 (c : Dev nD) (t : Fin cfg0.N) :
    (dat V c).leavesExact 2 t = owns (c : Thread nD τ) (st0_2 t) fullShare (blk V c 2 t) := by
  show owns (c : Thread nD τ) (st0_2 t) fullShare ((dat V c).after 2 t) = _
  rw [after_2]
theorem left_3 (c : Dev nD) (t : Fin cfg0.N) :
    (dat V c).leavesExact 3 t = owns (c : Thread nD τ) (st0_3 t) fullShare (blk V c 3 t) := by
  show owns (c : Thread nD τ) (st0_3 t) fullShare ((dat V c).after 3 t) = _
  rw [after_3]
theorem left_4 (c : Dev nD) (t : Fin cfg0.N) :
    (dat V c).leavesExact 4 t = owns (c : Thread nD τ) (st0_4 t) fullShare (blk V c 4 t) := by
  show owns (c : Thread nD τ) (st0_4 t) fullShare ((dat V c).after 4 t) = _
  rw [after_4]

/-! ## The body obligation -/

/-- What the body is handed at point `t`: the invariant, the (empty) debts, each window's current buffer. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- What it hands back. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4000000 in
/-- The body at any point. The inputs' buffers hold their blocks; the closed forms say which of the three
    cases the point is in; the invariant hands over the accumulator (at anything before the first point, at the
    running sum afterwards) and takes it back at this point's running sum; the output buffer is handed back
    untouched before the last point and holds the epilogue's value after it. The core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found_0, found_1, found_2, found_3, found_4]
  rw [show (dat V c).owesAt () t.succ = (dat V c).owesAt () t.castSucc from rfl, Phi_after, Phi_succ, Phi_before,
    left_0, left_1, left_2, left_3, left_4]
  have hN : t.val < 16 := lt_of_lt_of_eq t.isLt N_0
  by_cases hz : t.val = 0
  · -- the first point
    have h1 : atFirst (grid0.coords t) := (atFirst_iff t).mpr hz
    have h2 : ¬ k0_cond2 (grid0.coords t) = 1#1 := fun h => by have := (atLast_iff t).mp h; omega
    rw [Dat.leavesExact_idle (dat V c) 5 t (out_idle t h2) (out_kept t (by omega)), acc_first V c t hz,
      Phi_zero V c _ _ hz, PhiA_split]
    iintro ⟨⟨⟨⟨%a, Ha⟩, Ho⟩, Hg⟩, Hw, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ h1 h2 (blk V c 0 t) (blk V c 1 t) a Set.univ _)
    isplitl [H0]; · iexact H0
    isplitl [H1]; · iexact H1
    isplitl [Ha]; · iexact Ha
    iintro ⟨H0, H1, Ha⟩
    isplitl [Ha Ho Hg]
    · isplitl [Ha]; · iexact Ha
      isplitl [Ho]; · iexact Ho
      iexact Hg
    isplitl [Hw]; · iexact Hw
    isplitl [H0]; · iexact H0
    isplitl [H1]; · iexact H1
    isplitl [H2]; · iexact H2
    isplitl [H3]; · iexact H3
    isplitl [H4]; · iexact H4
    iexists d5; iexact H5
  · have h1 : ¬ atFirst (grid0.coords t) := fun h => hz ((atFirst_iff t).mp h)
    rw [acc_later V c t hz, Phi_pos V c _ _ hz]
    by_cases hl : t.val = 15
    · -- the last point
      have h2 : k0_cond2 (grid0.coords t) = 1#1 := (atLast_iff t).mpr hl
      rw [show (dat V c).leavesExact 5 t = owns (c : Thread nD τ) (st0_5 t) fullShare ((dat V c).after 5 t) from by
        unfold Dat.leavesExact; rw [out_live t h2], after_5]
      unfold outAt
      rw [acc_later V c t hz]
      iintro ⟨⟨Ha, Ho, Hg⟩, Hw, ⟨%d0, H0⟩, ⟨%d1, H1⟩, ⟨%d2, H2⟩, ⟨%d3, H3⟩, ⟨%d4, H4⟩, ⟨%d5, H5⟩⟩
      iapply (run_last c (grid0.coords t) _ _ _ _ _ _ _ _ _ _ _ _ _ _ h1 h2 (blk V c 0 t) (blk V c 1 t) (blk V c 2 t) (blk V c 3 t) (blk V c 4 t)
        ((dat V c).before 5 t d5) (acc V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [Ha]; · iexact Ha
      iintro ⟨H0, H1, H2, H3, H4, H5, Ha⟩
      isplitl [Ha Ho Hg]
      · isplitl [Ha]; · iexact Ha
        isplitl [Ho]; · iexact Ho
        iexact Hg
      isplitl [Hw]; · iexact Hw
      isplitl [H0]; · iexact H0
      isplitl [H1]; · iexact H1
      isplitl [H2]; · iexact H2
      isplitl [H3]; · iexact H3
      isplitl [H4]; · iexact H4
      iexact H5
    · -- a middle point
      have h2 : ¬ k0_cond2 (grid0.coords t) = 1#1 := fun h => hl ((atLast_iff t).mp h)
      rw [Dat.leavesExact_idle (dat V c) 5 t (out_idle t h2) (out_kept t hl)]
      iintro ⟨⟨Ha, Ho, Hg⟩, Hw, ⟨%d0, H0⟩, ⟨%d1, H1⟩, ⟨%d2, H2⟩, ⟨%d3, H3⟩, ⟨%d4, H4⟩, ⟨%d5, H5⟩⟩
      iapply (run_mid c (grid0.coords t) _ _ _ _ _ _ _ _ _ _ _ _ _ _ h1 h2 (blk V c 0 t) (blk V c 1 t)
        (acc V c (t.val - 1) (Nat.lt_of_le_of_lt (Nat.sub_le _ _) t.isLt)) Set.univ _)
      isplitl [H0]; · iexact H0
      isplitl [H1]; · iexact H1
      isplitl [Ha]; · iexact Ha
      iintro ⟨H0, H1, Ha⟩
      isplitl [Ha Ho Hg]
      · isplitl [Ha]; · iexact Ha
        isplitl [Ho]; · iexact Ho
        iexact Hg
      isplitl [Hw]; · iexact Hw
      isplitl [H0]; · iexact H0
      isplitl [H1]; · iexact H1
      isplitl [H2]; · iexact H2
      isplitl [H3]; · iexact H3
      isplitl [H4]; · iexact H4
      iexists d5; iexact H5

/-- The body obligation at every grid point. -/
theorem body_obligation (c : Dev nD) : BodyObligation (dat (F := F) V c) (defs₀ (F := F)) Variants.none () Set.univ := fun t => by
  rw [bigSep_W0, bigSep_W0]
  exact sound_body V c t

/-- The class's invariant enters as the first point's. -/
theorem phi_in (c : Dev nD) : Pipeline.ΦA spec0 c ⊢ (dat V c).Φ 0 := by
  rw [show (dat V c).Φ 0 = Phi V c 0 (Nat.zero_le _) from rfl, Phi_zero V c 0 _ rfl]

/-- The last point's invariant gives the class's back. -/
theorem phi_out (c : Dev nD) : (dat V c).Φ (Fin.last cfg0.N) ⊢ Pipeline.ΦA spec0 c := by
  have hN : cfg0.N = 16 := N_0
  rw [show (dat V c).Φ (Fin.last cfg0.N) = Phi V c (Fin.last cfg0.N).val (Nat.le_of_lt_succ (Fin.last cfg0.N).isLt) from rfl,
    Phi_pos V c _ _ (by rw [Fin.val_last]; omega), PhiA_split]
  iintro ⟨Ha, Ho, Hg⟩
  isplitl [Ha Ho]
  · isplitl [Ha]
    · iexists _; iexact Ha
    iexact Ho
  iexact Hg

/-- The last grid point. -/
def tLast : Fin cfg0.N := ⟨15, by decide⟩

/-! ## The result array after the region

The output window's one block is the whole array (its block index is zero on both axes at every point), and it is
written back at the last point only: the array ends holding what the body left there. -/

/-- The output window's block index is zero on both axes — decided over the sixteen points. -/
theorem out_index : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- So an element of the block sits in the array at its own coordinates. -/
theorem out_emb (t : Fin cfg0.N) (j : S1024x2048.Idx) : ((cfg0.win 5).blk t).view.emb j = j := by
  obtain ⟨e0, e1⟩ := out_index t
  funext a; apply Fin.ext
  match a with
  | ⟨0, _⟩ => show win0_5.index t (0 : Fin 2) * 1024 + 1 * (j 0).val = (j 0).val; omega
  | ⟨1, _⟩ => show win0_5.index t (1 : Fin 2) * 2048 + 1 * (j 1).val = (j 1).val; omega

/-- and every index of the array is in the block. -/
theorem out_mem (t : Fin cfg0.N) (i : S1024x2048.Idx) : i ∈ ((cfg0.win 5).blk t).view.set := by
  obtain ⟨e0, e1⟩ := out_index t
  show i ∈ ((View.whole main_v1).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    have hi : (i 0).val < 1024 := (i 0).isLt
    omega
  | ⟨1, _⟩ =>
    show win0_5.index t (1 : Fin 2) * 2048 ≤ (i 1).val ∧ (i 1).val < win0_5.index t (1 : Fin 2) * 2048 + 2048
    have hi : (i 1).val < 2048 := (i 1).isLt
    omega

/-- The one write-back, at the last point, writes the epilogue's value there. -/
theorem flushed_last (c : Dev nD) (t : Fin cfg0.N) (hf : (cfg0.win 5).flush t = true) :
    (dat V c).flushed 5 t = ((cfg0.win 5).blk t).view.read (Elt F) (outAt V c tLast) := by
  have hN : t.val < 16 := lt_of_lt_of_eq t.isLt N_0
  have ht : t = tLast := Fin.ext (by have := (flush0_5 t).mp hf; show t.val = 15; omega)
  subst ht
  show (cfg0.win 5).cut (grid0.coords tLast) ((dat V c).after 5 tLast) = _
  rw [after_5]
  funext j
  rw [View.read_apply, out_emb]
  rfl

/-- After the region the result array holds the epilogue's value at the last point. -/
theorem final (c : Dev nD) : (dat V c).arrAt 5 cfg0.N = outAt V c tLast :=
  (dat V c).arrAt_eq_of_cover 5 (outAt V c tLast) (fun t hf => flushed_last V c t hf)
    (fun i => ⟨tLast, (flush0_5 tLast).mpr rfl, out_mem tLast i⟩)

end Cert.Kernel.Enc

end
-- ==== Proof.KDec.lean ====
/-
  The decoder region (the second pallas_call): out = h2 · W4ᵀ + b4 with the output columns cut into 16 blocks
  of 1024. Each grid point reads the whole of h2, one row block of W4 and one block of b4, and stores one column
  block of the result; nothing is carried from point to point.
  Everything is stated at a parameter `V`: what the core's buffers hold when the region is entered.
-/
import proofs.«108296_j46119358825052_1_alg».proof.Proof.Gen.Kernel.Launch
import proofs.«108296_j46119358825052_1_alg».proof.Proof.Gen.Kernel.Skeleton
import proofs.«108296_j46119358825052_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Dec

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The column block of the result a grid point stores: the product of h2 with the point's rows of W4,
    plus the point's block of the bias on every row. -/
def outAt (c : Dev nD) (t : Fin cfg1.N) : Vec F S1024x1024 .f32 :=
  k1_pay1 (blk V c 0 t) (blk V c 1 t) (blk V c 2 t)

/-- The proof data of the decoder's pipeline on core `c`. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outAt V c t
  Φ _ := Pipeline.ΦA spec1 c
  q _ := fullShare
  owed _ := 0

theorem dat_A (c : Dev nD) (w : Fin cfg1.W) : (dat V c).A w = V c (Pipeline.arrRef spec1 w) := by
  dsimp only [dat]

theorem after_out (c : Dev nD) (t : Fin cfg1.N) : (dat V c).after 3 t = outAt V c t := by dsimp only [dat]

/-! ## What the inputs' buffers hold when the body runs

None of the three input windows is cut, and the body stores into none of them, so a buffer that was not refilled at a
point still holds the block of the point before, which has the same block index. Hence every point finds each input's
buffer at that point's block of the array. -/

/-- Reading the proof data's array through a window's block is `blk`. -/
theorem blockOf_eq (c : Dev nD) (w : Fin cfg1.W) (t : Fin cfg1.N) : (dat V c).blockOf w t = blk V c w t := by
  unfold Dat.blockOf blk; rw [dat_A]

theorem after_h2 (c : Dev nD) (t : Fin cfg1.N) : (dat V c).after 0 t = blk V c 0 t := by dsimp only [dat]
theorem after_w4 (c : Dev nD) (t : Fin cfg1.N) : (dat V c).after 1 t = blk V c 1 t := by dsimp only [dat]
theorem after_b4 (c : Dev nD) (t : Fin cfg1.N) : (dat V c).after 2 t = blk V c 2 t := by dsimp only [dat]

/-- h2: one block for the whole grid, brought in at the first point and found again at the fifteen others. -/
theorem h2_found (c : Dev nD) (t : Fin cfg1.N) (d) : (dat V c).before 0 t d = blk V c 0 t := by
  rw [(dat V c).before_in_eq_fetched 0 rfl (fun _ => rfl) (fun _ _ _ => rfl)
    (fun s => by rw [after_h2, blockOf_eq]) t d]
  unfold Dat.fetched; rw [blockOf_eq]; rfl

/-- W4: the point's block of 1024 rows. -/
theorem w4_found (c : Dev nD) (t : Fin cfg1.N) (d) : (dat V c).before 1 t d = blk V c 1 t := by
  rw [(dat V c).before_in_eq_fetched 1 rfl (fun _ => rfl) (fun _ _ _ => rfl)
    (fun s => by rw [after_w4, blockOf_eq]) t d]
  unfold Dat.fetched; rw [blockOf_eq]; rfl

/-- b4: the point's block of 1024 entries. -/
theorem b4_found (c : Dev nD) (t : Fin cfg1.N) (d) : (dat V c).before 2 t d = blk V c 2 t := by
  rw [(dat V c).before_in_eq_fetched 2 rfl (fun _ => rfl) (fun _ _ _ => rfl)
    (fun s => by rw [after_b4, blockOf_eq]) t d]
  unfold Dat.fetched; rw [blockOf_eq]; rfl

/-! ## The body on whole buffers -/

/-- The offsets of every access of the body: the origin. -/
theorem origin2 : (![0, 0] : Fin 2 → ℕ) = fun _ => 0 := by funext a; fin_cases a <;> rfl
theorem origin1 : (![0] : Fin 1 → ℕ) = fun _ => 0 := by funext a; fin_cases a; rfl

/-- The body's one store is through the rectangle of the whole output buffer, so it reaches every entry of it. -/
theorem store_reaches (p : Vec F S1024x1024 .f32) (y : S1024x1024.Idx) :
    ∃ pc ∈ ([⟨Rect.unit (s := S1024x1024) ![0, 0] S1024x1024.size inb_S1024x1024_S1024x1024_0_0, p⟩] :
        List (View.Piece (Elt F) S1024x1024 .f32)), y ∈ pc.1.set :=
  View.cover_of_tiled _ S1024x1024.size (by rfl) y

set_option maxHeartbeats 1000000 in
/-- The body reads its three inputs whole and overwrites the whole of its output buffer with the payload of what it
    read; the inputs are left as they were, and what the output buffer held before does not matter. -/
theorem decoder_run (c : Dev nD) (E : Set ℕ) (i : grid1.Coords)
    (a1 : Memref sig .tc .vmem S1024x2048 .f32) (w1 : a1.IsWhole) (a2 : Memref sig .tc .vmem S1024x2048 .f32) (w2 : a2.IsWhole)
    (a3 : Memref sig .tc .vmem S1024 .f32) (w3 : a3.IsWhole) (a4 : Memref sig .tc .vmem S1024x1024 .f32) (w4 : a4.IsWhole)
    (x : Vec F S1024x2048 .f32) (wt : Vec F S1024x2048 .f32) (b : Vec F S1024 .f32) (Q : PUnit → sProp 𝕄) :
    iprop(owns (c : Thread nD τ) a1 fullShare x ∗ owns (c : Thread nD τ) a2 fullShare wt ∗ owns (c : Thread nD τ) a3 fullShare b
        ∗ (∃ o, owns (c : Thread nD τ) a4 fullShare o)
        ∗ (iprop(owns (c : Thread nD τ) a1 fullShare x ∗ owns (c : Thread nD τ) a2 fullShare wt ∗ owns (c : Thread nD τ) a3 fullShare b
            ∗ owns (c : Thread nD τ) a4 fullShare (k1_pay1 x wt b)) -∗ Q ⟨⟩))
      ⊢ wp frame (wpE (defs₀ (F := F)) Variants.none c none) E (cc1__decoder_kernel i a1 w1 a2 w2 a3 w3 a4 w4) Q := by
  simp only [cc1__decoder_kernel_eq_skeleton]; unfold cc1__decoder_kernel_skel
  unfold owns
  iintro ⟨⟨%f1, %e1, H1⟩, ⟨%f2, %e2, H2⟩, ⟨%f3, %e3, H3⟩, ⟨%o, %f4, -, H4⟩, Hk⟩
  subst e1 e2 e3
  sl_exec
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  iexists _; isplitr
  rotate_left
  · iexact H4
  ipureintro
  -- the one store covers the buffer, so what is read back is its payload, and each whole load is the contents read
  rw [View.read_writes_eq_canon _ _ _ (store_reaches _), View.canon_unit_zero (S := S1024x1024) origin2]
  simp only [View.readAt_eq_ld, View.ld_unit_zero (S := S1024x2048) origin2, View.ld_unit_zero (S := S1024) origin1]

/-! ## The obligation -/

/-- What the pipeline hands the body at point `t`: the class's invariant, nothing owed, and the four current staging
    buffers, each at what it holds then. -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- What it takes back: the same, each buffer at what the proof data says the body leaves. -/
def returned (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at a point: the three inputs are at their blocks, the output buffer at anything, so `decoder_run`
    applies with the blocks as the contents read; the invariant and the owed count are not touched. -/
theorem point_run (c : Dev nD) (t : Fin cfg1.N) :
    handed V c t ⊢ wp frame (wpE (defs₀ (F := F)) Variants.none c none) Set.univ (bodyAt1 t) (fun _ => returned V c t) := by
  unfold handed returned bodyAt1
  simp only [h2_found, w4_found, b4_found]
  rw [show (dat V c).Φ t.succ = (dat V c).Φ t.castSucc from rfl,
    show (dat V c).owesAt () t.succ = (dat V c).owesAt () t.castSucc from rfl,
    after_h2, after_w4, after_b4, after_out]
  iintro ⟨HΦ, Ho, ⟨%d0, H0⟩, ⟨%d1, H1⟩, ⟨%d2, H2⟩, ⟨%d3, H3⟩⟩
  iapply (decoder_run c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  unfold outAt
  iexact H3

/-- The body obligation at every grid point. -/
theorem body_obligation (c : Dev nD) : BodyObligation (dat (F := F) V c) (defs₀ (F := F)) Variants.none () Set.univ := fun t => by
  rw [bigSep_W1, bigSep_W1]
  exact point_run V c t

end Cert.Kernel.Dec

end
-- ==== Proof.KWhole.lean ====
/-
  The whole program: the launch contents run through the first host stretch (a reshape), the encoder region,
  the latent-space host stretches, the decoder region and the closing reshape. Between two items every
  unscoped buffer of a core is held at a named valuation; a region changes exactly its output array, which
  ends at what its grid points wrote back.
-/
import proofs.«108296_j46119358825052_1_alg».proof.Proof.Gen.Kernel.Launch
import proofs.«108296_j46119358825052_1_alg».proof.Proof.Gen.Kernel.Skeleton
import proofs.«108296_j46119358825052_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«108296_j46119358825052_1_alg».proof.Proof.Gen.Kernel.Regions
import proofs.«108296_j46119358825052_1_alg».proof.Proof.KEnc
import proofs.«108296_j46119358825052_1_alg».proof.Proof.KDec
set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the encoder region finds in the core's buffers: the launch contents after the first host stretch. -/
abbrev encIn : (c : Dev nD) → (b : Ref sig .tc) → Buf (Elt F) ((c : Thread nD τ).loc b) := fun c b => Gen.V1 m c b

/-- The buffers at the encoder region's exit: its arrays at what the pipeline leaves, every other buffer as entered. -/
def afterEnc (c : Dev nD) : Valuation τ sig (Elt F) :=
  Pipeline.withArrays spec0 c (Gen.V1 m c) fun w => (Enc.dat (encIn m) c).arrAt w cfg0.N

/-- The regions' outputs when only the encoder's is named yet. -/
def outsEnc : Gen.Outs (F := F) := fun _ r c => afterEnc m c r

/-- What the decoder region finds: the encoder's exit contents run through the latent-space host stretches. -/
abbrev decIn : (c : Dev nD) → (b : Ref sig .tc) → Buf (Elt F) ((c : Thread nD τ).loc b) := fun c b => Gen.V6 m (outsEnc m) c b

/-- The buffers at the decoder region's exit. -/
def afterDec (c : Dev nD) : Valuation τ sig (Elt F) :=
  Pipeline.withArrays spec1 c (Gen.V6 m (outsEnc m) c) fun w => (Dec.dat (decIn m) c).arrAt w cfg1.N

/-- What each region leaves in its output array: after item 1 the encoder's result, after item 6 the decoder's. -/
def outs : Gen.Outs (F := F) := fun j r c => if j = 7 then afterDec m c r else afterEnc m c r

/-- The encoder's output array after the region is what its pipeline wrote back. -/
theorem outs_enc (c : Dev nD) : outs m 2 main_v1 c = (Enc.dat (encIn m) c).arrAt 5 cfg0.N := by
  unfold outs
  rw [if_neg (show (2 : ℕ) ≠ 7 by decide)]
  unfold afterEnc
  exact Pipeline.withArrays_arr spec0 launch0.win.arr_inj c _ _ 5

/-- The decoder's output array after the region is what its pipeline wrote back. -/
theorem outs_dec (c : Dev nD) : outs m 7 main_v67 c = (Dec.dat (decIn m) c).arrAt 3 cfg1.N := by
  unfold outs
  rw [if_pos (show (7 : ℕ) = 7 from rfl)]
  unfold afterDec
  exact Pipeline.withArrays_arr spec1 launch1.win.arr_inj c _ _ 3

/-- At item 2 both families name the encoder's exit contents. -/
theorem outs_item2 (c : Dev nD) : outs m 2 main_v1 c = outsEnc m 2 main_v1 c := by
  unfold outs outsEnc
  rw [if_neg (show (2 : ℕ) ≠ 7 by decide)]

/-- The decoder is entered from the same contents whichever of the two families names the outputs. -/
theorem V6_outs (c : Dev nD) : Gen.V6 m (outs m) c = Gen.V6 m (outsEnc m) c := by
  -- the latent-space stretches run from the valuation after item 1, which reads the family at item 2 only
  unfold Gen.V6 Gen.V5 Gen.V4 Gen.V3 Gen.V2
  rw [outs_item2 m c]

/-- Every pipeline's proof data, each at its region's entry contents. -/
def pdats : (p : Fin 2) → (c : Dev nD) → Dat τ (Elt F) Unit ℕ (UR sig nD τ) ℕ (cfgs p) c
  | ⟨0, _⟩ => fun c => Enc.dat (encIn m) c
  | ⟨1, _⟩ => fun c => Dec.dat (decIn m) c

/-! ## The two regions' data, by name -/

theorem pdats_enc (c : Dev nD) : pdats m 0 c = Enc.dat (encIn m) c := rfl
theorem pdats_dec (c : Dev nD) : pdats m 1 c = Dec.dat (decIn m) c := rfl

/-- The decoder's invariant is the class's at every position. -/
theorem dec_phi (c : Dev nD) (t : Fin (cfg1.N + 1)) : (Dec.dat (decIn m) c).Φ t = Pipeline.ΦA spec1 c := by
  dsimp only [Dec.dat]

/-! ## The valuation after a region, array by array

A region's input arrays are never written back, so they end as entered, and the valuation after the region is the
one before it but at the output array; the output array ends at what the last write-back leaves. -/

/-- The valuation after item 1 holds, at the encoder's result array, what the family names there. -/
theorem V2_result (c : Dev nD) : Gen.V2 m (outs m) c main_v1 = outs m 2 main_v1 c := by
  unfold Gen.V2
  exact Function.update_self _ _ _

/-- The valuation after item 6 holds, at the decoder's result array, what the family names there. -/
theorem V7_result (c : Dev nD) : Gen.V7 m (outs m) c main_v67 = outs m 7 main_v67 c := by
  unfold Gen.V7
  exact Function.update_self _ _ _

/-- An input array of the encoder ends at what the valuation after item 1 holds there. -/
theorem enc_arr_in (c : Dev nD) (w : Fin cfg0.W) (hin : (cfg0.win w).isOut = false) (r : Ref sig .tc)
    (hr : Pipeline.arrRef spec0 w = r) (hne : r ∉ ([main_v1] : List (Ref sig .tc))) :
    (Enc.dat (encIn m) c).arrAt w cfg0.N = Gen.V2 m (outs m) c (Pipeline.arrRef spec0 w) := by
  subst hr
  exact ((Enc.dat (encIn m) c).arrAt_in w hin _).trans
    ((Enc.dat_A (encIn m) c w).trans (Gen.V2_of m (outs m) c _ hne).symm)

/-- Every array of the encoder ends at what the valuation after item 1 holds there. -/
theorem enc_arr (c : Dev nD) : ∀ w : Fin cfg0.W,
    (Enc.dat (encIn m) c).arrAt w cfg0.N = Gen.V2 m (outs m) c (Pipeline.arrRef spec0 w)
  | ⟨0, _⟩ => enc_arr_in m c 0 rfl main_v0 rfl (by decide)
  | ⟨1, _⟩ => enc_arr_in m c 1 rfl main_arg1 rfl (by decide)
  | ⟨2, _⟩ => enc_arr_in m c 2 rfl main_arg2 rfl (by decide)
  | ⟨3, _⟩ => enc_arr_in m c 3 rfl main_arg3 rfl (by decide)
  | ⟨4, _⟩ => enc_arr_in m c 4 rfl main_arg4 rfl (by decide)
  | ⟨5, _⟩ => (outs_enc m c).symm.trans (V2_result m c).symm
  | ⟨_ + 6, h⟩ => absurd h (Nat.not_lt.2 (Nat.le_add_left _ _))

/-- Off the encoder's arrays item 1 changes nothing. -/
theorem enc_off (c : Dev nD) (b : Ref sig .tc) (hb : b ∉ Finset.univ.image (Pipeline.arrRef spec0)) :
    Gen.V2 m (outs m) c b = Gen.V1 m c b :=
  Gen.V2_of m (outs m) c b fun h => hb (by
    rw [List.mem_singleton] at h
    subst h
    exact Finset.mem_image.mpr ⟨5, Finset.mem_univ _, rfl⟩)

/-- An input array of the decoder ends at what the valuation after item 6 holds there. -/
theorem dec_arr_in (c : Dev nD) (w : Fin cfg1.W) (hin : (cfg1.win w).isOut = false) (r : Ref sig .tc)
    (hr : Pipeline.arrRef spec1 w = r) (hne : r ∉ ([main_v67] : List (Ref sig .tc))) :
    (Dec.dat (decIn m) c).arrAt w cfg1.N = Gen.V7 m (outs m) c (Pipeline.arrRef spec1 w) := by
  subst hr
  exact ((Dec.dat (decIn m) c).arrAt_in w hin _).trans
    ((Dec.dat_A (decIn m) c w).trans
      ((Gen.V7_of m (outs m) c _ hne).trans (congrFun (V6_outs m c) _)).symm)

/-- Every array of the decoder ends at what the valuation after item 6 holds there. -/
theorem dec_arr (c : Dev nD) : ∀ w : Fin cfg1.W,
    (Dec.dat (decIn m) c).arrAt w cfg1.N = Gen.V7 m (outs m) c (Pipeline.arrRef spec1 w)
  | ⟨0, _⟩ => dec_arr_in m c 0 rfl main_v66 rfl (by decide)
  | ⟨1, _⟩ => dec_arr_in m c 1 rfl main_arg12 rfl (by decide)
  | ⟨2, _⟩ => dec_arr_in m c 2 rfl main_arg13 rfl (by decide)
  | ⟨3, _⟩ => (outs_dec m c).symm.trans (V7_result m c).symm
  | ⟨_ + 4, h⟩ => absurd h (Nat.not_lt.2 (Nat.le_add_left _ _))

/-- Off the decoder's arrays item 6 changes nothing. -/
theorem dec_off (c : Dev nD) (b : Ref sig .tc) (hb : b ∉ Finset.univ.image (Pipeline.arrRef spec1)) :
    Gen.V7 m (outs m) c b = Gen.V6 m (outsEnc m) c b :=
  (Gen.V7_of m (outs m) c b fun h => hb (by
    rw [List.mem_singleton] at h
    subst h
    exact Finset.mem_image.mpr ⟨3, Finset.mem_univ _, rfl⟩)).trans (congrFun (V6_outs m c) _)

/-! ## What rides beside the buffers

No core owes another anything and no level is assigned. Beside its unscoped buffers a core carries its generator
register at some state (a region's invariant takes it in and hands it back) and a due of nothing. -/

abbrev 𝒱₀ : Variants := Variants.none
abbrev L : GSem nD τ sig → Finset Unit := fun _ => ∅
abbrev lv : GSem nD τ sig → Unit → ℕ := fun _ _ => 0

abbrev rest (c : Dev nD) : sProp 𝕄 :=
  iprop((∃ r, prngReg c r) ∗ ∃ W, owes (c : Thread nD τ) (0 : CellTallies nD τ sig Unit) W)

/-- The same rest between any two items. -/
abbrev E : Fin 3 → Dev nD → sProp 𝕄 := fun _ c => rest (F := F) c

/-- The unscoped buffers at the encoder's exit, read at the core's own references. -/
abbrev encOut : (c : Dev nD) → (b : Ref sig .tc) → Buf (Elt F) ((c : Thread nD τ).loc b) := fun c b => Gen.V2 m (outs m) c b
/-- The unscoped buffers at the decoder's exit, read at the core's own references. -/
abbrev decOut : (c : Dev nD) → (b : Ref sig .tc) → Buf (Elt F) ((c : Thread nD τ).loc b) := fun c b => Gen.V7 m (outs m) c b

/-! ## The regions as segments -/

-- a library lemma stated over the pinned configuration meets the printed one only when unification may unfold plain
-- definitions in a metavariable's type
set_option backward.isDefEq.respectTransparency.types false in
/-- THE ENCODER REGION (item 1) between the thread states: entered from every unscoped buffer at the contents after the
    first host stretch, left at the valuation that differs from it at the result array alone. The generator register goes
    into the invariant of the first point and comes back from that of the last; nothing is owed; the kernel has no
    semaphore of its own. -/
def regEnc : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Enc.body_obligation (encIn m) c).loose
  hwaits := Pipeline.hwaits_of_owed_zero _ _ _ _ L lv 0 fun _ _ => rfl
  pre c := iprop(StableHlo.held (c : Thread nD τ) (Pipeline.ucRefs τ sig) (Gen.V1 m c) ∗ rest c)
  post c := iprop(StableHlo.held (c : Thread nD τ) (Pipeline.ucRefs τ sig) (Gen.V2 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (encIn m c)
  hentry c := by
    -- the region's arrays leave the unscoped buffers, at the contents the proof data start from; the others bypass it
    have hsplit := Pipeline.arrays_of_unscopedBufs (p := 0) (pcfgs (F := F)) Gen.adm (pdats m) launch0.win launch0.arr_whole c
      ((pdats m 0 c).share_full fun _ => rfl) (encIn m c) (fun w => Enc.dat_A (encIn m) c w)
    rw [Pipeline.unscopedBufs_held] at hsplit
    rw [Pipeline.ownSems0_none]
    iintro ⟨⟨Hbufs, Hreg, Hdue⟩, -, -⟩
    ihave Hs := hsplit $$ Hbufs
    icases Hs with ⟨Harr, Hz⟩
    imodintro
    isplitl [Harr]; · iexact Harr
    isplitr
    · -- no prefetched table
      unfold Pipeline.prefHeld
      rw [show (Finset.univ : Finset (Fin 0)) = ∅ from rfl, BI.bigSep_empty]
      iempintro
    isplitl [Hdue]
    · -- nothing is owed, and the data bound no recorded pair
      unfold Pipeline.Dat.owesAt Pipeline.owesWithin
      icases Hdue with ⟨%W, Hdue⟩
      iexists W
      isplitr; · ipureintro; exact fun _ _ => Or.inl trivial
      iexact Hdue
    isplitl [Hreg]; · iexact Hreg
    iexact Hz
  hin c := by
    -- the class's invariant, made of the register and the scoped rest, enters as the first point's
    rw [pdats_enc]
    refine BIBase.Entails.trans ?_ (Enc.phi_in (encIn m) c)
    unfold Pipeline.ΦA
    iintro ⟨Hreg, -, Hsc⟩
    isplitl [Hsc]; · iexact Hsc
    iexact Hreg
  hout c := by
    rw [Pipeline.ownSems0_none]
    rw [pdats_enc]
    refine BIBase.Entails.trans (Enc.phi_out (encIn m) c) ?_
    unfold Pipeline.ΦA
    iintro ⟨Hsc, Hreg⟩
    isplitl [Hreg]; · iexact Hreg
    isplitr; · iempintro
    iexact Hsc
  hexit c := by
    -- the arrays come back at their final contents: with the bypassing buffers they are the unscoped buffers at the next valuation
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (encIn m c) (encOut m c) ((pdats m 0 c).arrAt · cfg0.N) (enc_arr m c) (enc_off m c)
    rw [Pipeline.unscopedBufs_held] at hjoin
    iintro ⟨Harr, Hdue, Hreg, Hz⟩
    imodintro
    isplitl [Harr Hz]
    · iapply hjoin
      isplitl [Harr]; · iexact Harr
      iexact Hz
    isplitl [Hreg]; · iexact Hreg
    unfold Pipeline.Dat.owesAt Pipeline.owesWithin
    icases Hdue with ⟨%W, -, Hdue⟩
    iexists W
    iexact Hdue

-- a library lemma stated over the pinned configuration meets the printed one only when unification may unfold plain
-- definitions in a metavariable's type
set_option backward.isDefEq.respectTransparency.types false in
/-- THE DECODER REGION (item 6) between the thread states: entered from every unscoped buffer at the contents after the
    latent-space stretches, left at the valuation that differs from it at the result array alone. Its invariant is the
    class's at every point. -/
def regDec : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Dec.body_obligation (decIn m) c).loose
  hwaits := Pipeline.hwaits_of_owed_zero _ _ _ _ L lv 1 fun _ _ => rfl
  pre c := iprop(StableHlo.held (c : Thread nD τ) (Pipeline.ucRefs τ sig) (Gen.V6 m (outsEnc m) c) ∗ rest c)
  post c := iprop(StableHlo.held (c : Thread nD τ) (Pipeline.ucRefs τ sig) (Gen.V7 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (decIn m c)
  hentry c := by
    -- the region's arrays leave the unscoped buffers, at the contents the proof data start from; the others bypass it
    have hsplit := Pipeline.arrays_of_unscopedBufs (p := 1) (pcfgs (F := F)) Gen.adm (pdats m) launch1.win launch1.arr_whole c
      ((pdats m 1 c).share_full fun _ => rfl) (decIn m c) (fun w => Dec.dat_A (decIn m) c w)
    rw [Pipeline.unscopedBufs_held] at hsplit
    rw [Pipeline.ownSems0_none]
    iintro ⟨⟨Hbufs, Hreg, Hdue⟩, -, -⟩
    ihave Hs := hsplit $$ Hbufs
    icases Hs with ⟨Harr, Hz⟩
    imodintro
    isplitl [Harr]; · iexact Harr
    isplitr
    · -- no prefetched table
      unfold Pipeline.prefHeld
      rw [show (Finset.univ : Finset (Fin 0)) = ∅ from rfl, BI.bigSep_empty]
      iempintro
    isplitl [Hdue]
    · -- nothing is owed, and the data bound no recorded pair
      unfold Pipeline.Dat.owesAt Pipeline.owesWithin
      icases Hdue with ⟨%W, Hdue⟩
      iexists W
      isplitr; · ipureintro; exact fun _ _ => Or.inl trivial
      iexact Hdue
    isplitl [Hreg]; · iexact Hreg
    iexact Hz
  hin c := by
    rw [pdats_dec, dec_phi]
    unfold Pipeline.ΦA
    iintro ⟨Hreg, -, Hsc⟩
    isplitl [Hsc]; · iexact Hsc
    iexact Hreg
  hout c := by
    rw [Pipeline.ownSems0_none]
    rw [pdats_dec, dec_phi]
    unfold Pipeline.ΦA
    iintro ⟨Hsc, Hreg⟩
    isplitl [Hreg]; · iexact Hreg
    isplitr; · iempintro
    iexact Hsc
  hexit c := by
    -- the arrays come back at their final contents: with the bypassing buffers they are the unscoped buffers at the next valuation
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (decIn m c) (decOut m c) ((pdats m 1 c).arrAt · cfg1.N) (dec_arr m c) (dec_off m c)
    rw [Pipeline.unscopedBufs_held] at hjoin
    iintro ⟨Harr, Hdue, Hreg, Hz⟩
    imodintro
    isplitl [Harr Hz]
    · iapply hjoin
      isplitl [Harr]; · iexact Harr
      iexact Hz
    isplitl [Hreg]; · iexact Hreg
    unfold Pipeline.Dat.owesAt Pipeline.owesWithin
    icases Hdue with ⟨%W, -, Hdue⟩
    iexists W
    iexact Hdue

/-! ## The launch -/

/-- An unscoped reference of the core is among those the thread states hold. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The last rest still owes nothing. -/
theorem rest_due (c : Dev nD) :
    rest (F := F) c ⊢ iprop(∃ W, owes (c : Thread nD τ) (0 : CellTallies nD τ sig Unit) W) := by
  iintro ⟨-, Hdue⟩
  iexact Hdue

-- the launch theorem's implicit arguments are found by unifying its conclusion with this one, which takes unfolding
-- plain definitions in a metavariable's type
set_option backward.isDefEq.respectTransparency.types false in
/-- THE RUN. From any memory with zero counters every weakly fair execution of the program terminates, nothing
    faulting, and every unscoped buffer of every core ends at the last valuation. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V8 m (outs m) c b) := by
  refine Pipeline.θ_run_regions_kit_dev (pcfgs (F := F)) Gen.adm (pdats m) () cellOf_inj emb₁ defs₀ 𝒱₀ L lv m ρ main
    (Gen.segs m (outs m) 𝒱₀ L lv E () (pdats m) (regEnc m) (regDec m))
    (fun c Q => ?hmain) (fun c => ?hnd) (O₀ := 0) (hL := fun _ _ => rfl) (G := fun _ => iprop(emp))
    (u₀ := initOf (Pipeline.cells cfgs cellOf_inj) (Pipeline.launchToks cfgs cellOf_inj))
    (hu₀ := ?hu)
    (T₀ := fun c => iprop(StableHlo.held (c : Thread nD τ) (Pipeline.ucRefs τ sig) (Gen.V0 m c) ∗ rest c))
    (Tₙ := fun c => StableHlo.held (c : Thread nD τ) (Pipeline.ucRefs τ sig) (Gen.V8 m (outs m) c))
    (hch := fun c => ⟨.rfl, .rfl, .rfl, .rfl, .rfl, .rfl, ?hdec, .rfl, sep_mono .rfl (rest_due c)⟩)
    (hinit := ?hinit)
    (QY := fun c s => ∀ b ∈ Pipeline.ucRefs τ sig, s.mem (((c : Thread nD τ)).1, b) = Gen.V8 m (outs m) c b)
    (hfin := fun c s' => ?hfin) (hQ := fun _ h => h)
  case hmain =>
    -- @main is the chain of its eight items, which is the segments' run
    rewrite [main_chain c, Pipeline.Seg.run_eq_chain,
      show (Gen.segs m (outs m) 𝒱₀ L lv E () (pdats m) (regEnc m) (regDec m) c).map Pipeline.Seg.prog = [
        StableHlo.seq hostOps0,
        Prog.lift (.customCall (Pipeline.entry 0) ()),
        StableHlo.seq hostOps1,
        StableHlo.seq hostOps1_1,
        StableHlo.seq hostOps1_2,
        StableHlo.seq hostOps1_3,
        Prog.lift (.customCall (Pipeline.entry 1) ()),
        StableHlo.seq hostOps2 ] from rfl]
    exact .rfl
  case hnd =>
    simp only [Gen.segs, Pipeline.Seg.pipes_host, Pipeline.Seg.pipes_region, Pipeline.Seg.pipes_nil]
    decide
  case hu =>
    -- the launch element is the pipeline library's own; no ghost resource besides
    iintro Hu
    imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hdec =>
    -- the decoder's data are stated at the family that names the encoder's output only: the same contents
    exact BIBase.Entails.of_eq (congrArg
      (fun W => iprop(StableHlo.held (c : Thread nD τ) (Pipeline.ucRefs τ sig) W ∗ rest (F := F) c)) (V6_outs m c))
  case hinit =>
    -- each core by itself: its unscoped buffers at the launch memory, its register, its empty due
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hbufs, -, Hdue, -, Hreg, -⟩, -⟩
    imodintro
    isplitl [Hbufs]; · iexact Hbufs
    isplitl [Hreg]; · iexists _; iexact Hreg
    iexists ∅
    iexact Hdue
  case hfin =>
    -- the last thread state read against the final memory, buffer by buffer
    unfold StableHlo.held
    iintro ⟨Hbufs, HSI⟩
    imodintro
    iapply (pointsTo_read_all (Pipeline.ucRefs τ sig) (fun b => (((c : Thread nD τ)).1, b)) (Gen.V8 m (outs m) c) s')
    isplitl [Hbufs]; · iexact Hbufs
    iexact HSI

/-- The frame: every argument array ends as launched (no host stretch writes one, no region changes one). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c),
     (h c _ (mem_uc main_arg3 (by decide))).trans (Gen.V8_main_arg3 m (outs m) c),
     (h c _ (mem_uc main_arg4 (by decide))).trans (Gen.V8_main_arg4 m (outs m) c),
     (h c _ (mem_uc main_arg5 (by decide))).trans (Gen.V8_main_arg5 m (outs m) c),
     (h c _ (mem_uc main_arg6 (by decide))).trans (Gen.V8_main_arg6 m (outs m) c),
     (h c _ (mem_uc main_arg7 (by decide))).trans (Gen.V8_main_arg7 m (outs m) c),
     (h c _ (mem_uc main_arg8 (by decide))).trans (Gen.V8_main_arg8 m (outs m) c),
     (h c _ (mem_uc main_arg9 (by decide))).trans (Gen.V8_main_arg9 m (outs m) c),
     (h c _ (mem_uc main_arg10 (by decide))).trans (Gen.V8_main_arg10 m (outs m) c),
     (h c _ (mem_uc main_arg11 (by decide))).trans (Gen.V8_main_arg11 m (outs m) c),
     (h c _ (mem_uc main_arg12 (by decide))).trans (Gen.V8_main_arg12 m (outs m) c),
     (h c _ (mem_uc main_arg13 (by decide))).trans (Gen.V8_main_arg13 m (outs m) c)⟩)
    (run_all m ρ)

end Cert.Kernel.Whole

end
-- ==== Proof.Enc.lean ====
/-
  The encoder region (the first pallas_call): Linear -> BatchNorm -> ReLU with the contraction axis cut into
  16 column blocks of 1024. The scratch accumulator carries the running sum of the blocks' products from one
  grid point to the next; the output block (the whole 1024 x 2048 result) is stored at the last point only.
  Everything is stated at a parameter `V`: what the core's buffers hold when the region is entered.
-/
import proofs.«108296_j46119358825052_1_alg».proof.Proof.Gen.KernelIdeal.Launch
import proofs.«108296_j46119358825052_1_alg».proof.Proof.Gen.KernelIdeal.Skeleton
import proofs.«108296_j46119358825052_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at position `n`: zero plus the products of column blocks `0 … n`
    of the activations and the weights, added one block at a time. -/
def acc (c : Dev nD) : (n : ℕ) → n < cfg0.N → Vec F S1024x2048 .f32
  | 0, h => k0_pay2 (blk V c 0 ⟨0, h⟩) (blk V c 1 ⟨0, h⟩) (k0_pay1 (F := F))
  | n + 1, h => k0_pay2 (blk V c 0 ⟨n + 1, h⟩) (blk V c 1 ⟨n + 1, h⟩) (acc c n (Nat.lt_of_succ_lt h))

/-- What the epilogue makes of the accumulator at point `t`: bias, batch statistics over the rows,
    normalisation, scale and shift, and the positive part. Only its value at the last point is ever written back. -/
def outAt (c : Dev nD) (t : Fin cfg0.N) : Vec F S1024x2048 .f32 :=
  k0_pay3 (acc V c t.val t.isLt) (blk V c 2 t) (blk V c 3 t) (blk V c 4 t)

/-- The scoped buffers of the core that belong to the second call (its seven staging buffers), each whole at
    some contents: what the encoder's body neither reads nor writes. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The invariant before position `n`: before the first point the scoped buffers at anything; afterwards the
    accumulator at the running sum, the other scoped buffers at anything; the generator register at some state. -/
def Phi (c : Dev nD) : (n : ℕ) → n ≤ cfg0.N → sProp 𝕄
  | 0, _ => Pipeline.ΦA spec0 c
  | n + 1, hn => iprop(owns (c : Thread nD τ) (Memref.whole cc0_scratch0 : Memref sig .tc .vmem S1024x2048 .f32) fullShare (acc V c n hn) ∗ (others (F := F) c ∗ ∃ r, prngReg c r))

/-- The proof data of the encoder's pipeline on core `c`. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outAt V c t
  Φ t := Phi V c t.val (Nat.le_of_lt_succ t.isLt)
  q _ := fullShare
  owed _ := 0

theorem dat_A (c : Dev nD) (w : Fin cfg0.W) : (dat V c).A w = V c (Pipeline.arrRef spec0 w) := by
  dsimp only [dat]

/-! ## The body on whole buffers, one run per control case

The body's two conditionals depend on the grid coordinate only, so a point is in one of three cases: the first
point (the accumulator is zeroed first), a middle point, the last point (the epilogue is stored). Every load and
every store is of a buffer's full extent, so a load reads the buffer's contents and a store leaves its payload. -/

/-- The first conditional of the body: the grid coordinate is zero. -/
abbrev atFirst (i : grid0.Coords) : Prop :=
  Scalar.cmpi .ne (Scalar.extui (Scalar.cmpi .eq (BitVec.ofNat 32 (i 0).val) 0#32)) 0#32 = 1#1

/-- The zero offsets of a rank-2 rectangle, as the constant function. -/
theorem off2_zero : (![0, 0] : Fin 2 → ℕ) = fun _ => 0 := by
  funext a; fin_cases a <;> rfl

/-- The zero offset of a rank-1 rectangle, as the constant function. -/
theorem off1_zero : (![0] : Fin 1 → ℕ) = fun _ => 0 := by
  funext a; fin_cases a; rfl

/-- A load of the full extent of a whole buffer reads its contents. -/
theorem load_full {S : Shape} {e : EltTy} (M : Memref sig .tc .vmem S e) (h : M.IsWhole) {off : Fin S.rank → ℕ}
    (hz : off = fun _ => 0) (inb : ∀ a, off a + S.size a ≤ S.size a) (x : S.Idx → Elt F e) :
    View.readAt (Elt F) M.view (Rect.unit off S.size inb).toLoadRect (h.unread x) = x := by
  rw [View.readAt_eq_ld, h.read_unread, View.ld_unit_zero hz]

/-- After a list of stores whose last one fills the full extent, the buffer reads that store's payload. -/
theorem read_after_full {S : Shape} {e : EltTy} (M : Memref sig .tc .vmem S e) (f : M.view.ty.Contents (Elt F)) {off : Fin S.rank → ℕ}
    (hz : off = fun _ => 0) (inb : ∀ a, off a + S.size a ≤ S.size a) (w : S.Idx → Elt F e) (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

set_option maxHeartbeats 1000000 in
/-- THE FIRST POINT. The accumulator, whatever it held, is set to zero and then to zero plus the product of the
    two input blocks; the inputs are left as found. -/
theorem run_first (c : Dev nD) (i : grid0.Coords)
    (arg1 : Memref sig .tc .vmem S1024x1024 .f32) (harg1 : arg1.IsWhole) (arg2 : Memref sig .tc .vmem S2048x1024 .f32) (harg2 : arg2.IsWhole)
    (arg3 : Memref sig .tc .vmem S2048 .f32) (harg3 : arg3.IsWhole) (arg4 : Memref sig .tc .vmem S2048 .f32) (harg4 : arg4.IsWhole)
    (arg5 : Memref sig .tc .vmem S2048 .f32) (harg5 : arg5.IsWhole) (arg6 : Memref sig .tc .vmem S1024x2048 .f32) (harg6 : arg6.IsWhole)
    (arg7 : Memref sig .tc .vmem S1024x2048 .f32) (harg7 : arg7.IsWhole)
    (h1 : atFirst i) (h2 : ¬ k0_cond2 i = 1#1)
    (x1 : Vec F S1024x1024 .f32) (x2 : Vec F S2048x1024 .f32) (a : Vec F S1024x2048 .f32)
    (E : Set ℕ) (K : PUnit → sProp 𝕄) :
    iprop(owns (c : Thread nD τ) arg1 fullShare x1 ∗ owns (c : Thread nD τ) arg2 fullShare x2 ∗ owns (c : Thread nD τ) arg7 fullShare a
        ∗ (iprop(owns (c : Thread nD τ) arg1 fullShare x1 ∗ owns (c : Thread nD τ) arg2 fullShare x2
              ∗ owns (c : Thread nD τ) arg7 fullShare (k0_pay2 x1 x2 (k0_pay1 (F := F)))) -∗ K ⟨⟩))
      ⊢ wp frame (wpE (defs₀ (F := F)) Variants.none c none) E
          (cc0__encoder_kernel i arg1 harg1 arg2 harg2 arg3 harg3 arg4 harg4 arg5 harg5 arg6 harg6 arg7 harg7) K := by
  simp only [cc0__encoder_kernel_eq_skeleton]; unfold cc0__encoder_kernel_skel
  unfold owns
  iintro ⟨⟨%f1, %hf1, H1⟩, ⟨%f2, %hf2, H2⟩, ⟨%f7, %hf7, H7⟩, Hk⟩
  obtain rfl := harg1.eq_unread hf1; obtain rfl := harg2.eq_unread hf2; obtain rfl := harg7.eq_unread hf7
  sl_exec (disch := first | exact h1 | exact h2)
  sl_step
  iapply Hk
  isplitl [H1]
  · iexists _; isplitr; · ipureintro; exact hf1
    iexact H1
  isplitl [H2]
  · iexists _; isplitr; · ipureintro; exact hf2
    iexact H2
  iexists _; isplitr
  swap; · iexact H7
  ipureintro
  sl_unfold_words
  rw [read_after_full arg7 _ off2_zero, load_full arg1 harg1 off2_zero, load_full arg2 harg2 off2_zero,
    View.readCov_unit_zero _ off2_zero]

set_option maxHeartbeats 1000000 in
/-- A MIDDLE POINT. The accumulator gains the product of the two input blocks; the inputs are left as found. -/
theorem run_mid (c : Dev nD) (i : grid0.Coords)
    (arg1 : Memref sig .tc .vmem S1024x1024 .f32) (harg1 : arg1.IsWhole) (arg2 : Memref sig .tc .vmem S2048x1024 .f32) (harg2 : arg2.IsWhole)
    (arg3 : Memref sig .tc .vmem S2048 .f32) (harg3 : arg3.IsWhole) (arg4 : Memref sig .tc .vmem S2048 .f32) (harg4 : arg4.IsWhole)
    (arg5 : Memref sig .tc .vmem S2048 .f32) (harg5 : arg5.IsWhole) (arg6 : Memref sig .tc .vmem S1024x2048 .f32) (harg6 : arg6.IsWhole)
    (arg7 : Memref sig .tc .vmem S1024x2048 .f32) (harg7 : arg7.IsWhole)
    (h1 : ¬ atFirst i) (h2 : ¬ k0_cond2 i = 1#1)
    (x1 : Vec F S1024x1024 .f32) (x2 : Vec F S2048x1024 .f32) (a : Vec F S1024x2048 .f32)
    (E : Set ℕ) (K : PUnit → sProp 𝕄) :
    iprop(owns (c : Thread nD τ) arg1 fullShare x1 ∗ owns (c : Thread nD τ) arg2 fullShare x2 ∗ owns (c : Thread nD τ) arg7 fullShare a
        ∗ (iprop(owns (c : Thread nD τ) arg1 fullShare x1 ∗ owns (c : Thread nD τ) arg2 fullShare x2
              ∗ owns (c : Thread nD τ) arg7 fullShare (k0_pay2 x1 x2 a)) -∗ K ⟨⟩))
      ⊢ wp frame (wpE (defs₀ (F := F)) Variants.none c none) E
          (cc0__encoder_kernel i arg1 harg1 arg2 harg2 arg3 harg3 arg4 harg4 arg5 harg5 arg6 harg6 arg7 harg7) K := by
  simp only [cc0__encoder_kernel_eq_skeleton]; unfold cc0__encoder_kernel_skel
  unfold owns
  iintro ⟨⟨%f1, %hf1, H1⟩, ⟨%f2, %hf2, H2⟩, ⟨%f7, %hf7, H7⟩, Hk⟩
  obtain rfl := harg1.eq_unread hf1; obtain rfl := harg2.eq_unread hf2; obtain rfl := harg7.eq_unread hf7
  sl_exec (disch := first | exact h1 | exact h2)
  sl_step
  iapply Hk
  isplitl [H1]
  · iexists _; isplitr; · ipureintro; exact hf1
    iexact H1
  isplitl [H2]
  · iexists _; isplitr; · ipureintro; exact hf2
    iexact H2
  iexists _; isplitr
  swap; · iexact H7
  ipureintro
  sl_unfold_words
  rw [read_after_full arg7 _ off2_zero, load_full arg1 harg1 off2_zero, load_full arg2 harg2 off2_zero,
    load_full arg7 harg7 off2_zero]

set_option maxHeartbeats 1000000 in
/-- THE LAST POINT. The accumulator gains the product of the two input blocks, and the output buffer, whatever it
    held, is set to the epilogue of the new accumulator with the bias, scale and shift vectors; the five inputs are
    left as found. -/
theorem run_last (c : Dev nD) (i : grid0.Coords)
    (arg1 : Memref sig .tc .vmem S1024x1024 .f32) (harg1 : arg1.IsWhole) (arg2 : Memref sig .tc .vmem S2048x1024 .f32) (harg2 : arg2.IsWhole)
    (arg3 : Memref sig .tc .vmem S2048 .f32) (harg3 : arg3.IsWhole) (arg4 : Memref sig .tc .vmem S2048 .f32) (harg4 : arg4.IsWhole)
    (arg5 : Memref sig .tc .vmem S2048 .f32) (harg5 : arg5.IsWhole) (arg6 : Memref sig .tc .vmem S1024x2048 .f32) (harg6 : arg6.IsWhole)
    (arg7 : Memref sig .tc .vmem S1024x2048 .f32) (harg7 : arg7.IsWhole)
    (h1 : ¬ atFirst i) (h2 : k0_cond2 i = 1#1)
    (x1 : Vec F S1024x1024 .f32) (x2 : Vec F S2048x1024 .f32) (x3 x4 x5 : Vec F S2048 .f32) (x6 : Vec F S1024x2048 .f32) (a : Vec F S1024x2048 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare a
        ∗ (iprop(owns (c : Thread nD τ) arg1 fullShare x1 ∗ owns (c : Thread nD τ) arg2 fullShare x2 ∗ owns (c : Thread nD τ) arg3 fullShare x3
              ∗ owns (c : Thread nD τ) arg4 fullShare x4 ∗ owns (c : Thread nD τ) arg5 fullShare x5
              ∗ owns (c : Thread nD τ) arg6 fullShare (k0_pay3 (k0_pay2 x1 x2 a) x3 x4 x5)
              ∗ owns (c : Thread nD τ) arg7 fullShare (k0_pay2 x1 x2 a)) -∗ K ⟨⟩))
      ⊢ wp frame (wpE (defs₀ (F := F)) Variants.none c none) E
          (cc0__encoder_kernel i arg1 harg1 arg2 harg2 arg3 harg3 arg4 harg4 arg5 harg5 arg6 harg6 arg7 harg7) K := by
  simp only [cc0__encoder_kernel_eq_skeleton]; unfold cc0__encoder_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | exact h1 | exact h2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [read_after_full arg6 _ off2_zero, View.readCov_unit_zero _ off2_zero, load_full arg1 harg1 off2_zero,
      load_full arg2 harg2 off2_zero, load_full arg7 harg7 off2_zero, load_full arg3 harg3 off1_zero,
      load_full arg4 harg4 off1_zero, load_full arg5 harg5 off1_zero]
  iexists _; isplitr
  swap; · iexact H7
  ipureintro
  sl_unfold_words
  rw [read_after_full arg7 _ off2_zero, load_full arg1 harg1 off2_zero, load_full arg2 harg2 off2_zero,
    load_full arg7 harg7 off2_zero]

/-! ## The conditionals in closed form, and where the output window is idle -/

/-- The first conditional holds at point 0 and nowhere else — decided over the sixteen points. -/
theorem atFirst_iff : ∀ t : Fin cfg0.N, atFirst (grid0.coords t) ↔ t.val = 0 :=
  (by decide +kernel : ∀ t : Fin grid0.N, atFirst (grid0.coords t) ↔ t.val = 0)

/-- The second conditional holds at point 15 and nowhere else — decided over the sixteen points. -/
theorem atLast_iff : ∀ t : Fin cfg0.N, k0_cond2 (grid0.coords t) = 1#1 ↔ t.val = 15 :=
  (by decide +kernel : ∀ t : Fin grid0.N, k0_cond2 (grid0.coords t) = 1#1 ↔ t.val = 15)

/-- Where the second conditional fails the output window is idle: the body stores nothing into its buffer. -/
theorem out_idle (t : Fin cfg0.N) (h : ¬ k0_cond2 (grid0.coords t) = 1#1) : cfg0.idle 5 (grid0.coords t) = true := by
  show (!(k0_cond2 (grid0.coords t) == 1#1)) = true
  rw [Bool.not_eq_true', beq_eq_false_iff_ne]; exact h

/-- Where it holds the window is live. -/
theorem out_live (t : Fin cfg0.N) (h : k0_cond2 (grid0.coords t) = 1#1) : cfg0.idle 5 (grid0.coords t) = false := by
  show (!(k0_cond2 (grid0.coords t) == 1#1)) = false
  rw [h]; rfl

/-- Before the last point the output block is not written back. -/
theorem out_kept (t : Fin cfg0.N) (h : t.val ≠ 15) : (cfg0.win 5).flush t = false := by
  have hN : t.val < 16 := lt_of_lt_of_eq t.isLt N_0
  cases hf : (cfg0.win 5).flush t
  · rfl
  · exact absurd ((flush0_5 t).mp hf) (by omega)

/-! ## The invariant, unfolded -/

/-- The class invariant with the accumulator split off the other scoped buffers. -/
theorem PhiA_split (c : Dev nD) :
    (Pipeline.ΦA spec0 c : sProp 𝕄)
      = iprop(((∃ d, owns (c : Thread nD τ) (Memref.whole cc0_scratch0 : Memref sig .tc .vmem S1024x2048 .f32) fullShare d) ∗ others (F := F) c) ∗ (∃ r, prngReg c r)) := by
  unfold Pipeline.ΦA others; rw [scopedRest0_eq]; simp only [owns_whole]

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop(owns (c : Thread nD τ) (Memref.whole cc0_scratch0 : Memref sig .tc .vmem S1024x2048 .f32) fullShare (acc V c n hn) ∗ (others (F := F) c ∗ ∃ r, prngReg c r)) := rfl

/-- Before a point that is not the first the accumulator holds the running sum up to the point before. -/
theorem Phi_pos (c : Dev nD) (n : ℕ) (h : n ≤ cfg0.N) (hz : n ≠ 0) :
    Phi V c n h = iprop(owns (c : Thread nD τ) (Memref.whole cc0_scratch0 : Memref sig .tc .vmem S1024x2048 .f32) fullShare (acc V c (n - 1) (by omega)) ∗ (others (F := F) c ∗ ∃ r, prngReg c r)) := by
  cases n with
  | zero => exact absurd rfl hz
  | succ n => rfl

theorem Phi_before (c : Dev nD) (t : Fin cfg0.N) : (dat V c).Φ t.castSucc = Phi V c t.val (Nat.le_of_lt t.isLt) := by
  dsimp only [dat]; simp only [Fin.coe_castSucc]

theorem Phi_after (c : Dev nD) (t : Fin cfg0.N) : (dat V c).Φ t.succ = Phi V c (t.val + 1) t.isLt := rfl

/-- The running sum at the first point: zero plus the first product. -/
theorem acc_first (c : Dev nD) (t : Fin cfg0.N) (h : t.val = 0) :
    acc V c t.val t.isLt = k0_pay2 (blk V c 0 t) (blk V c 1 t) (k0_pay1 (F := F)) := by
  obtain ⟨n, hn⟩ := t
  cases n with
  | zero => rfl
  | succ n => exact absurd h (Nat.succ_ne_zero n)

/-- The running sum at a later point: the sum up to the point before plus this point's product. -/
theorem acc_later (c : Dev nD) (t : Fin cfg0.N) (h : t.val ≠ 0) :
    acc V c t.val t.isLt = k0_pay2 (blk V c 0 t) (blk V c 1 t) (acc V c (t.val - 1) (Nat.lt_of_le_of_lt (Nat.sub_le _ _) t.isLt)) := by
  obtain ⟨n, hn⟩ := t
  cases n with
  | zero => exact absurd rfl h
  | succ n => rfl

/-! ## What the body finds in the windows' buffers and leaves there -/

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) : (dat V c).after 4 t = blk V c 4 t := by dsimp only [dat]
theorem after_5 (c : Dev nD) (t : Fin cfg0.N) : (dat V c).after 5 t = outAt V c t := by dsimp only [dat]

/-- An input window's buffer holds the window's block at every point, fetched there or not: the body never
    stores into it, and where the pipeline does not fetch, the block index has not moved. -/
theorem found_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [dat_A]) t d).trans
    (by unfold Dat.fetched Dat.blockOf blk; rw [dat_A]; rfl)
theorem found_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [dat_A]) t d).trans
    (by unfold Dat.fetched Dat.blockOf blk; rw [dat_A]; rfl)
theorem found_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [dat_A]) t d).trans
    (by unfold Dat.fetched Dat.blockOf blk; rw [dat_A]; rfl)
theorem found_3 (c : Dev nD) (t : Fin cfg0.N) (d) : (dat V c).before 3 t d = blk V c 3 t :=
  ((dat V c).before_in_eq_fetched 3 rfl (fun _ => rfl) (fun _ _ _ => rfl)
    (fun t => by rw [after_3]; unfold Dat.blockOf blk; rw [dat_A]) t d).trans
    (by unfold Dat.fetched Dat.blockOf blk; rw [dat_A]; rfl)
theorem found_4 (c : Dev nD) (t : Fin cfg0.N) (d) : (dat V c).before 4 t d = blk V c 4 t :=
  ((dat V c).before_in_eq_fetched 4 rfl (fun _ => rfl) (fun _ _ _ => rfl)
    (fun t => by rw [after_4]; unfold Dat.blockOf blk; rw [dat_A]) t d).trans
    (by unfold Dat.fetched Dat.blockOf blk; rw [dat_A]; rfl)

/-- An input window is never idle, so the body must leave its block in the buffer. -/
theorem left_0 (c : Dev nD) (t : Fin cfg0.N) :
    (dat V c).leavesExact 0 t = owns (c : Thread nD τ) (st0_0 t) fullShare (blk V c 0 t) := by
  show owns (c : Thread nD τ) (st0_0 t) fullShare ((dat V c).after 0 t) = _
  rw [after_0]
theorem left_1 (c : Dev nD) (t : Fin cfg0.N) :
    (dat V c).leavesExact 1 t = owns (c : Thread nD τ) (st0_1 t) fullShare (blk V c 1 t) := by
  show owns (c : Thread nD τ) (st0_1 t) fullShare ((dat V c).after 1 t) = _
  rw [after_1]
theorem left_2 (c : Dev nD) (t : Fin cfg0.N) :
    (dat V c).leavesExact 2 t = owns (c : Thread nD τ) (st0_2 t) fullShare (blk V c 2 t) := by
  show owns (c : Thread nD τ) (st0_2 t) fullShare ((dat V c).after 2 t) = _
  rw [after_2]
theorem left_3 (c : Dev nD) (t : Fin cfg0.N) :
    (dat V c).leavesExact 3 t = owns (c : Thread nD τ) (st0_3 t) fullShare (blk V c 3 t) := by
  show owns (c : Thread nD τ) (st0_3 t) fullShare ((dat V c).after 3 t) = _
  rw [after_3]
theorem left_4 (c : Dev nD) (t : Fin cfg0.N) :
    (dat V c).leavesExact 4 t = owns (c : Thread nD τ) (st0_4 t) fullShare (blk V c 4 t) := by
  show owns (c : Thread nD τ) (st0_4 t) fullShare ((dat V c).after 4 t) = _
  rw [after_4]

/-! ## The body obligation -/

/-- What the body is handed at point `t`: the invariant, the (empty) debts, each window's current buffer. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- What it hands back. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4000000 in
/-- The body at any point. The inputs' buffers hold their blocks; the closed forms say which of the three
    cases the point is in; the invariant hands over the accumulator (at anything before the first point, at the
    running sum afterwards) and takes it back at this point's running sum; the output buffer is handed back
    untouched before the last point and holds the epilogue's value after it. The core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found_0, found_1, found_2, found_3, found_4]
  rw [show (dat V c).owesAt () t.succ = (dat V c).owesAt () t.castSucc from rfl, Phi_after, Phi_succ, Phi_before,
    left_0, left_1, left_2, left_3, left_4]
  have hN : t.val < 16 := lt_of_lt_of_eq t.isLt N_0
  by_cases hz : t.val = 0
  · -- the first point
    have h1 : atFirst (grid0.coords t) := (atFirst_iff t).mpr hz
    have h2 : ¬ k0_cond2 (grid0.coords t) = 1#1 := fun h => by have := (atLast_iff t).mp h; omega
    rw [Dat.leavesExact_idle (dat V c) 5 t (out_idle t h2) (out_kept t (by omega)), acc_first V c t hz,
      Phi_zero V c _ _ hz, PhiA_split]
    iintro ⟨⟨⟨⟨%a, Ha⟩, Ho⟩, Hg⟩, Hw, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ h1 h2 (blk V c 0 t) (blk V c 1 t) a Set.univ _)
    isplitl [H0]; · iexact H0
    isplitl [H1]; · iexact H1
    isplitl [Ha]; · iexact Ha
    iintro ⟨H0, H1, Ha⟩
    isplitl [Ha Ho Hg]
    · isplitl [Ha]; · iexact Ha
      isplitl [Ho]; · iexact Ho
      iexact Hg
    isplitl [Hw]; · iexact Hw
    isplitl [H0]; · iexact H0
    isplitl [H1]; · iexact H1
    isplitl [H2]; · iexact H2
    isplitl [H3]; · iexact H3
    isplitl [H4]; · iexact H4
    iexists d5; iexact H5
  · have h1 : ¬ atFirst (grid0.coords t) := fun h => hz ((atFirst_iff t).mp h)
    rw [acc_later V c t hz, Phi_pos V c _ _ hz]
    by_cases hl : t.val = 15
    · -- the last point
      have h2 : k0_cond2 (grid0.coords t) = 1#1 := (atLast_iff t).mpr hl
      rw [show (dat V c).leavesExact 5 t = owns (c : Thread nD τ) (st0_5 t) fullShare ((dat V c).after 5 t) from by
        unfold Dat.leavesExact; rw [out_live t h2], after_5]
      unfold outAt
      rw [acc_later V c t hz]
      iintro ⟨⟨Ha, Ho, Hg⟩, Hw, ⟨%d0, H0⟩, ⟨%d1, H1⟩, ⟨%d2, H2⟩, ⟨%d3, H3⟩, ⟨%d4, H4⟩, ⟨%d5, H5⟩⟩
      iapply (run_last c (grid0.coords t) _ _ _ _ _ _ _ _ _ _ _ _ _ _ h1 h2 (blk V c 0 t) (blk V c 1 t) (blk V c 2 t) (blk V c 3 t) (blk V c 4 t)
        ((dat V c).before 5 t d5) (acc V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [Ha]; · iexact Ha
      iintro ⟨H0, H1, H2, H3, H4, H5, Ha⟩
      isplitl [Ha Ho Hg]
      · isplitl [Ha]; · iexact Ha
        isplitl [Ho]; · iexact Ho
        iexact Hg
      isplitl [Hw]; · iexact Hw
      isplitl [H0]; · iexact H0
      isplitl [H1]; · iexact H1
      isplitl [H2]; · iexact H2
      isplitl [H3]; · iexact H3
      isplitl [H4]; · iexact H4
      iexact H5
    · -- a middle point
      have h2 : ¬ k0_cond2 (grid0.coords t) = 1#1 := fun h => hl ((atLast_iff t).mp h)
      rw [Dat.leavesExact_idle (dat V c) 5 t (out_idle t h2) (out_kept t hl)]
      iintro ⟨⟨Ha, Ho, Hg⟩, Hw, ⟨%d0, H0⟩, ⟨%d1, H1⟩, ⟨%d2, H2⟩, ⟨%d3, H3⟩, ⟨%d4, H4⟩, ⟨%d5, H5⟩⟩
      iapply (run_mid c (grid0.coords t) _ _ _ _ _ _ _ _ _ _ _ _ _ _ h1 h2 (blk V c 0 t) (blk V c 1 t)
        (acc V c (t.val - 1) (Nat.lt_of_le_of_lt (Nat.sub_le _ _) t.isLt)) Set.univ _)
      isplitl [H0]; · iexact H0
      isplitl [H1]; · iexact H1
      isplitl [Ha]; · iexact Ha
      iintro ⟨H0, H1, Ha⟩
      isplitl [Ha Ho Hg]
      · isplitl [Ha]; · iexact Ha
        isplitl [Ho]; · iexact Ho
        iexact Hg
      isplitl [Hw]; · iexact Hw
      isplitl [H0]; · iexact H0
      isplitl [H1]; · iexact H1
      isplitl [H2]; · iexact H2
      isplitl [H3]; · iexact H3
      isplitl [H4]; · iexact H4
      iexists d5; iexact H5

/-- The body obligation at every grid point. -/
theorem body_obligation (c : Dev nD) : BodyObligation (dat (F := F) V c) (defs₀ (F := F)) Variants.none () Set.univ := fun t => by
  rw [bigSep_W0, bigSep_W0]
  exact sound_body V c t

/-- The class's invariant enters as the first point's. -/
theorem phi_in (c : Dev nD) : Pipeline.ΦA spec0 c ⊢ (dat V c).Φ 0 := by
  rw [show (dat V c).Φ 0 = Phi V c 0 (Nat.zero_le _) from rfl, Phi_zero V c 0 _ rfl]

/-- The last point's invariant gives the class's back. -/
theorem phi_out (c : Dev nD) : (dat V c).Φ (Fin.last cfg0.N) ⊢ Pipeline.ΦA spec0 c := by
  have hN : cfg0.N = 16 := N_0
  rw [show (dat V c).Φ (Fin.last cfg0.N) = Phi V c (Fin.last cfg0.N).val (Nat.le_of_lt_succ (Fin.last cfg0.N).isLt) from rfl,
    Phi_pos V c _ _ (by rw [Fin.val_last]; omega), PhiA_split]
  iintro ⟨Ha, Ho, Hg⟩
  isplitl [Ha Ho]
  · isplitl [Ha]
    · iexists _; iexact Ha
    iexact Ho
  iexact Hg

/-- The last grid point. -/
def tLast : Fin cfg0.N := ⟨15, by decide⟩

/-! ## The result array after the region

The output window's one block is the whole array (its block index is zero on both axes at every point), and it is
written back at the last point only: the array ends holding what the body left there. -/

/-- The output window's block index is zero on both axes — decided over the sixteen points. -/
theorem out_index : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- So an element of the block sits in the array at its own coordinates. -/
theorem out_emb (t : Fin cfg0.N) (j : S1024x2048.Idx) : ((cfg0.win 5).blk t).view.emb j = j := by
  obtain ⟨e0, e1⟩ := out_index t
  funext a; apply Fin.ext
  match a with
  | ⟨0, _⟩ => show win0_5.index t (0 : Fin 2) * 1024 + 1 * (j 0).val = (j 0).val; omega
  | ⟨1, _⟩ => show win0_5.index t (1 : Fin 2) * 2048 + 1 * (j 1).val = (j 1).val; omega

/-- and every index of the array is in the block. -/
theorem out_mem (t : Fin cfg0.N) (i : S1024x2048.Idx) : i ∈ ((cfg0.win 5).blk t).view.set := by
  obtain ⟨e0, e1⟩ := out_index t
  show i ∈ ((View.whole main_v1).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    have hi : (i 0).val < 1024 := (i 0).isLt
    omega
  | ⟨1, _⟩ =>
    show win0_5.index t (1 : Fin 2) * 2048 ≤ (i 1).val ∧ (i 1).val < win0_5.index t (1 : Fin 2) * 2048 + 2048
    have hi : (i 1).val < 2048 := (i 1).isLt
    omega

/-- The one write-back, at the last point, writes the epilogue's value there. -/
theorem flushed_last (c : Dev nD) (t : Fin cfg0.N) (hf : (cfg0.win 5).flush t = true) :
    (dat V c).flushed 5 t = ((cfg0.win 5).blk t).view.read (Elt F) (outAt V c tLast) := by
  have hN : t.val < 16 := lt_of_lt_of_eq t.isLt N_0
  have ht : t = tLast := Fin.ext (by have := (flush0_5 t).mp hf; show t.val = 15; omega)
  subst ht
  show (cfg0.win 5).cut (grid0.coords tLast) ((dat V c).after 5 tLast) = _
  rw [after_5]
  funext j
  rw [View.read_apply, out_emb]
  rfl

/-- After the region the result array holds the epilogue's value at the last point. -/
theorem final (c : Dev nD) : (dat V c).arrAt 5 cfg0.N = outAt V c tLast :=
  (dat V c).arrAt_eq_of_cover 5 (outAt V c tLast) (fun t hf => flushed_last V c t hf)
    (fun i => ⟨tLast, (flush0_5 tLast).mpr rfl, out_mem tLast i⟩)

end Cert.KernelIdeal.Enc

end
-- ==== Proof.Dec.lean ====
/-
  The decoder region (the second pallas_call): out = h2 · W4ᵀ + b4 with the output columns cut into 16 blocks
  of 1024. Each grid point reads the whole of h2, one row block of W4 and one block of b4, and stores one column
  block of the result; nothing is carried from point to point.
  Everything is stated at a parameter `V`: what the core's buffers hold when the region is entered.
-/
import proofs.«108296_j46119358825052_1_alg».proof.Proof.Gen.KernelIdeal.Launch
import proofs.«108296_j46119358825052_1_alg».proof.Proof.Gen.KernelIdeal.Skeleton
import proofs.«108296_j46119358825052_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Dec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The column block of the result a grid point stores: the product of h2 with the point's rows of W4,
    plus the point's block of the bias on every row. -/
def outAt (c : Dev nD) (t : Fin cfg1.N) : Vec F S1024x1024 .f32 :=
  k1_pay1 (blk V c 0 t) (blk V c 1 t) (blk V c 2 t)

/-- The proof data of the decoder's pipeline on core `c`. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outAt V c t
  Φ _ := Pipeline.ΦA spec1 c
  q _ := fullShare
  owed _ := 0

theorem dat_A (c : Dev nD) (w : Fin cfg1.W) : (dat V c).A w = V c (Pipeline.arrRef spec1 w) := by
  dsimp only [dat]

theorem after_out (c : Dev nD) (t : Fin cfg1.N) : (dat V c).after 3 t = outAt V c t := by dsimp only [dat]

/-! ## What the inputs' buffers hold when the body runs

None of the three input windows is cut, and the body stores into none of them, so a buffer that was not refilled at a
point still holds the block of the point before, which has the same block index. Hence every point finds each input's
buffer at that point's block of the array. -/

/-- Reading the proof data's array through a window's block is `blk`. -/
theorem blockOf_eq (c : Dev nD) (w : Fin cfg1.W) (t : Fin cfg1.N) : (dat V c).blockOf w t = blk V c w t := by
  unfold Dat.blockOf blk; rw [dat_A]

theorem after_h2 (c : Dev nD) (t : Fin cfg1.N) : (dat V c).after 0 t = blk V c 0 t := by dsimp only [dat]
theorem after_w4 (c : Dev nD) (t : Fin cfg1.N) : (dat V c).after 1 t = blk V c 1 t := by dsimp only [dat]
theorem after_b4 (c : Dev nD) (t : Fin cfg1.N) : (dat V c).after 2 t = blk V c 2 t := by dsimp only [dat]

/-- h2: one block for the whole grid, brought in at the first point and found again at the fifteen others. -/
theorem h2_found (c : Dev nD) (t : Fin cfg1.N) (d) : (dat V c).before 0 t d = blk V c 0 t := by
  rw [(dat V c).before_in_eq_fetched 0 rfl (fun _ => rfl) (fun _ _ _ => rfl)
    (fun s => by rw [after_h2, blockOf_eq]) t d]
  unfold Dat.fetched; rw [blockOf_eq]; rfl

/-- W4: the point's block of 1024 rows. -/
theorem w4_found (c : Dev nD) (t : Fin cfg1.N) (d) : (dat V c).before 1 t d = blk V c 1 t := by
  rw [(dat V c).before_in_eq_fetched 1 rfl (fun _ => rfl) (fun _ _ _ => rfl)
    (fun s => by rw [after_w4, blockOf_eq]) t d]
  unfold Dat.fetched; rw [blockOf_eq]; rfl

/-- b4: the point's block of 1024 entries. -/
theorem b4_found (c : Dev nD) (t : Fin cfg1.N) (d) : (dat V c).before 2 t d = blk V c 2 t := by
  rw [(dat V c).before_in_eq_fetched 2 rfl (fun _ => rfl) (fun _ _ _ => rfl)
    (fun s => by rw [after_b4, blockOf_eq]) t d]
  unfold Dat.fetched; rw [blockOf_eq]; rfl

/-! ## The body on whole buffers -/

/-- The offsets of every access of the body: the origin. -/
theorem origin2 : (![0, 0] : Fin 2 → ℕ) = fun _ => 0 := by funext a; fin_cases a <;> rfl
theorem origin1 : (![0] : Fin 1 → ℕ) = fun _ => 0 := by funext a; fin_cases a; rfl

/-- The body's one store is through the rectangle of the whole output buffer, so it reaches every entry of it. -/
theorem store_reaches (p : Vec F S1024x1024 .f32) (y : S1024x1024.Idx) :
    ∃ pc ∈ ([⟨Rect.unit (s := S1024x1024) ![0, 0] S1024x1024.size inb_S1024x1024_S1024x1024_0_0, p⟩] :
        List (View.Piece (Elt F) S1024x1024 .f32)), y ∈ pc.1.set :=
  View.cover_of_tiled _ S1024x1024.size (by rfl) y

set_option maxHeartbeats 1000000 in
/-- The body reads its three inputs whole and overwrites the whole of its output buffer with the payload of what it
    read; the inputs are left as they were, and what the output buffer held before does not matter. -/
theorem decoder_run (c : Dev nD) (E : Set ℕ) (i : grid1.Coords)
    (a1 : Memref sig .tc .vmem S1024x2048 .f32) (w1 : a1.IsWhole) (a2 : Memref sig .tc .vmem S1024x2048 .f32) (w2 : a2.IsWhole)
    (a3 : Memref sig .tc .vmem S1024 .f32) (w3 : a3.IsWhole) (a4 : Memref sig .tc .vmem S1024x1024 .f32) (w4 : a4.IsWhole)
    (x : Vec F S1024x2048 .f32) (wt : Vec F S1024x2048 .f32) (b : Vec F S1024 .f32) (Q : PUnit → sProp 𝕄) :
    iprop(owns (c : Thread nD τ) a1 fullShare x ∗ owns (c : Thread nD τ) a2 fullShare wt ∗ owns (c : Thread nD τ) a3 fullShare b
        ∗ (∃ o, owns (c : Thread nD τ) a4 fullShare o)
        ∗ (iprop(owns (c : Thread nD τ) a1 fullShare x ∗ owns (c : Thread nD τ) a2 fullShare wt ∗ owns (c : Thread nD τ) a3 fullShare b
            ∗ owns (c : Thread nD τ) a4 fullShare (k1_pay1 x wt b)) -∗ Q ⟨⟩))
      ⊢ wp frame (wpE (defs₀ (F := F)) Variants.none c none) E (cc1__decoder_kernel i a1 w1 a2 w2 a3 w3 a4 w4) Q := by
  simp only [cc1__decoder_kernel_eq_skeleton]; unfold cc1__decoder_kernel_skel
  unfold owns
  iintro ⟨⟨%f1, %e1, H1⟩, ⟨%f2, %e2, H2⟩, ⟨%f3, %e3, H3⟩, ⟨%o, %f4, -, H4⟩, Hk⟩
  subst e1 e2 e3
  sl_exec
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  iexists _; isplitr
  rotate_left
  · iexact H4
  ipureintro
  -- the one store covers the buffer, so what is read back is its payload, and each whole load is the contents read
  rw [View.read_writes_eq_canon _ _ _ (store_reaches _), View.canon_unit_zero (S := S1024x1024) origin2]
  simp only [View.readAt_eq_ld, View.ld_unit_zero (S := S1024x2048) origin2, View.ld_unit_zero (S := S1024) origin1]

/-! ## The obligation -/

/-- What the pipeline hands the body at point `t`: the class's invariant, nothing owed, and the four current staging
    buffers, each at what it holds then. -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- What it takes back: the same, each buffer at what the proof data says the body leaves. -/
def returned (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at a point: the three inputs are at their blocks, the output buffer at anything, so `decoder_run`
    applies with the blocks as the contents read; the invariant and the owed count are not touched. -/
theorem point_run (c : Dev nD) (t : Fin cfg1.N) :
    handed V c t ⊢ wp frame (wpE (defs₀ (F := F)) Variants.none c none) Set.univ (bodyAt1 t) (fun _ => returned V c t) := by
  unfold handed returned bodyAt1
  simp only [h2_found, w4_found, b4_found]
  rw [show (dat V c).Φ t.succ = (dat V c).Φ t.castSucc from rfl,
    show (dat V c).owesAt () t.succ = (dat V c).owesAt () t.castSucc from rfl,
    after_h2, after_w4, after_b4, after_out]
  iintro ⟨HΦ, Ho, ⟨%d0, H0⟩, ⟨%d1, H1⟩, ⟨%d2, H2⟩, ⟨%d3, H3⟩⟩
  iapply (decoder_run c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  unfold outAt
  iexact H3

/-- The body obligation at every grid point. -/
theorem body_obligation (c : Dev nD) : BodyObligation (dat (F := F) V c) (defs₀ (F := F)) Variants.none () Set.univ := fun t => by
  rw [bigSep_W1, bigSep_W1]
  exact point_run V c t

end Cert.KernelIdeal.Dec

end
-- ==== Proof.Whole.lean ====
/-
  The whole program: the launch contents run through the first host stretch (a reshape), the encoder region,
  the latent-space host stretches, the decoder region and the closing reshape. Between two items every
  unscoped buffer of a core is held at a named valuation; a region changes exactly its output array, which
  ends at what its grid points wrote back.
-/
import proofs.«108296_j46119358825052_1_alg».proof.Proof.Gen.KernelIdeal.Launch
import proofs.«108296_j46119358825052_1_alg».proof.Proof.Gen.KernelIdeal.Skeleton
import proofs.«108296_j46119358825052_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«108296_j46119358825052_1_alg».proof.Proof.Gen.KernelIdeal.Regions
import proofs.«108296_j46119358825052_1_alg».proof.Proof.Enc
import proofs.«108296_j46119358825052_1_alg».proof.Proof.Dec
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the encoder region finds in the core's buffers: the launch contents after the first host stretch. -/
abbrev encIn : (c : Dev nD) → (b : Ref sig .tc) → Buf (Elt F) ((c : Thread nD τ).loc b) := fun c b => Gen.V1 m c b

/-- The buffers at the encoder region's exit: its arrays at what the pipeline leaves, every other buffer as entered. -/
def afterEnc (c : Dev nD) : Valuation τ sig (Elt F) :=
  Pipeline.withArrays spec0 c (Gen.V1 m c) fun w => (Enc.dat (encIn m) c).arrAt w cfg0.N

/-- The regions' outputs when only the encoder's is named yet. -/
def outsEnc : Gen.Outs (F := F) := fun _ r c => afterEnc m c r

/-- What the decoder region finds: the encoder's exit contents run through the latent-space host stretches. -/
abbrev decIn : (c : Dev nD) → (b : Ref sig .tc) → Buf (Elt F) ((c : Thread nD τ).loc b) := fun c b => Gen.V6 m (outsEnc m) c b

/-- The buffers at the decoder region's exit. -/
def afterDec (c : Dev nD) : Valuation τ sig (Elt F) :=
  Pipeline.withArrays spec1 c (Gen.V6 m (outsEnc m) c) fun w => (Dec.dat (decIn m) c).arrAt w cfg1.N

/-- What each region leaves in its output array: after item 1 the encoder's result, after item 6 the decoder's. -/
def outs : Gen.Outs (F := F) := fun j r c => if j = 7 then afterDec m c r else afterEnc m c r

/-- The encoder's output array after the region is what its pipeline wrote back. -/
theorem outs_enc (c : Dev nD) : outs m 2 main_v1 c = (Enc.dat (encIn m) c).arrAt 5 cfg0.N := by
  unfold outs
  rw [if_neg (show (2 : ℕ) ≠ 7 by decide)]
  unfold afterEnc
  exact Pipeline.withArrays_arr spec0 launch0.win.arr_inj c _ _ 5

/-- The decoder's output array after the region is what its pipeline wrote back. -/
theorem outs_dec (c : Dev nD) : outs m 7 main_v67 c = (Dec.dat (decIn m) c).arrAt 3 cfg1.N := by
  unfold outs
  rw [if_pos (show (7 : ℕ) = 7 from rfl)]
  unfold afterDec
  exact Pipeline.withArrays_arr spec1 launch1.win.arr_inj c _ _ 3

/-- At item 2 both families name the encoder's exit contents. -/
theorem outs_item2 (c : Dev nD) : outs m 2 main_v1 c = outsEnc m 2 main_v1 c := by
  unfold outs outsEnc
  rw [if_neg (show (2 : ℕ) ≠ 7 by decide)]

/-- The decoder is entered from the same contents whichever of the two families names the outputs. -/
theorem V6_outs (c : Dev nD) : Gen.V6 m (outs m) c = Gen.V6 m (outsEnc m) c := by
  -- the latent-space stretches run from the valuation after item 1, which reads the family at item 2 only
  unfold Gen.V6 Gen.V5 Gen.V4 Gen.V3 Gen.V2
  rw [outs_item2 m c]

/-- Every pipeline's proof data, each at its region's entry contents. -/
def pdats : (p : Fin 2) → (c : Dev nD) → Dat τ (Elt F) Unit ℕ (UR sig nD τ) ℕ (cfgs p) c
  | ⟨0, _⟩ => fun c => Enc.dat (encIn m) c
  | ⟨1, _⟩ => fun c => Dec.dat (decIn m) c

/-! ## The two regions' data, by name -/

theorem pdats_enc (c : Dev nD) : pdats m 0 c = Enc.dat (encIn m) c := rfl
theorem pdats_dec (c : Dev nD) : pdats m 1 c = Dec.dat (decIn m) c := rfl

/-- The decoder's invariant is the class's at every position. -/
theorem dec_phi (c : Dev nD) (t : Fin (cfg1.N + 1)) : (Dec.dat (decIn m) c).Φ t = Pipeline.ΦA spec1 c := by
  dsimp only [Dec.dat]

/-! ## The valuation after a region, array by array

A region's input arrays are never written back, so they end as entered, and the valuation after the region is the
one before it but at the output array; the output array ends at what the last write-back leaves. -/

/-- The valuation after item 1 holds, at the encoder's result array, what the family names there. -/
theorem V2_result (c : Dev nD) : Gen.V2 m (outs m) c main_v1 = outs m 2 main_v1 c := by
  unfold Gen.V2
  exact Function.update_self _ _ _

/-- The valuation after item 6 holds, at the decoder's result array, what the family names there. -/
theorem V7_result (c : Dev nD) : Gen.V7 m (outs m) c main_v67 = outs m 7 main_v67 c := by
  unfold Gen.V7
  exact Function.update_self _ _ _

/-- An input array of the encoder ends at what the valuation after item 1 holds there. -/
theorem enc_arr_in (c : Dev nD) (w : Fin cfg0.W) (hin : (cfg0.win w).isOut = false) (r : Ref sig .tc)
    (hr : Pipeline.arrRef spec0 w = r) (hne : r ∉ ([main_v1] : List (Ref sig .tc))) :
    (Enc.dat (encIn m) c).arrAt w cfg0.N = Gen.V2 m (outs m) c (Pipeline.arrRef spec0 w) := by
  subst hr
  exact ((Enc.dat (encIn m) c).arrAt_in w hin _).trans
    ((Enc.dat_A (encIn m) c w).trans (Gen.V2_of m (outs m) c _ hne).symm)

/-- Every array of the encoder ends at what the valuation after item 1 holds there. -/
theorem enc_arr (c : Dev nD) : ∀ w : Fin cfg0.W,
    (Enc.dat (encIn m) c).arrAt w cfg0.N = Gen.V2 m (outs m) c (Pipeline.arrRef spec0 w)
  | ⟨0, _⟩ => enc_arr_in m c 0 rfl main_v0 rfl (by decide)
  | ⟨1, _⟩ => enc_arr_in m c 1 rfl main_arg1 rfl (by decide)
  | ⟨2, _⟩ => enc_arr_in m c 2 rfl main_arg2 rfl (by decide)
  | ⟨3, _⟩ => enc_arr_in m c 3 rfl main_arg3 rfl (by decide)
  | ⟨4, _⟩ => enc_arr_in m c 4 rfl main_arg4 rfl (by decide)
  | ⟨5, _⟩ => (outs_enc m c).symm.trans (V2_result m c).symm
  | ⟨_ + 6, h⟩ => absurd h (Nat.not_lt.2 (Nat.le_add_left _ _))

/-- Off the encoder's arrays item 1 changes nothing. -/
theorem enc_off (c : Dev nD) (b : Ref sig .tc) (hb : b ∉ Finset.univ.image (Pipeline.arrRef spec0)) :
    Gen.V2 m (outs m) c b = Gen.V1 m c b :=
  Gen.V2_of m (outs m) c b fun h => hb (by
    rw [List.mem_singleton] at h
    subst h
    exact Finset.mem_image.mpr ⟨5, Finset.mem_univ _, rfl⟩)

/-- An input array of the decoder ends at what the valuation after item 6 holds there. -/
theorem dec_arr_in (c : Dev nD) (w : Fin cfg1.W) (hin : (cfg1.win w).isOut = false) (r : Ref sig .tc)
    (hr : Pipeline.arrRef spec1 w = r) (hne : r ∉ ([main_v67] : List (Ref sig .tc))) :
    (Dec.dat (decIn m) c).arrAt w cfg1.N = Gen.V7 m (outs m) c (Pipeline.arrRef spec1 w) := by
  subst hr
  exact ((Dec.dat (decIn m) c).arrAt_in w hin _).trans
    ((Dec.dat_A (decIn m) c w).trans
      ((Gen.V7_of m (outs m) c _ hne).trans (congrFun (V6_outs m c) _)).symm)

/-- Every array of the decoder ends at what the valuation after item 6 holds there. -/
theorem dec_arr (c : Dev nD) : ∀ w : Fin cfg1.W,
    (Dec.dat (decIn m) c).arrAt w cfg1.N = Gen.V7 m (outs m) c (Pipeline.arrRef spec1 w)
  | ⟨0, _⟩ => dec_arr_in m c 0 rfl main_v66 rfl (by decide)
  | ⟨1, _⟩ => dec_arr_in m c 1 rfl main_arg12 rfl (by decide)
  | ⟨2, _⟩ => dec_arr_in m c 2 rfl main_arg13 rfl (by decide)
  | ⟨3, _⟩ => (outs_dec m c).symm.trans (V7_result m c).symm
  | ⟨_ + 4, h⟩ => absurd h (Nat.not_lt.2 (Nat.le_add_left _ _))

/-- Off the decoder's arrays item 6 changes nothing. -/
theorem dec_off (c : Dev nD) (b : Ref sig .tc) (hb : b ∉ Finset.univ.image (Pipeline.arrRef spec1)) :
    Gen.V7 m (outs m) c b = Gen.V6 m (outsEnc m) c b :=
  (Gen.V7_of m (outs m) c b fun h => hb (by
    rw [List.mem_singleton] at h
    subst h
    exact Finset.mem_image.mpr ⟨3, Finset.mem_univ _, rfl⟩)).trans (congrFun (V6_outs m c) _)

/-! ## What rides beside the buffers

No core owes another anything and no level is assigned. Beside its unscoped buffers a core carries its generator
register at some state (a region's invariant takes it in and hands it back) and a due of nothing. -/

abbrev 𝒱₀ : Variants := Variants.none
abbrev L : GSem nD τ sig → Finset Unit := fun _ => ∅
abbrev lv : GSem nD τ sig → Unit → ℕ := fun _ _ => 0

abbrev rest (c : Dev nD) : sProp 𝕄 :=
  iprop((∃ r, prngReg c r) ∗ ∃ W, owes (c : Thread nD τ) (0 : CellTallies nD τ sig Unit) W)

/-- The same rest between any two items. -/
abbrev E : Fin 3 → Dev nD → sProp 𝕄 := fun _ c => rest (F := F) c

/-- The unscoped buffers at the encoder's exit, read at the core's own references. -/
abbrev encOut : (c : Dev nD) → (b : Ref sig .tc) → Buf (Elt F) ((c : Thread nD τ).loc b) := fun c b => Gen.V2 m (outs m) c b
/-- The unscoped buffers at the decoder's exit, read at the core's own references. -/
abbrev decOut : (c : Dev nD) → (b : Ref sig .tc) → Buf (Elt F) ((c : Thread nD τ).loc b) := fun c b => Gen.V7 m (outs m) c b

/-! ## The regions as segments -/

-- a library lemma stated over the pinned configuration meets the printed one only when unification may unfold plain
-- definitions in a metavariable's type
set_option backward.isDefEq.respectTransparency.types false in
/-- THE ENCODER REGION (item 1) between the thread states: entered from every unscoped buffer at the contents after the
    first host stretch, left at the valuation that differs from it at the result array alone. The generator register goes
    into the invariant of the first point and comes back from that of the last; nothing is owed; the kernel has no
    semaphore of its own. -/
def regEnc : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Enc.body_obligation (encIn m) c).loose
  hwaits := Pipeline.hwaits_of_owed_zero _ _ _ _ L lv 0 fun _ _ => rfl
  pre c := iprop(StableHlo.held (c : Thread nD τ) (Pipeline.ucRefs τ sig) (Gen.V1 m c) ∗ rest c)
  post c := iprop(StableHlo.held (c : Thread nD τ) (Pipeline.ucRefs τ sig) (Gen.V2 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (encIn m c)
  hentry c := by
    -- the region's arrays leave the unscoped buffers, at the contents the proof data start from; the others bypass it
    have hsplit := Pipeline.arrays_of_unscopedBufs (p := 0) (pcfgs (F := F)) Gen.adm (pdats m) launch0.win launch0.arr_whole c
      ((pdats m 0 c).share_full fun _ => rfl) (encIn m c) (fun w => Enc.dat_A (encIn m) c w)
    rw [Pipeline.unscopedBufs_held] at hsplit
    rw [Pipeline.ownSems0_none]
    iintro ⟨⟨Hbufs, Hreg, Hdue⟩, -, -⟩
    ihave Hs := hsplit $$ Hbufs
    icases Hs with ⟨Harr, Hz⟩
    imodintro
    isplitl [Harr]; · iexact Harr
    isplitr
    · -- no prefetched table
      unfold Pipeline.prefHeld
      rw [show (Finset.univ : Finset (Fin 0)) = ∅ from rfl, BI.bigSep_empty]
      iempintro
    isplitl [Hdue]
    · -- nothing is owed, and the data bound no recorded pair
      unfold Pipeline.Dat.owesAt Pipeline.owesWithin
      icases Hdue with ⟨%W, Hdue⟩
      iexists W
      isplitr; · ipureintro; exact fun _ _ => Or.inl trivial
      iexact Hdue
    isplitl [Hreg]; · iexact Hreg
    iexact Hz
  hin c := by
    -- the class's invariant, made of the register and the scoped rest, enters as the first point's
    rw [pdats_enc]
    refine BIBase.Entails.trans ?_ (Enc.phi_in (encIn m) c)
    unfold Pipeline.ΦA
    iintro ⟨Hreg, -, Hsc⟩
    isplitl [Hsc]; · iexact Hsc
    iexact Hreg
  hout c := by
    rw [Pipeline.ownSems0_none]
    rw [pdats_enc]
    refine BIBase.Entails.trans (Enc.phi_out (encIn m) c) ?_
    unfold Pipeline.ΦA
    iintro ⟨Hsc, Hreg⟩
    isplitl [Hreg]; · iexact Hreg
    isplitr; · iempintro
    iexact Hsc
  hexit c := by
    -- the arrays come back at their final contents: with the bypassing buffers they are the unscoped buffers at the next valuation
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (encIn m c) (encOut m c) ((pdats m 0 c).arrAt · cfg0.N) (enc_arr m c) (enc_off m c)
    rw [Pipeline.unscopedBufs_held] at hjoin
    iintro ⟨Harr, Hdue, Hreg, Hz⟩
    imodintro
    isplitl [Harr Hz]
    · iapply hjoin
      isplitl [Harr]; · iexact Harr
      iexact Hz
    isplitl [Hreg]; · iexact Hreg
    unfold Pipeline.Dat.owesAt Pipeline.owesWithin
    icases Hdue with ⟨%W, -, Hdue⟩
    iexists W
    iexact Hdue

-- a library lemma stated over the pinned configuration meets the printed one only when unification may unfold plain
-- definitions in a metavariable's type
set_option backward.isDefEq.respectTransparency.types false in
/-- THE DECODER REGION (item 6) between the thread states: entered from every unscoped buffer at the contents after the
    latent-space stretches, left at the valuation that differs from it at the result array alone. Its invariant is the
    class's at every point. -/
def regDec : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Dec.body_obligation (decIn m) c).loose
  hwaits := Pipeline.hwaits_of_owed_zero _ _ _ _ L lv 1 fun _ _ => rfl
  pre c := iprop(StableHlo.held (c : Thread nD τ) (Pipeline.ucRefs τ sig) (Gen.V6 m (outsEnc m) c) ∗ rest c)
  post c := iprop(StableHlo.held (c : Thread nD τ) (Pipeline.ucRefs τ sig) (Gen.V7 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (decIn m c)
  hentry c := by
    -- the region's arrays leave the unscoped buffers, at the contents the proof data start from; the others bypass it
    have hsplit := Pipeline.arrays_of_unscopedBufs (p := 1) (pcfgs (F := F)) Gen.adm (pdats m) launch1.win launch1.arr_whole c
      ((pdats m 1 c).share_full fun _ => rfl) (decIn m c) (fun w => Dec.dat_A (decIn m) c w)
    rw [Pipeline.unscopedBufs_held] at hsplit
    rw [Pipeline.ownSems0_none]
    iintro ⟨⟨Hbufs, Hreg, Hdue⟩, -, -⟩
    ihave Hs := hsplit $$ Hbufs
    icases Hs with ⟨Harr, Hz⟩
    imodintro
    isplitl [Harr]; · iexact Harr
    isplitr
    · -- no prefetched table
      unfold Pipeline.prefHeld
      rw [show (Finset.univ : Finset (Fin 0)) = ∅ from rfl, BI.bigSep_empty]
      iempintro
    isplitl [Hdue]
    · -- nothing is owed, and the data bound no recorded pair
      unfold Pipeline.Dat.owesAt Pipeline.owesWithin
      icases Hdue with ⟨%W, Hdue⟩
      iexists W
      isplitr; · ipureintro; exact fun _ _ => Or.inl trivial
      iexact Hdue
    isplitl [Hreg]; · iexact Hreg
    iexact Hz
  hin c := by
    rw [pdats_dec, dec_phi]
    unfold Pipeline.ΦA
    iintro ⟨Hreg, -, Hsc⟩
    isplitl [Hsc]; · iexact Hsc
    iexact Hreg
  hout c := by
    rw [Pipeline.ownSems0_none]
    rw [pdats_dec, dec_phi]
    unfold Pipeline.ΦA
    iintro ⟨Hsc, Hreg⟩
    isplitl [Hreg]; · iexact Hreg
    isplitr; · iempintro
    iexact Hsc
  hexit c := by
    -- the arrays come back at their final contents: with the bypassing buffers they are the unscoped buffers at the next valuation
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (decIn m c) (decOut m c) ((pdats m 1 c).arrAt · cfg1.N) (dec_arr m c) (dec_off m c)
    rw [Pipeline.unscopedBufs_held] at hjoin
    iintro ⟨Harr, Hdue, Hreg, Hz⟩
    imodintro
    isplitl [Harr Hz]
    · iapply hjoin
      isplitl [Harr]; · iexact Harr
      iexact Hz
    isplitl [Hreg]; · iexact Hreg
    unfold Pipeline.Dat.owesAt Pipeline.owesWithin
    icases Hdue with ⟨%W, -, Hdue⟩
    iexists W
    iexact Hdue

/-! ## The launch -/

/-- An unscoped reference of the core is among those the thread states hold. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The last rest still owes nothing. -/
theorem rest_due (c : Dev nD) :
    rest (F := F) c ⊢ iprop(∃ W, owes (c : Thread nD τ) (0 : CellTallies nD τ sig Unit) W) := by
  iintro ⟨-, Hdue⟩
  iexact Hdue

-- the launch theorem's implicit arguments are found by unifying its conclusion with this one, which takes unfolding
-- plain definitions in a metavariable's type
set_option backward.isDefEq.respectTransparency.types false in
/-- THE RUN. From any memory with zero counters every weakly fair execution of the program terminates, nothing
    faulting, and every unscoped buffer of every core ends at the last valuation. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V8 m (outs m) c b) := by
  refine Pipeline.θ_run_regions_kit_dev (pcfgs (F := F)) Gen.adm (pdats m) () cellOf_inj emb₁ defs₀ 𝒱₀ L lv m ρ main
    (Gen.segs m (outs m) 𝒱₀ L lv E () (pdats m) (regEnc m) (regDec m))
    (fun c Q => ?hmain) (fun c => ?hnd) (O₀ := 0) (hL := fun _ _ => rfl) (G := fun _ => iprop(emp))
    (u₀ := initOf (Pipeline.cells cfgs cellOf_inj) (Pipeline.launchToks cfgs cellOf_inj))
    (hu₀ := ?hu)
    (T₀ := fun c => iprop(StableHlo.held (c : Thread nD τ) (Pipeline.ucRefs τ sig) (Gen.V0 m c) ∗ rest c))
    (Tₙ := fun c => StableHlo.held (c : Thread nD τ) (Pipeline.ucRefs τ sig) (Gen.V8 m (outs m) c))
    (hch := fun c => ⟨.rfl, .rfl, .rfl, .rfl, .rfl, .rfl, ?hdec, .rfl, sep_mono .rfl (rest_due c)⟩)
    (hinit := ?hinit)
    (QY := fun c s => ∀ b ∈ Pipeline.ucRefs τ sig, s.mem (((c : Thread nD τ)).1, b) = Gen.V8 m (outs m) c b)
    (hfin := fun c s' => ?hfin) (hQ := fun _ h => h)
  case hmain =>
    -- @main is the chain of its eight items, which is the segments' run
    rewrite [main_chain c, Pipeline.Seg.run_eq_chain,
      show (Gen.segs m (outs m) 𝒱₀ L lv E () (pdats m) (regEnc m) (regDec m) c).map Pipeline.Seg.prog = [
        StableHlo.seq hostOps0,
        Prog.lift (.customCall (Pipeline.entry 0) ()),
        StableHlo.seq hostOps1,
        StableHlo.seq hostOps1_1,
        StableHlo.seq hostOps1_2,
        StableHlo.seq hostOps1_3,
        Prog.lift (.customCall (Pipeline.entry 1) ()),
        StableHlo.seq hostOps2 ] from rfl]
    exact .rfl
  case hnd =>
    simp only [Gen.segs, Pipeline.Seg.pipes_host, Pipeline.Seg.pipes_region, Pipeline.Seg.pipes_nil]
    decide
  case hu =>
    -- the launch element is the pipeline library's own; no ghost resource besides
    iintro Hu
    imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hdec =>
    -- the decoder's data are stated at the family that names the encoder's output only: the same contents
    exact BIBase.Entails.of_eq (congrArg
      (fun W => iprop(StableHlo.held (c : Thread nD τ) (Pipeline.ucRefs τ sig) W ∗ rest (F := F) c)) (V6_outs m c))
  case hinit =>
    -- each core by itself: its unscoped buffers at the launch memory, its register, its empty due
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hbufs, -, Hdue, -, Hreg, -⟩, -⟩
    imodintro
    isplitl [Hbufs]; · iexact Hbufs
    isplitl [Hreg]; · iexists _; iexact Hreg
    iexists ∅
    iexact Hdue
  case hfin =>
    -- the last thread state read against the final memory, buffer by buffer
    unfold StableHlo.held
    iintro ⟨Hbufs, HSI⟩
    imodintro
    iapply (pointsTo_read_all (Pipeline.ucRefs τ sig) (fun b => (((c : Thread nD τ)).1, b)) (Gen.V8 m (outs m) c) s')
    isplitl [Hbufs]; · iexact Hbufs
    iexact HSI

/-- The frame: every argument array ends as launched (no host stretch writes one, no region changes one). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c),
     (h c _ (mem_uc main_arg3 (by decide))).trans (Gen.V8_main_arg3 m (outs m) c),
     (h c _ (mem_uc main_arg4 (by decide))).trans (Gen.V8_main_arg4 m (outs m) c),
     (h c _ (mem_uc main_arg5 (by decide))).trans (Gen.V8_main_arg5 m (outs m) c),
     (h c _ (mem_uc main_arg6 (by decide))).trans (Gen.V8_main_arg6 m (outs m) c),
     (h c _ (mem_uc main_arg7 (by decide))).trans (Gen.V8_main_arg7 m (outs m) c),
     (h c _ (mem_uc main_arg8 (by decide))).trans (Gen.V8_main_arg8 m (outs m) c),
     (h c _ (mem_uc main_arg9 (by decide))).trans (Gen.V8_main_arg9 m (outs m) c),
     (h c _ (mem_uc main_arg10 (by decide))).trans (Gen.V8_main_arg10 m (outs m) c),
     (h c _ (mem_uc main_arg11 (by decide))).trans (Gen.V8_main_arg11 m (outs m) c),
     (h c _ (mem_uc main_arg12 (by decide))).trans (Gen.V8_main_arg12 m (outs m) c),
     (h c _ (mem_uc main_arg13 (by decide))).trans (Gen.V8_main_arg13 m (outs m) c)⟩)
    (run_all m ρ)

end Cert.KernelIdeal.Whole

end
-- ==== Proof.Tail.lean ====
/-
  The latent-space chain shared by the two programs, as pure functions of the encoder's result
  `h` (1024 x 2048) and the small parameters. In order: the encoder head z = h W2ᵀ + b2; the attention
  logits z memᵀ; a softmax over the 25 memory slots, computed with the row maximum subtracted; hard
  shrinkage relu(a - λ) a / (|a - λ| + ε); renormalisation of each row by its L1 norm (bounded below
  by ε); the read-out ẑ = att mem; the decoder head ẑ W3ᵀ + b3; batch normalisation over the 1024
  rows with scale g2 and shift be2; the positive part. Also the two changes of shape at the ends of
  the program. Every function is generic in the float instance; nothing here is ever unfolded by a
  user of it except to recognise it in a program's text.
-/
import proofs.«108296_j46119358825052_1_alg».proof.KernelIdeal

noncomputable section

namespace Cert.Tail

open Cert.KernelIdeal Cert.KernelIdeal.Facts₀
open Idealize.ShloMosaic Idealize.SL.Sem

variable {F : FTy → Type} [FloatOps F] [Facts₀]

-- an f32 array of shape `s`
set_option quotPrecheck false in
local notation "𝔸[" s "]" => (⟨s, .f32⟩ : BufTy).Contents (Elt F)

/-! ## The changes of shape -/

/-- The input images, one row of 16384 pixels per example. -/
def flat (x : 𝔸[S1024x64x16x16]) : 𝔸[S1024x16384] :=
  shapeCast S1024x16384 x shapeCasts_S1024x64x16x16_S1024x16384

/-- The reconstructed rows, back at the images' shape. -/
def unflat (y : 𝔸[S1024x16384]) : 𝔸[S1024x64x16x16] :=
  shapeCast S1024x64x16x16 y shapeCasts_S1024x16384_S1024x64x16x16

/-! ## Scalars spread over an array -/

/-- Zero as a rank-0 array. -/
def zero0 : 𝔸[S_] := constant S_ .f32 0x00000000#32
/-- Minus infinity as a rank-0 array. -/
def negInf0 : 𝔸[S_] := constant S_ .f32 0xFF800000#32
/-- The shrinkage threshold λ = 0.0025. -/
def lam0 : 𝔸[S_] := constant S_ .f32 0x3B23D70A#32
/-- The guard ε = 1e-12 of the shrinkage's and the renormalisation's divisions. -/
def eps0 : 𝔸[S_] := constant S_ .f32 0x2B8CBCCC#32
/-- The number of rows, 1024. -/
def rows0 : 𝔸[S_] := constant S_ .f32 0x44800000#32
/-- The guard 1e-5 under the batch norm's square root. -/
def bnEps0 : 𝔸[S_] := constant S_ .f32 0x3727C5AC#32

/-! ## The encoder head and the attention weights -/

/-- z = h W2ᵀ + b2, the bias repeated down the rows. -/
def z (h : 𝔸[S1024x2048]) (a5 : 𝔸[S16x2048]) (a6 : 𝔸[S16]) : 𝔸[S1024x16] :=
  addf (Host.dotGeneral dot_S1024x2048_S2048x16_S1024x16_1_0_0_1_n_n none h
      (transpose S2048x16 [1, 0] a5 transposes_S16x2048_S2048x16_1_0))
    (broadcastInDim S1024x16 ![0, 1] bcast_S1x16_S1024x16_0_1 (broadcastInDim S1x16 ![1] bcast_S16_S1x16_1 a6))

/-- The attention logits: each latent row against each of the 25 memory slots. -/
def logits (zv : 𝔸[S1024x16]) (a7 : 𝔸[S25x16]) : 𝔸[S1024x25] :=
  Host.dotGeneral dot_S1024x16_S16x25_S1024x25_1_0_0_1_n_n none zv (transpose S16x25 [1, 0] a7 transposes_S25x16_S16x25_1_0)

/-- A column of 1024 values repeated across the 25 slots. -/
def across (v : 𝔸[S1024]) : 𝔸[S1024x25] :=
  broadcastInDim S1024x25 ![0, 1] bcast_S1024x1_S1024x25_0_1 (broadcastInDim S1024x1 ![0] bcast_S1024_S1024x1_0 v)

/-- Each row's largest logit (never below minus infinity). -/
def rowMax (l : 𝔸[S1024x25]) : 𝔸[S1024] :=
  maximumf (broadcastInDim S1024 ![] bcast_S_S1024 (negInf0 (F := F)))
    (Host.reduce FloatOps.maximumf l (negInf0 (F := F)) reducesTo_S1024x25_S1024_d1 h_S_)

/-- The exponentials of the logits less their row's maximum. -/
def expo (l : 𝔸[S1024x25]) : 𝔸[S1024x25] := Host.exp (subf l (across (rowMax l)))

/-- The softmax over the slots. -/
def softmax (l : 𝔸[S1024x25]) : 𝔸[S1024x25] :=
  Host.divf (expo l) (across (Host.reduceAdd (expo l) (zero0 (F := F)) reducesTo_S1024x25_S1024_d1 h_S_))

/-- The weights less the threshold: a - λ. -/
def shifted (p : 𝔸[S1024x25]) : 𝔸[S1024x25] :=
  subf p (broadcastInDim S1024x25 ![] bcast_S_S1024x25 (lam0 (F := F)))

/-- The positive part of a 1024 x 25 array. -/
def relu25 (x : 𝔸[S1024x25]) : 𝔸[S1024x25] :=
  maximumf x (broadcastInDim S1024x25 ![] bcast_S_S1024x25 (zero0 (F := F)))

/-- Hard shrinkage from its three ingredients: `r` the positive part of a - λ, `p` the weights a, `s` = a - λ:
    r a / (|s| + ε). -/
def shrinkOf (r p s : 𝔸[S1024x25]) : 𝔸[S1024x25] :=
  Host.divf (mulf r p) (addf (Host.absf s) (broadcastInDim S1024x25 ![] bcast_S_S1024x25 (eps0 (F := F))))

/-- Each row divided by its L1 norm, the norm bounded below by ε. -/
def renorm (s : 𝔸[S1024x25]) : 𝔸[S1024x25] :=
  Host.divf s (broadcastInDim S1024x25 ![0, 1] bcast_S1024x1_S1024x25_0_1
    (maximumf (broadcastInDim S1024x1 ![0] bcast_S1024_S1024x1_0 (Host.reduceAdd (Host.absf s) (zero0 (F := F)) reducesTo_S1024x25_S1024_d1 h_S_))
      (broadcastInDim S1024x1 ![] bcast_S_S1024x1 (eps0 (F := F)))))

/-- The softmax weights of the latent rows over the memory. -/
def probs (h : 𝔸[S1024x2048]) (a5 : 𝔸[S16x2048]) (a6 : 𝔸[S16]) (a7 : 𝔸[S25x16]) : 𝔸[S1024x25] :=
  softmax (logits (z h a5 a6) a7)

/-- The sparse attention weights: shrunk, then renormalised. -/
def att (h : 𝔸[S1024x2048]) (a5 : 𝔸[S16x2048]) (a6 : 𝔸[S16]) (a7 : 𝔸[S25x16]) : 𝔸[S1024x25] :=
  renorm (shrinkOf (relu25 (shifted (probs h a5 a6 a7))) (probs h a5 a6 a7) (shifted (probs h a5 a6 a7)))

/-- The read-out of weights `w` from the memory. -/
def readOut (w : 𝔸[S1024x25]) (a7 : 𝔸[S25x16]) : 𝔸[S1024x16] :=
  Host.dotGeneral dot_S1024x25_S25x16_S1024x16_1_0_0_1_n_n none w a7

/-- ẑ = att mem. -/
def zhat (h : 𝔸[S1024x2048]) (a5 : 𝔸[S16x2048]) (a6 : 𝔸[S16]) (a7 : 𝔸[S25x16]) : 𝔸[S1024x16] :=
  readOut (att h a5 a6 a7) a7

/-! ## The decoder head, batch norm and positive part -/

/-- A row of 2048 values repeated down the 1024 rows. -/
def down (v : 𝔸[S2048]) : 𝔸[S1024x2048] :=
  broadcastInDim S1024x2048 ![0, 1] bcast_S1x2048_S1024x2048_0_1 (broadcastInDim S1x2048 ![1] bcast_S2048_S1x2048_1 v)

/-- ẑ W3ᵀ + b3. -/
def dec (zh : 𝔸[S1024x16]) (a8 : 𝔸[S2048x16]) (a9 : 𝔸[S2048]) : 𝔸[S1024x2048] :=
  addf (Host.dotGeneral dot_S1024x16_S16x2048_S1024x2048_1_0_0_1_n_n none zh
      (transpose S16x2048 [1, 0] a8 transposes_S2048x16_S16x2048_1_0))
    (down a9)

/-- A column's sum over the rows, divided by their number. -/
def colMean (y : 𝔸[S1024x2048]) : 𝔸[S2048] :=
  Host.divf (Host.reduceAdd y (zero0 (F := F)) reducesTo_S1024x2048_S2048_d0 h_S_)
    (broadcastInDim S2048 ![] bcast_S_S2048 (rows0 (F := F)))

/-- The array less its columns' means. -/
def centred (y : 𝔸[S1024x2048]) : 𝔸[S1024x2048] := subf y (down (colMean y))

/-- The columns' (biased) variances. -/
def colVar (y : 𝔸[S1024x2048]) : 𝔸[S2048] := colMean (mulf (centred y) (centred y))

/-- Batch normalisation over the rows with scale `g` and shift `b`. -/
def bn (y : 𝔸[S1024x2048]) (g b : 𝔸[S2048]) : 𝔸[S1024x2048] :=
  addf (mulf (mulf (centred y) (down (Host.rsqrt (addf (colVar y) (broadcastInDim S2048 ![] bcast_S_S2048 (bnEps0 (F := F)))))))
      (down g))
    (down b)

/-- The positive part of a 1024 x 2048 array. -/
def relu2048 (x : 𝔸[S1024x2048]) : 𝔸[S1024x2048] :=
  maximumf x (broadcastInDim S1024x2048 ![] bcast_S_S1024x2048 (zero0 (F := F)))

/-- The decoder's hidden layer: relu (bn (ẑ W3ᵀ + b3; g2, be2)). -/
def h2 (h : 𝔸[S1024x2048]) (a5 : 𝔸[S16x2048]) (a6 : 𝔸[S16]) (a7 : 𝔸[S25x16]) (a8 : 𝔸[S2048x16]) (a9 a10 a11 : 𝔸[S2048]) :
    𝔸[S1024x2048] :=
  relu2048 (bn (dec (zhat h a5 a6 a7) a8 a9) a10 a11)

end Cert.Tail

end
-- ==== Proof.KGlue.lean ====
/-
  The kernel program's host stretches compute the shared chain of Tail.lean. Between its two kernel regions
  the program runs four stretches of host operations on what the encoder region left in its result array;
  before the first region and after the second it changes the shape of an array. Each stretch is evaluated
  once, over an arbitrary valuation of the buffers, at the few references a later stretch or a region reads;
  the statements about the program's valuations then follow by walking each reference back to the stretch
  that wrote it. The regions' results enter only as the unknown contents `outs`.
-/
import proofs.«108296_j46119358825052_1_alg».proof.Proof.Tail
import proofs.«108296_j46119358825052_1_alg».proof.Proof.Gen.KernelIdeal.Regions

set_option maxRecDepth 8192

noncomputable section

namespace Cert.KernelIdeal.Glue

open Cert.KernelIdeal Cert.KernelIdeal.Gen
open Idealize.ShloMosaic Idealize.ShloMosaic.TcCoe Idealize.SL.Sem
open Idealize.ShloMosaic.StableHlo (after)

variable {F : FTy → Type} [FloatOps F]

/-! ## Each stretch, over any valuation -/

section Stretches

variable (V : Valuation τ sig (Elt F))

/-- The first stretch lays the images out one row per example. -/
theorem s0_v0 : after hostOps0 V (Proc.devRef .tc main_v0) = Cert.Tail.flat (V (Proc.devRef .tc main_arg0)) := by
  after_results; rfl

/-- The second stretch leaves the encoder head in `main_v6`, -/
theorem s1_v6 : after hostOps1 V (Proc.devRef .tc main_v6)
    = Cert.Tail.z (V (Proc.devRef .tc main_v1)) (V (Proc.devRef .tc main_arg5)) (V (Proc.devRef .tc main_arg6)) := by
  after_results_simp; rfl

/-- the softmax weights in `main_v19`, -/
theorem s1_v19 : after hostOps1 V (Proc.devRef .tc main_v19)
    = Cert.Tail.probs (V (Proc.devRef .tc main_v1)) (V (Proc.devRef .tc main_arg5)) (V (Proc.devRef .tc main_arg6)) (V (Proc.devRef .tc main_arg7)) := by
  after_results_simp; rfl

/-- and the weights less the threshold in `main_v21`. -/
theorem s1_v21 : after hostOps1 V (Proc.devRef .tc main_v21)
    = Cert.Tail.shifted (Cert.Tail.probs (V (Proc.devRef .tc main_v1)) (V (Proc.devRef .tc main_arg5)) (V (Proc.devRef .tc main_arg6)) (V (Proc.devRef .tc main_arg7))) := by
  after_results_simp; rfl

/-- The third stretch takes the positive part. -/
theorem s11_v22 : after hostOps1_1 V (Proc.devRef .tc main_v22) = Cert.Tail.relu25 (V (Proc.devRef .tc main_v21)) := by
  after_results; rfl

/-- The fourth stretch: the shrunk and renormalised weights, -/
theorem s12_v34 : after hostOps1_2 V (Proc.devRef .tc main_v34)
    = Cert.Tail.renorm (Cert.Tail.shrinkOf (V (Proc.devRef .tc main_v22)) (V (Proc.devRef .tc main_v19)) (V (Proc.devRef .tc main_v21))) := by
  after_results_simp; rfl

/-- their read-out from the memory, -/
theorem s12_v35 : after hostOps1_2 V (Proc.devRef .tc main_v35)
    = Cert.Tail.readOut (Cert.Tail.renorm (Cert.Tail.shrinkOf (V (Proc.devRef .tc main_v22)) (V (Proc.devRef .tc main_v19)) (V (Proc.devRef .tc main_v21))))
        (V (Proc.devRef .tc main_arg7)) := by
  after_results_simp; rfl

/-- and the batch-normalised decoder head. -/
theorem s12_v65 : after hostOps1_2 V (Proc.devRef .tc main_v65)
    = Cert.Tail.bn (Cert.Tail.dec (Cert.Tail.readOut (Cert.Tail.renorm (Cert.Tail.shrinkOf (V (Proc.devRef .tc main_v22)) (V (Proc.devRef .tc main_v19)) (V (Proc.devRef .tc main_v21))))
          (V (Proc.devRef .tc main_arg7))) (V (Proc.devRef .tc main_arg8)) (V (Proc.devRef .tc main_arg9)))
        (V (Proc.devRef .tc main_arg10)) (V (Proc.devRef .tc main_arg11)) := by
  after_results_simp; rfl

/-- The fifth stretch takes the positive part. -/
theorem s13_v66 : after hostOps1_3 V (Proc.devRef .tc main_v66) = Cert.Tail.relu2048 (V (Proc.devRef .tc main_v65)) := by
  after_results; rfl

/-- The last stretch puts the reconstruction back at the images' shape. -/
theorem s2_v68 : after hostOps2 V (Proc.devRef .tc main_v68) = Cert.Tail.unflat (V (Proc.devRef .tc main_v67)) := by
  after_results; rfl

end Stretches

/-! ## The program's valuations -/

variable (m : (ℓ : Loc nD τ sig) → Buf (Elt F) ℓ) (outs : Gen.Outs (F := F))

/-- The encoder region's result as the later stretches find it. -/
theorem V2_v1 (c : Dev nD) : Gen.V2 m outs c main_v1 = outs 2 main_v1 c := by
  simp only [Gen.V2, Function.update_self]

/-- A reference nothing has written before the second stretch still holds its launch contents there. -/
theorem V2_launch (c : Dev nD) (r : Ref sig .tc) (h2 : r ∉ ([main_v1] : List (Ref sig .tc))) (h1 : r ∉ hostOps0_W) :
    Gen.V2 m outs c r = m ((c : Thread nD τ).loc r) :=
  (Gen.V2_of m outs c r h2).trans ((Gen.V1_of m c r h1).trans rfl)

/-- Likewise before the fourth stretch. -/
theorem V4_launch (c : Dev nD) (r : Ref sig .tc) (h4 : r ∉ hostOps1_1_W) (h3 : r ∉ hostOps1_W)
    (h2 : r ∉ ([main_v1] : List (Ref sig .tc))) (h1 : r ∉ hostOps0_W) :
    Gen.V4 m outs c r = m ((c : Thread nD τ).loc r) :=
  (Gen.V4_of m outs c r h4).trans ((Gen.V3_of m outs c r h3).trans (V2_launch m outs c r h2 h1))

/-- Likewise before the second region. -/
theorem V6_launch (c : Dev nD) (r : Ref sig .tc) (h6 : r ∉ hostOps1_3_W) (h5 : r ∉ hostOps1_2_W) (h4 : r ∉ hostOps1_1_W)
    (h3 : r ∉ hostOps1_W) (h2 : r ∉ ([main_v1] : List (Ref sig .tc))) (h1 : r ∉ hostOps0_W) :
    Gen.V6 m outs c r = m ((c : Thread nD τ).loc r) :=
  (Gen.V6_of m outs c r h6).trans ((Gen.V5_of m outs c r h5).trans (V4_launch m outs c r h4 h3 h2 h1))

/-- The encoder region reads the flattened images. -/
theorem k_xf (c : Dev nD) : Gen.V1 m c main_v0 = Cert.Tail.flat (m ((c : Thread nD τ).loc main_arg0)) :=
  s0_v0 (Gen.V0 m c)

theorem k_arg1 (c : Dev nD) : Gen.V1 m c main_arg1 = m ((c : Thread nD τ).loc main_arg1) := (Gen.V1_of m c main_arg1 (by decide)).trans rfl
theorem k_arg2 (c : Dev nD) : Gen.V1 m c main_arg2 = m ((c : Thread nD τ).loc main_arg2) := (Gen.V1_of m c main_arg2 (by decide)).trans rfl
theorem k_arg3 (c : Dev nD) : Gen.V1 m c main_arg3 = m ((c : Thread nD τ).loc main_arg3) := (Gen.V1_of m c main_arg3 (by decide)).trans rfl
theorem k_arg4 (c : Dev nD) : Gen.V1 m c main_arg4 = m ((c : Thread nD τ).loc main_arg4) := (Gen.V1_of m c main_arg4 (by decide)).trans rfl
theorem k_arg12 (c : Dev nD) : Gen.V6 m outs c main_arg12 = m ((c : Thread nD τ).loc main_arg12) :=
  V6_launch m outs c main_arg12 (by decide) (by decide) (by decide) (by decide) (by decide) (by decide)
theorem k_arg13 (c : Dev nD) : Gen.V6 m outs c main_arg13 = m ((c : Thread nD τ).loc main_arg13) :=
  V6_launch m outs c main_arg13 (by decide) (by decide) (by decide) (by decide) (by decide) (by decide)

/-- After the second stretch `main_v6` holds the encoder head of the encoder region's result. -/
theorem V3_v6 (c : Dev nD) : Gen.V3 m outs c main_v6
    = Cert.Tail.z (outs 2 main_v1 c) (m ((c : Thread nD τ).loc main_arg5)) (m ((c : Thread nD τ).loc main_arg6)) := by
  refine (s1_v6 (Gen.V2 m outs c)).trans ?_
  rw [V2_v1, V2_launch m outs c main_arg5 (by decide) (by decide), V2_launch m outs c main_arg6 (by decide) (by decide)]

/-- After the second stretch `main_v19` holds the softmax weights, -/
theorem V3_v19 (c : Dev nD) : Gen.V3 m outs c main_v19
    = Cert.Tail.probs (outs 2 main_v1 c) (m ((c : Thread nD τ).loc main_arg5)) (m ((c : Thread nD τ).loc main_arg6))
        (m ((c : Thread nD τ).loc main_arg7)) := by
  refine (s1_v19 (Gen.V2 m outs c)).trans ?_
  rw [V2_v1, V2_launch m outs c main_arg5 (by decide) (by decide), V2_launch m outs c main_arg6 (by decide) (by decide),
    V2_launch m outs c main_arg7 (by decide) (by decide)]

/-- and `main_v21` the weights less the threshold. -/
theorem V3_v21 (c : Dev nD) : Gen.V3 m outs c main_v21
    = Cert.Tail.shifted (Cert.Tail.probs (outs 2 main_v1 c) (m ((c : Thread nD τ).loc main_arg5)) (m ((c : Thread nD τ).loc main_arg6))
        (m ((c : Thread nD τ).loc main_arg7))) := by
  refine (s1_v21 (Gen.V2 m outs c)).trans ?_
  rw [V2_v1, V2_launch m outs c main_arg5 (by decide) (by decide), V2_launch m outs c main_arg6 (by decide) (by decide),
    V2_launch m outs c main_arg7 (by decide) (by decide)]

/-- After the third stretch `main_v22` holds their positive part. -/
theorem V4_v22 (c : Dev nD) : Gen.V4 m outs c main_v22
    = Cert.Tail.relu25 (Cert.Tail.shifted (Cert.Tail.probs (outs 2 main_v1 c) (m ((c : Thread nD τ).loc main_arg5))
        (m ((c : Thread nD τ).loc main_arg6)) (m ((c : Thread nD τ).loc main_arg7)))) := by
  refine (s11_v22 (Gen.V3 m outs c)).trans ?_
  rw [V3_v21]

/-- What the fourth stretch reads of the weights: their shrunk and renormalised form is the attention. -/
theorem V4_att (c : Dev nD) :
    Cert.Tail.renorm (Cert.Tail.shrinkOf (Gen.V4 m outs c main_v22) (Gen.V4 m outs c main_v19) (Gen.V4 m outs c main_v21))
    = Cert.Tail.att (outs 2 main_v1 c) (m ((c : Thread nD τ).loc main_arg5)) (m ((c : Thread nD τ).loc main_arg6))
        (m ((c : Thread nD τ).loc main_arg7)) := by
  rw [V4_v22, Gen.V4_of m outs c main_v19 (by decide), Gen.V4_of m outs c main_v21 (by decide), V3_v19, V3_v21]
  rfl

theorem k_z (c : Dev nD) : Gen.V8 m outs c main_v6
    = Cert.Tail.z (outs 2 main_v1 c) (m ((c : Thread nD τ).loc main_arg5)) (m ((c : Thread nD τ).loc main_arg6)) :=
  (Gen.V8_of m outs c main_v6 (by decide)).trans <| (Gen.V7_of m outs c main_v6 (by decide)).trans <|
  (Gen.V6_of m outs c main_v6 (by decide)).trans <| (Gen.V5_of m outs c main_v6 (by decide)).trans <|
  (Gen.V4_of m outs c main_v6 (by decide)).trans <| V3_v6 m outs c

/-- After the fourth stretch `main_v34` holds the attention weights. -/
theorem V5_v34 (c : Dev nD) : Gen.V5 m outs c main_v34
    = Cert.Tail.att (outs 2 main_v1 c) (m ((c : Thread nD τ).loc main_arg5)) (m ((c : Thread nD τ).loc main_arg6))
        (m ((c : Thread nD τ).loc main_arg7)) :=
  (s12_v34 (Gen.V4 m outs c)).trans (V4_att m outs c)

theorem k_att (c : Dev nD) : Gen.V8 m outs c main_v34
    = Cert.Tail.att (outs 2 main_v1 c) (m ((c : Thread nD τ).loc main_arg5)) (m ((c : Thread nD τ).loc main_arg6))
        (m ((c : Thread nD τ).loc main_arg7)) :=
  (Gen.V8_of m outs c main_v34 (by decide)).trans <| (Gen.V7_of m outs c main_v34 (by decide)).trans <|
  (Gen.V6_of m outs c main_v34 (by decide)).trans <| V5_v34 m outs c

/-- After the fourth stretch `main_v35` holds the read-out. -/
theorem V5_v35 (c : Dev nD) : Gen.V5 m outs c main_v35
    = Cert.Tail.zhat (outs 2 main_v1 c) (m ((c : Thread nD τ).loc main_arg5)) (m ((c : Thread nD τ).loc main_arg6))
        (m ((c : Thread nD τ).loc main_arg7)) := by
  refine (s12_v35 (Gen.V4 m outs c)).trans ?_
  rw [V4_att, V4_launch m outs c main_arg7 (by decide) (by decide) (by decide) (by decide)]
  rfl

theorem k_zhat (c : Dev nD) : Gen.V8 m outs c main_v35
    = Cert.Tail.zhat (outs 2 main_v1 c) (m ((c : Thread nD τ).loc main_arg5)) (m ((c : Thread nD τ).loc main_arg6))
        (m ((c : Thread nD τ).loc main_arg7)) :=
  (Gen.V8_of m outs c main_v35 (by decide)).trans <| (Gen.V7_of m outs c main_v35 (by decide)).trans <|
  (Gen.V6_of m outs c main_v35 (by decide)).trans <| V5_v35 m outs c

/-- The second region reads the decoder's hidden layer. -/
theorem k_h2 (c : Dev nD) : Gen.V6 m outs c main_v66
    = Cert.Tail.h2 (outs 2 main_v1 c) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg11)) := by
  refine (s13_v66 (Gen.V5 m outs c)).trans ?_
  rw [show Gen.V5 m outs c main_v65 = _ from s12_v65 (Gen.V4 m outs c), V4_att,
    V4_launch m outs c main_arg7 (by decide) (by decide) (by decide) (by decide),
    V4_launch m outs c main_arg8 (by decide) (by decide) (by decide) (by decide),
    V4_launch m outs c main_arg9 (by decide) (by decide) (by decide) (by decide),
    V4_launch m outs c main_arg10 (by decide) (by decide) (by decide) (by decide),
    V4_launch m outs c main_arg11 (by decide) (by decide) (by decide) (by decide)]
  rfl

/-- The program's result is the second region's, back at the images' shape. -/
theorem k_out (c : Dev nD) : Gen.V8 m outs c main_v68 = Cert.Tail.unflat (outs 7 main_v67 c) := by
  refine (s2_v68 (Gen.V7 m outs c)).trans ?_
  rw [show Gen.V7 m outs c main_v67 = outs 7 main_v67 c from by simp only [Gen.V7, Function.update_self]]

end Cert.KernelIdeal.Glue

end
-- ==== Proof.RGlue.lean ====
/-
  The reference program's latent stages are the shared chain of Tail.lean applied to its own encoder
  result (its stage 31): the encoder head, the attention weights, the read-out and the decoder's hidden
  layer, and the two changes of shape at the ends. Each statement is read off the stages' definitions: the
  operations between two named stages are, one for one, those of the shared functions, over shape records
  of the same value; nothing below stage 31 is opened.
-/
import proofs.«108296_j46119358825052_1_alg».proof.Proof.Tail
import proofs.«108296_j46119358825052_1_alg».proof.Proof.RefRead

set_option maxRecDepth 8192

noncomputable section

namespace Cert.ReferenceIdeal.Glue

open Cert.ReferenceIdeal
open Idealize.ShloMosaic Idealize.SL.Sem

variable {F : FTy → Type} [FloatOps F] [Cert.KernelIdeal.Facts₀]

-- an f32 array of shape `s`
set_option quotPrecheck false in
local notation "𝔸[" s "]" => (⟨s, .f32⟩ : BufTy).Contents (Elt F)

/-- Stage 0 is the images laid out one row per example. -/
theorem r_xf (x0 : 𝔸[S1024x64x16x16]) : ReadP.val_main_v0 (F := F) x0 = Cert.Tail.flat x0 := by
  unfold ReadP.val_main_v0 Cert.Tail.flat
  rfl

/-- Stage 36 is the encoder head of stage 31. -/
theorem r_z (x0 : 𝔸[S1024x64x16x16]) (x1 : 𝔸[S2048x16384]) (x2 : 𝔸[S2048]) (x3 : 𝔸[S2048]) (x4 : 𝔸[S2048]) (x5 : 𝔸[S16x2048]) (x6 : 𝔸[S16]) :
    ReadP.val_main_v36 (F := F) x0 x1 x2 x3 x4 x5 x6 = Cert.Tail.z (ReadP.val_main_v31 (F := F) x0 x1 x2 x3 x4) x5 x6 := by
  unfold ReadP.val_main_v36 ReadP.val_main_v35 ReadP.val_main_v34 ReadP.val_main_v33 ReadP.val_main_v32
  generalize ReadP.val_main_v31 (F := F) x0 x1 x2 x3 x4 = h
  rfl

/-- Stage 64 is the sparse attention weights of stage 31. -/
theorem r_att (x0 : 𝔸[S1024x64x16x16]) (x1 : 𝔸[S2048x16384]) (x2 : 𝔸[S2048]) (x3 : 𝔸[S2048])
    (x4 : 𝔸[S2048]) (x5 : 𝔸[S16x2048]) (x6 : 𝔸[S16]) (x7 : 𝔸[S25x16]) :
    ReadP.val_main_v64 (F := F) x0 x1 x2 x3 x4 x5 x6 x7 = Cert.Tail.att (ReadP.val_main_v31 (F := F) x0 x1 x2 x3 x4) x5 x6 x7 := by
  unfold ReadP.val_main_v64 ReadP.val_main_v63 ReadP.val_main_v62 ReadP.val_main_v61 ReadP.val_main_v60 ReadP.val_main_v59
    ReadP.val_main_v58 ReadP.val_main_v57 ReadP.val_main_v56 ReadP.val_main_v55 ReadP.val_main_v54 ReadP.val_main_v53
    ReadP.val_main_v52 ReadP.val_main_v51 ReadP.val_main_v50 ReadP.val_main_v49 ReadP.val_main_v48 ReadP.val_main_v47
    ReadP.val_main_v46 ReadP.val_main_v45 ReadP.val_main_v44 ReadP.val_main_v43 ReadP.val_main_v42 ReadP.val_main_v41
    ReadP.val_main_v40 ReadP.val_main_v39 ReadP.val_main_v38 ReadP.val_main_v37
  rw [r_z]
  generalize ReadP.val_main_v31 (F := F) x0 x1 x2 x3 x4 = h
  rfl

/-- Stage 65 is the read-out. -/
theorem r_zhat (x0 : 𝔸[S1024x64x16x16]) (x1 : 𝔸[S2048x16384]) (x2 : 𝔸[S2048]) (x3 : 𝔸[S2048])
    (x4 : 𝔸[S2048]) (x5 : 𝔸[S16x2048]) (x6 : 𝔸[S16]) (x7 : 𝔸[S25x16]) :
    ReadP.val_main_v65 (F := F) x0 x1 x2 x3 x4 x5 x6 x7 = Cert.Tail.zhat (ReadP.val_main_v31 (F := F) x0 x1 x2 x3 x4) x5 x6 x7 := by
  unfold ReadP.val_main_v65
  rw [r_att]
  generalize ReadP.val_main_v31 (F := F) x0 x1 x2 x3 x4 = h
  rfl

/-- Stage 96 is the decoder's hidden layer. -/
theorem r_h2 (x0 : 𝔸[S1024x64x16x16]) (x1 : 𝔸[S2048x16384]) (x2 : 𝔸[S2048]) (x3 : 𝔸[S2048]) (x4 : 𝔸[S2048]) (x5 : 𝔸[S16x2048])
    (x6 : 𝔸[S16]) (x7 : 𝔸[S25x16]) (x8 : 𝔸[S2048x16]) (x9 : 𝔸[S2048]) (x10 : 𝔸[S2048]) (x11 : 𝔸[S2048]) :
    ReadP.val_main_v96 (F := F) x0 x1 x2 x3 x4 x5 x6 x7 x8 x9 x10 x11
    = Cert.Tail.h2 (ReadP.val_main_v31 (F := F) x0 x1 x2 x3 x4) x5 x6 x7 x8 x9 x10 x11 := by
  unfold ReadP.val_main_v96 ReadP.val_main_v95 ReadP.val_main_v94 ReadP.val_main_v93 ReadP.val_main_v92 ReadP.val_main_v91
    ReadP.val_main_v90 ReadP.val_main_v89 ReadP.val_main_v88 ReadP.val_main_v87 ReadP.val_main_v86 ReadP.val_main_v85
    ReadP.val_main_v84 ReadP.val_main_v83 ReadP.val_main_v82 ReadP.val_main_v81 ReadP.val_main_v80 ReadP.val_main_v79
    ReadP.val_main_v78 ReadP.val_main_v77 ReadP.val_main_v76 ReadP.val_main_v75 ReadP.val_main_v74 ReadP.val_main_v73
    ReadP.val_main_v72 ReadP.val_main_v71 ReadP.val_main_v70 ReadP.val_main_v69 ReadP.val_main_v68 ReadP.val_main_v67
    ReadP.val_main_v66
  rw [r_zhat]
  unfold Cert.Tail.h2
  generalize Cert.Tail.zhat (ReadP.val_main_v31 (F := F) x0 x1 x2 x3 x4) x5 x6 x7 = zh
  rfl

/-- Stage 102 is stage 101 back at the images' shape. -/
theorem r_out (x0 : 𝔸[S1024x64x16x16]) (x1 : 𝔸[S2048x16384]) (x2 : 𝔸[S2048]) (x3 : 𝔸[S2048]) (x4 : 𝔸[S2048]) (x5 : 𝔸[S16x2048]) (x6 : 𝔸[S16])
    (x7 : 𝔸[S25x16]) (x8 : 𝔸[S2048x16]) (x9 : 𝔸[S2048]) (x10 : 𝔸[S2048]) (x11 : 𝔸[S2048]) (x12 : 𝔸[S16384x2048]) (x13 : 𝔸[S16384]) :
    ReadP.val_main_v102 (F := F) x0 x1 x2 x3 x4 x5 x6 x7 x8 x9 x10 x11 x12 x13 = Cert.Tail.unflat (ReadP.val_main_v101 (F := F) x0 x1 x2 x3 x4 x5 x6 x7 x8 x9 x10 x11 x12 x13) := by
  unfold ReadP.val_main_v102 Cert.Tail.unflat
  rfl

end Cert.ReferenceIdeal.Glue

end
-- ==== Proof.EncValueSpec.lean ====
/-
  The encoder's value, as a formula on the extended reals, and the two facts about finite sums that the
  comparison of the blocked product with the whole product rests on.

  The encoder is Linear -> BatchNorm (batch statistics) -> ReLU on a [1024, 16384] activation matrix and a
  [2048, 16384] weight matrix. Entry (p, q) of its result depends on column q of the pre-activation
  y = x · Wᵀ + b only: with μ the mean of that column over the 1024 rows and σ² the mean of the centred
  squares, the entry is max ((y p q − μ) · rsqrt (σ² + ε) · g q + β q) 0. The division by the row count and
  the literals (1024.0, ε, 0.0) are kept as the words the two programs print; no literal is evaluated here.

  A sum over 16384 columns is the sum over 16 blocks of the sums over each block's 1024 columns: a
  re-indexing of a finite sum in a commutative monoid, so it holds on the extended reals with no
  finiteness assumption.
-/
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin
import Mathlib.Logic.Equiv.Fin.Basic

noncomputable section

open scoped BigOperators

namespace Cert.Bridge.Enc

open Idealize.ShloMosaic Idealize.ShloMosaic.ValueIdx

/-! ## The batch-normalised, rectified entry -/

/-- The mean of column `q` of `y` over the 1024 rows: the column's sum divided by the word for 1024.0. -/
def colMean (y : Fin 1024 → Fin 2048 → EReal) (q : Fin 2048) : EReal :=
  Ideal.div (∑ r : Fin 1024, y r q) (Ideal.ofBits .f32 0x44800000#32)

/-- The (biased) variance of column `q`: the mean of the squares of the entries less the column's mean. -/
def colVar (y : Fin 1024 → Fin 2048 → EReal) (q : Fin 2048) : EReal :=
  Ideal.div (∑ r : Fin 1024, (y r q - colMean y q) * (y r q - colMean y q)) (Ideal.ofBits .f32 0x44800000#32)

/-- Entry `(p, q)` after normalisation by the column's statistics, scale `g`, shift `β` and the positive part. -/
def normRelu (y : Fin 1024 → Fin 2048 → EReal) (g β : Fin 2048 → EReal) (p : Fin 1024) (q : Fin 2048) : EReal :=
  max ((y p q - colMean y q) * Ideal.rsqrt (colVar y q + Ideal.ofBits .f32 0x3727C5AC#32) * g q + β q)
    (Ideal.ofBits .f32 0x00000000#32)

/-! ## A sum over `m · n` indices, block by block -/

/-- Column `k` of block `t` when `N = m · n` columns are cut into `m` blocks of `n`: column `n · t + k`. -/
def blockCol {m n N : ℕ} (hN : m * n = N) (t : Fin m) (k : Fin n) : Fin N :=
  Fin.cast hN (finProdFinEquiv (t, k))

theorem blockCol_val {m n N : ℕ} (hN : m * n = N) (t : Fin m) (k : Fin n) :
    (blockCol hN t k).val = n * t.val + k.val := by
  show k.val + n * t.val = n * t.val + k.val
  exact Nat.add_comm _ _

/-- The sum over all columns is the sum over the blocks of each block's sum. -/
theorem sum_eq_sum_blocks {M : Type*} [AddCommMonoid M] {m n N : ℕ} (hN : m * n = N) (f : Fin N → M) :
    ∑ j : Fin N, f j = ∑ t : Fin m, ∑ k : Fin n, f (blockCol hN t k) := by
  subst hN
  rw [← Equiv.sum_comp finProdFinEquiv f, Fintype.sum_prod_type]
  rfl

/-- The first `n + 1` of `m` terms, one more term at a time. -/
theorem sum_castLE_succ {M : Type*} [AddCommMonoid M] {m : ℕ} (f : Fin m → M) (n : ℕ) (h : n + 1 < m) :
    ∑ t : Fin (n + 1 + 1), f (Fin.castLE (Nat.succ_le_of_lt h) t)
      = (∑ t : Fin (n + 1), f (Fin.castLE (Nat.le_of_lt h) t)) + f ⟨n + 1, h⟩ := by
  rw [Fin.sum_univ_castSucc]
  rfl

/-! ## A sum over the rows of a matrix, read at a column -/

/-- The kernel's sum of a matrix over its rows, read at column `q`: the sum of that column's entries. -/
theorem reduceAdd_rows {a b : ℕ} (h : (⟨2, ![a, b]⟩ : Shape).Reduces [0] ⟨1, ![b]⟩)
    (x : (⟨2, ![a, b]⟩ : Shape).Idx → EReal) (q : Fin b) :
    Ideal.reduceAdd h x (ix1 q) = ∑ r : Fin a, x (ix2 r q) :=
  (Ideal.reduceAdd_single h x (ix1 q)).trans
    (Finset.sum_congr rfl fun r _ => congrArg x (funext fun d => Fin.ext (by
      match d with
      | ⟨0, _⟩ => rfl
      | ⟨1, _⟩ => rfl)))

/-- The reciprocal square root of a vector, read at an index. -/
theorem rsqrt_apply {s : Shape} {φ : FTy} (a : FVec Ideal s φ) (i : s.Idx) : rsqrt a i = Ideal.rsqrt (a i) := rfl

end Cert.Bridge.Enc

end
-- ==== Proof.EncValueNorm.lean ====
/-
  The encoder's epilogue read at one entry. At the last grid point the kernel adds the bias row to the
  accumulated product, takes each column's mean and centred second moment over the 1024 rows, and writes
  max ((y − μ) · rsqrt (σ² + ε) · g + β) 0. On the extended reals every step is the plain operation, a
  row broadcast reads its one row, and a sum over the rows read at column q is the sum of that column.
-/
import proofs.«108296_j46119358825052_1_alg».proof.Proof.Gen.KernelIdeal.Skeleton
import proofs.«108296_j46119358825052_1_alg».proof.Proof.EncValueSpec

set_option maxRecDepth 16384

noncomputable section

open scoped BigOperators

namespace Cert.Bridge.Enc

open Cert.KernelIdeal Cert.KernelIdeal.Gen
open Idealize.ShloMosaic Idealize.ShloMosaic.ValueIdx

/-- Entry `(p, q)` of the epilogue's result: the normalised, rectified entry of the pre-activation
    `h + b` (the bias added along each row) with scale `g` and shift `β`. -/
theorem epilogue_apply (h : Vec Ideal S1024x2048 .f32) (b g β : Vec Ideal S2048 .f32) (p : Fin 1024) (q : Fin 2048) :
    k0_pay3 (F := Ideal) h b g β (ix2 p q)
      = normRelu (fun r s => h (ix2 r s) + b (ix1 s)) (fun s => g (ix1 s)) (fun s => β (ix1 s)) p q := by
  unfold k0_pay3 normRelu colVar colMean
  simp only [maximumf_apply, addf_apply, mulf_apply, subf_apply, divf_apply, rsqrt_apply, broadcast_apply,
    broadcastTo_1b_ab_apply, shapeCast_a_1a_apply, multiReduction, Ideal.reduceAdd_def, reduceAdd_rows]
  rfl

end Cert.Bridge.Enc

end
-- ==== Proof.EncValueProduct.lean ====
/-
  The encoder's accumulated product. The contraction axis of 16384 columns is cut into sixteen blocks of
  1024; at grid point t the pipeline stages columns 1024·t … 1024·t + 1023 of the flattened activations
  [1024, 16384] and of the weights [2048, 16384], and the body adds to the carried accumulator the product
  of the activations' block with the transposed weights' block, starting from zero at the first point.
  On the extended reals one step at entry (p, q) is the carried value plus the sum over the block's columns
  of activation (p, ·) times weight (q, ·); after the last point the sixteen partial sums are the one sum
  over all 16384 columns — a regrouping of a finite sum, which needs no finiteness of the terms.
-/
import proofs.«108296_j46119358825052_1_alg».proof.Proof.Enc
import proofs.«108296_j46119358825052_1_alg».proof.Proof.EncValueSpec

set_option maxRecDepth 16384

noncomputable section

open scoped BigOperators

namespace Cert.Bridge.Enc

open Cert.KernelIdeal Cert.KernelIdeal.Gen Cert.KernelIdeal.Enc
open Idealize.ShloMosaic Idealize.ShloMosaic.TcCoe
open Idealize.SL Idealize.SL.Sem
open Idealize.ShloMosaic.ValueIdx

/-! ## One grid point's step, at an entry -/

/-- The accumulator's first contents are zero at every entry. -/
theorem zeros_apply (i : S1024x2048.Idx) : (k0_pay1 (F := Ideal)) i = 0 := by
  unfold k0_pay1
  simp only [shapeCast_self, broadcast_apply]
  exact Ideal.ofBits_zero_f32

/-- The operand indices of the step's contraction: the left operand is read along row `i 0`, -/
theorem lhs_step_0 (i : S1024x2048.Idx) (q : dot_S1024x1024_S1024x2048_S1024x2048_1_0_0_1_n_n.contr.Idx) :
    (dot_S1024x1024_S1024x2048_S1024x2048_1_0_0_1_n_n.lhsIdx i q 0).val = (i 0).val := by
  unfold DotDims.lhsIdx
  rw [dif_neg (show ¬(0 : Fin S1024x1024.rank) ∈ dot_S1024x1024_S1024x2048_S1024x2048_1_0_0_1_n_n.lhsBatch by decide), dif_pos (show (0 : Fin S1024x1024.rank) ∈ dot_S1024x1024_S1024x2048_S1024x2048_1_0_0_1_n_n.lhsNonContracting by decide)]
  rfl
/-- at the contraction's coordinate; -/
theorem lhs_step_1 (i : S1024x2048.Idx) (q : dot_S1024x1024_S1024x2048_S1024x2048_1_0_0_1_n_n.contr.Idx) :
    (dot_S1024x1024_S1024x2048_S1024x2048_1_0_0_1_n_n.lhsIdx i q 1).val = (q ⟨0, by decide⟩).val :=
  dot_S1024x1024_S1024x2048_S1024x2048_1_0_0_1_n_n.lhsIdx_val_of_single rfl i q
/-- the right operand at the contraction's coordinate, -/
theorem rhs_step_0 (i : S1024x2048.Idx) (q : dot_S1024x1024_S1024x2048_S1024x2048_1_0_0_1_n_n.contr.Idx) :
    (dot_S1024x1024_S1024x2048_S1024x2048_1_0_0_1_n_n.rhsIdx i q 0).val = (q ⟨0, by decide⟩).val :=
  dot_S1024x1024_S1024x2048_S1024x2048_1_0_0_1_n_n.rhsIdx_val_of_single rfl i q
/-- along column `i 1`. -/
theorem rhs_step_1 (i : S1024x2048.Idx) (q : dot_S1024x1024_S1024x2048_S1024x2048_1_0_0_1_n_n.contr.Idx) :
    (dot_S1024x1024_S1024x2048_S1024x2048_1_0_0_1_n_n.rhsIdx i q 1).val = (i 1).val := by
  unfold DotDims.rhsIdx
  rw [dif_neg (show ¬(1 : Fin S1024x2048.rank) ∈ dot_S1024x1024_S1024x2048_S1024x2048_1_0_0_1_n_n.rhsBatch by decide), dif_pos (show (1 : Fin S1024x2048.rank) ∈ dot_S1024x1024_S1024x2048_S1024x2048_1_0_0_1_n_n.rhsNonContracting by decide)]
  rfl

/-- One step at entry `(p, q)`: the carried value there plus the product of row `p` of the activations'
    block with row `q` of the weights' block (the block of weights enters transposed). -/
theorem step_apply (A : Vec Ideal S1024x1024 .f32) (B : Vec Ideal S2048x1024 .f32) (C : Vec Ideal S1024x2048 .f32)
    (p : Fin 1024) (q : Fin 2048) :
    k0_pay2 (F := Ideal) A B C (ix2 p q) = C (ix2 p q) + ∑ k : Fin 1024, A (ix2 p k) * B (ix2 q k) := by
  unfold k0_pay2
  simp only [shapeCast_self, addf_apply, matmul, Ideal.matmul_constant_zero_apply]
  refine congrArg (C (ix2 p q) + ·) ?_
  rw [← Equiv.sum_comp (contrEquiv1 dot_S1024x1024_S1024x2048_S1024x2048_1_0_0_1_n_n 1024 rfl rfl).symm]
  refine Finset.sum_congr rfl fun k _ => ?_
  have hk := contrEquiv1_symm_val dot_S1024x1024_S1024x2048_S1024x2048_1_0_0_1_n_n 1024 rfl rfl k
  have el : dot_S1024x1024_S1024x2048_S1024x2048_1_0_0_1_n_n.lhsIdx (ix2 p q) ((contrEquiv1 dot_S1024x1024_S1024x2048_S1024x2048_1_0_0_1_n_n 1024 rfl rfl).symm k) = ix2 p k := funext fun a => Fin.ext (by
    match a with
    | ⟨0, _⟩ => exact lhs_step_0 _ _
    | ⟨1, _⟩ => exact (lhs_step_1 _ _).trans hk)
  have er : dot_S1024x1024_S1024x2048_S1024x2048_1_0_0_1_n_n.rhsIdx (ix2 p q) ((contrEquiv1 dot_S1024x1024_S1024x2048_S1024x2048_1_0_0_1_n_n 1024 rfl rfl).symm k) = ix2 k q := funext fun a => Fin.ext (by
    match a with
    | ⟨0, _⟩ => exact (rhs_step_0 _ _).trans hk
    | ⟨1, _⟩ => exact rhs_step_1 _ _)
  rw [el, er, transpose_ix2_apply]
  rfl

/-! ## The blocks the pipeline stages, read off the arrays -/

section Blocks

variable {F : FTy → Type} [FloatOps F]
variable (V : (c : Dev nD) → (b : Ref sig .tc) → Buf (Elt F) ((c : Thread nD τ).loc b))

/-- The two arrays the product reads and the two blocks staged at a point, each under its literal vector
    type (so that the arithmetic on their entries is the extended reals'). -/
abbrev actArr (c : Dev nD) : Vec F S1024x16384 .f32 := V c main_v0
abbrev wtArr (c : Dev nD) : Vec F S2048x16384 .f32 := V c main_arg1
abbrev actBlk (c : Dev nD) (t : Fin cfg0.N) : Vec F S1024x1024 .f32 := blk V c 0 t
abbrev wtBlk (c : Dev nD) (t : Fin cfg0.N) : Vec F S2048x1024 .f32 := blk V c 1 t
/-- Likewise the bias, scale and shift vectors and their staged windows. -/
abbrev biasArr (c : Dev nD) : Vec F S2048 .f32 := V c main_arg2
abbrev scaleArr (c : Dev nD) : Vec F S2048 .f32 := V c main_arg3
abbrev shiftArr (c : Dev nD) : Vec F S2048 .f32 := V c main_arg4
abbrev biasBlk (c : Dev nD) (t : Fin cfg0.N) : Vec F S2048 .f32 := blk V c 2 t
abbrev scaleBlk (c : Dev nD) (t : Fin cfg0.N) : Vec F S2048 .f32 := blk V c 3 t
abbrev shiftBlk (c : Dev nD) (t : Fin cfg0.N) : Vec F S2048 .f32 := blk V c 4 t

/-- At grid point `t` the activations' window is block `(0, t)` -/
theorem index_act : ∀ t : Fin cfg0.N, win0_0.index t (0 : Fin 2) = 0 ∧ win0_0.index t (1 : Fin 2) = t.val :=
  (by decide +kernel : ∀ t : Fin grid0.N, _)
/-- and so is the weights'. -/
theorem index_wt : ∀ t : Fin cfg0.N, win0_1.index t (0 : Fin 2) = 0 ∧ win0_1.index t (1 : Fin 2) = t.val :=
  (by decide +kernel : ∀ t : Fin grid0.N, _)

/-- Entry `(i, j)` of the activations' block at point `t` is the flattened activations at `(i, 1024 · t + j)`:
    a block's coordinate is its index times its extent plus the coordinate inside it. -/
theorem act_block_apply (c : Dev nD) (t : Fin cfg0.N) (i : Fin 1024) (j : Fin 1024) (k : Fin 16384)
    (hk : k.val = 1024 * t.val + j.val) :
    actBlk V c t (ix2 i j) = actArr V c (ix2 i k) := by
  unfold actBlk actArr blk
  rw [View.read_apply]
  show V c main_v0 _ = V c main_v0 _
  refine congrArg _ (funext fun a => Fin.ext ?_)
  match a with
  | ⟨0, _⟩ => show win0_0.index t 0 * 1024 + 1 * i.val = i.val; rw [(index_act t).1]; omega
  | ⟨1, _⟩ => show win0_0.index t 1 * 1024 + 1 * j.val = k.val; rw [(index_act t).2, hk]; omega

/-- Entry `(n, j)` of the weights' block at point `t` is the weights at `(n, 1024 · t + j)`. -/
theorem wt_block_apply (c : Dev nD) (t : Fin cfg0.N) (n : Fin 2048) (j : Fin 1024) (k : Fin 16384)
    (hk : k.val = 1024 * t.val + j.val) :
    wtBlk V c t (ix2 n j) = wtArr V c (ix2 n k) := by
  unfold wtBlk wtArr blk
  rw [View.read_apply]
  show V c main_arg1 _ = V c main_arg1 _
  refine congrArg _ (funext fun a => Fin.ext ?_)
  match a with
  | ⟨0, _⟩ => show win0_1.index t 0 * 2048 + 1 * n.val = n.val; rw [(index_wt t).1]; omega
  | ⟨1, _⟩ => show win0_1.index t 1 * 1024 + 1 * j.val = k.val; rw [(index_wt t).2, hk]; omega

/-- The bias, scale and shift windows are the whole vectors at every point. -/
theorem bias_block_eq (c : Dev nD) (t : Fin cfg0.N) : biasBlk V c t = biasArr V c := by
  funext y
  unfold biasBlk biasArr blk
  rw [View.read_apply]
  show V c main_arg2 _ = V c main_arg2 _
  refine congrArg _ (funext fun a => Fin.ext ?_)
  match a with
  | ⟨0, _⟩ => show win0_2.index t 0 * 2048 + 1 * (y 0).val = (y 0).val; rw [show win0_2.index t 0 = 0 from rfl]; omega
theorem scale_block_eq (c : Dev nD) (t : Fin cfg0.N) : scaleBlk V c t = scaleArr V c := by
  funext y
  unfold scaleBlk scaleArr blk
  rw [View.read_apply]
  show V c main_arg3 _ = V c main_arg3 _
  refine congrArg _ (funext fun a => Fin.ext ?_)
  match a with
  | ⟨0, _⟩ => show win0_3.index t 0 * 2048 + 1 * (y 0).val = (y 0).val; rw [show win0_3.index t 0 = 0 from rfl]; omega
theorem shift_block_eq (c : Dev nD) (t : Fin cfg0.N) : shiftBlk V c t = shiftArr V c := by
  funext y
  unfold shiftBlk shiftArr blk
  rw [View.read_apply]
  show V c main_arg4 _ = V c main_arg4 _
  refine congrArg _ (funext fun a => Fin.ext ?_)
  match a with
  | ⟨0, _⟩ => show win0_4.index t 0 * 2048 + 1 * (y 0).val = (y 0).val; rw [show win0_4.index t 0 = 0 from rfl]; omega

end Blocks

/-! ## The accumulator after each point, and after the last -/

section Accumulate

variable (V : (c : Dev nD) → (b : Ref sig .tc) → Buf (Elt Ideal) ((c : Thread nD τ).loc b))

/-- Sixteen blocks of 1024 columns are the 16384 columns. -/
theorem sixteen_blocks : 16 * 1024 = 16384 := by norm_num

/-- What column block `t` adds to entry `(p, q)`: row `p` of `X` against row `q` of `W` over the block's columns. -/
def blockTerm (X : Vec Ideal S1024x16384 .f32) (W : Vec Ideal S2048x16384 .f32) (p : Fin 1024) (q : Fin 2048) (t : Fin 16) : EReal :=
  ∑ k : Fin 1024, X (ix2 p (blockCol sixteen_blocks t k)) * W (ix2 q (blockCol sixteen_blocks t k))

/-- The product of the two staged blocks at point `t` is block `t`'s term of the arrays. -/
theorem staged_product (c : Dev nD) (t : Fin cfg0.N) (t' : Fin 16) (ht : t'.val = t.val) (p : Fin 1024) (q : Fin 2048) :
    ∑ k : Fin 1024, actBlk V c t (ix2 p k) * wtBlk V c t (ix2 q k)
      = blockTerm (actArr V c) (wtArr V c) p q t' := by
  unfold blockTerm
  refine Finset.sum_congr rfl fun k _ => ?_
  have hk : (blockCol sixteen_blocks t' k).val = 1024 * t.val + k.val := by rw [blockCol_val, ht]
  rw [act_block_apply V c t p k _ hk, wt_block_apply V c t q k _ hk]

/-- After the body at position `n` the accumulator's entry `(p, q)` is the sum of the terms of blocks `0 … n`. -/
theorem acc_apply (c : Dev nD) (p : Fin 1024) (q : Fin 2048) (n : ℕ) : ∀ h : n < cfg0.N,
    (acc V c n h : Vec Ideal S1024x2048 .f32) (ix2 p q)
      = ∑ t : Fin (n + 1), blockTerm (actArr V c) (wtArr V c) p q (Fin.castLE (Nat.succ_le_of_lt h) t) := by
  induction n with
  | zero =>
    intro h
    show k0_pay2 (F := Ideal) (blk V c 0 ⟨0, h⟩) (blk V c 1 ⟨0, h⟩) (k0_pay1 (F := Ideal)) (ix2 p q) = _
    refine (step_apply (blk V c 0 ⟨0, h⟩) (blk V c 1 ⟨0, h⟩) (k0_pay1 (F := Ideal)) p q).trans ?_
    rw [zeros_apply, zero_add, Fin.sum_univ_one]
    exact staged_product V c ⟨0, h⟩ _ rfl p q
  | succ n ih =>
    intro h
    show k0_pay2 (F := Ideal) (blk V c 0 ⟨n + 1, h⟩) (blk V c 1 ⟨n + 1, h⟩) (acc V c n (Nat.lt_of_succ_lt h)) (ix2 p q) = _
    refine (step_apply (blk V c 0 ⟨n + 1, h⟩) (blk V c 1 ⟨n + 1, h⟩) (acc V c n (Nat.lt_of_succ_lt h)) p q).trans ?_
    refine Eq.trans ?_ (sum_castLE_succ (blockTerm (actArr V c) (wtArr V c) p q) n h).symm
    exact congrArg₂ (· + ·) (ih (Nat.lt_of_succ_lt h)) (staged_product V c ⟨n + 1, h⟩ ⟨n + 1, h⟩ rfl p q)

/-- After the last point the accumulator's entry `(p, q)` is the whole product: row `p` of the flattened
    activations against row `q` of the weights over all 16384 columns, regrouped from the sixteen blocks. -/
theorem acc_last (c : Dev nD) (p : Fin 1024) (q : Fin 2048) :
    (acc V c tLast.val tLast.isLt : Vec Ideal S1024x2048 .f32) (ix2 p q)
      = ∑ k : Fin 16384, actArr V c (ix2 p k) * wtArr V c (ix2 q k) := by
  rw [acc_apply V c p q tLast.val tLast.isLt,
    sum_eq_sum_blocks sixteen_blocks (fun k => actArr V c (ix2 p k) * wtArr V c (ix2 q k))]
  rfl

end Accumulate

end Cert.Bridge.Enc

end
-- ==== Proof.EncValueRef.lean ====
/-
  The reference's encoder stage read at one entry. The reference flattens the activations, multiplies by
  the transposed weights in one contraction over 16384 columns, adds the bias, and normalises each column
  by its batch statistics over the 1024 rows before scale, shift and the positive part. Stage by stage its
  entry (p, q) is the same extended-real formula as the kernel's epilogue applied to its own product; the
  reference's sums start from its zero word, which is the extended real 0.
-/
import proofs.«108296_j46119358825052_1_alg».proof.Proof.RefRead
import proofs.«108296_j46119358825052_1_alg».proof.Proof.EncValueSpec

set_option maxRecDepth 16384

noncomputable section

open scoped BigOperators

namespace Cert.Bridge.Enc

open Cert.ReferenceIdeal Cert.ReferenceIdeal.ReadP
open Idealize.ShloMosaic Idealize.ShloMosaic.ValueIdx

/-- Two indices of a vector are equal when their coordinate is. -/
local macro "coords1" : tactic => `(tactic| exact funext fun a => Fin.ext (by match a with | ⟨0, _⟩ => rfl))
/-- Two indices of a matrix are equal when their two coordinates are. -/
local macro "coords2" : tactic => `(tactic| exact funext fun a => Fin.ext (by match a with | ⟨0, _⟩ => rfl | ⟨1, _⟩ => rfl))

/-- The reference's product at entry `(p, q)`: row `p` of the flattened activations against row `q` of the
    weights, over all 16384 columns (the reference transposes the weights and contracts the shared axis). -/
theorem ref_product_apply (x0 : (⟨S1024x64x16x16, .f32⟩ : BufTy).Contents (Elt Ideal))
    (x1 : (⟨S2048x16384, .f32⟩ : BufTy).Contents (Elt Ideal)) (p : Fin 1024) (q : Fin 2048) :
    val_main_v2 (F := Ideal) x0 x1 (ix2 p q)
      = ∑ k : Fin 16384, val_main_v0 (F := Ideal) x0 (ix2 p k) * x1 (ix2 q k) := by
  rw [val_main_v2_apply]
  refine Finset.sum_congr rfl fun k _ => ?_
  rw [val_main_v1_apply]
  have el : lidx_main_v2 (ix2 p q) k = ix2 p k := by coords2
  have er : idx_main_v1 (ridx_main_v2 (ix2 p q) k) = ix2 q k := by coords2
  rw [el, er]

/-- The reference's normalised, rectified entry `(p, q)`, over its own product stage. -/
theorem ref_norm_apply (x0 : (⟨S1024x64x16x16, .f32⟩ : BufTy).Contents (Elt Ideal))
    (x1 : (⟨S2048x16384, .f32⟩ : BufTy).Contents (Elt Ideal)) (x2 x3 x4 : (⟨S2048, .f32⟩ : BufTy).Contents (Elt Ideal))
    (p : Fin 1024) (q : Fin 2048) :
    val_main_v31 (F := Ideal) x0 x1 x2 x3 x4 (ix2 p q)
      = normRelu (fun r s => val_main_v2 (F := Ideal) x0 x1 (ix2 r s) + x2 (ix1 s)) (fun s => x3 (ix1 s)) (fun s => x4 (ix1 s)) p q := by
  have e4 : ∀ (r : Fin 1024) (s : Fin 2048), idx_main_v3 (idx_main_v4 (ix2 r s)) = ix1 s := fun r s => by coords1
  have e10 : ∀ (r : Fin 1024) (s : Fin 2048), idx_main_v9 (idx_main_v10 (ix2 r s)) = ix1 s := fun r s => by coords1
  have e17 : ∀ (r : Fin 1024) (s : Fin 2048), idx_main_v16 (idx_main_v17 (ix2 r s)) = ix1 s := fun r s => by coords1
  have e23 : ∀ (r : Fin 1024) (s : Fin 2048), idx_main_v22 (idx_main_v23 (ix2 r s)) = ix1 s := fun r s => by coords1
  have e26 : ∀ (r : Fin 1024) (s : Fin 2048), idx_main_v25 (idx_main_v26 (ix2 r s)) = ix1 s := fun r s => by coords1
  have e29 : ∀ (r : Fin 1024) (s : Fin 2048), idx_main_v28 (idx_main_v29 (ix2 r s)) = ix1 s := fun r s => by coords1
  have e6 : ∀ (s : Fin 2048) (r : Fin 1024), idx_main_v6 (ix1 s) r = ix2 r s := fun s r => by coords2
  have e13 : ∀ (s : Fin 2048) (r : Fin 1024), idx_main_v13 (ix1 s) r = ix2 r s := fun s r => by coords2
  unfold normRelu colVar colMean
  simp only [val_main_v31_apply, val_main_v30_apply, val_main_v29_apply, val_main_v28_apply, val_main_v27_apply,
    val_main_v26_apply, val_main_v25_apply, val_main_v24_apply, val_main_v23_apply, val_main_v22_apply,
    val_main_v21_apply, val_main_v20_apply, val_main_v19_apply, val_main_v18_apply, val_main_v17_apply,
    val_main_v16_apply, val_main_v15_apply, val_main_v14_apply, val_main_v13_apply, val_main_v12_apply,
    val_main_v11_apply, val_main_v10_apply, val_main_v9_apply, val_main_v8_apply, val_main_v7_apply,
    val_main_v6_apply, val_main_v5_apply, val_main_v4_apply, val_main_v3_apply,
    val_main_cst_apply, val_main_cst_0_apply, val_main_cst_1_apply, val_main_cst_2_apply, val_main_cst_3_apply,
    val_main_call0_v0_apply, val_main_call0_cst_apply,
    e4, e10, e17, e23, e26, e29, e6, e13,
    Ideal.ofBits_def, Ideal.ofBits_zero_f32, zero_add, Ideal.addf_def, Ideal.mulf_def, Ideal.subf_def,
    Ideal.hostDivf_def, Ideal.hostUnary_rsqrt_def, Ideal.maximumf_def]

end Cert.Bridge.Enc

end
-- ==== Proof.EncValue.lean ====
/-
  The value of the encoder region against the reference's stage. Both compute, at entry (p, q),
  the batch-normalised and rectified entry of y = x · Wᵀ + b: the kernel accumulates the product over
  sixteen column blocks and applies the epilogue at the last grid point; the reference takes the product in
  one contraction. The two products agree by regrouping a finite sum; the two epilogues are the same
  operations in the same order with the same literal words.
-/
import proofs.«108296_j46119358825052_1_alg».proof.Proof.EncValueNorm
import proofs.«108296_j46119358825052_1_alg».proof.Proof.EncValueProduct
import proofs.«108296_j46119358825052_1_alg».proof.Proof.EncValueRef

set_option maxRecDepth 16384

noncomputable section

open scoped BigOperators

namespace Cert.Bridge.Enc

open Idealize.ShloMosaic Idealize.ShloMosaic.TcCoe
open Idealize.SL Idealize.SL.Sem
open Idealize.ShloMosaic.ValueIdx
open Cert.KernelIdeal

/-- Entry `(p, q)` of the encoder region's result at the last grid point, over the arrays the region is entered
    with: the normalised, rectified entry of (activations · weightsᵀ + bias), the product taken over all 16384
    columns at once. -/
theorem enc_apply (V : (c : Dev nD) → (b : Ref sig .tc) → Buf (Elt Ideal) ((c : Thread nD τ).loc b)) (c : Dev nD)
    (p : Fin 1024) (q : Fin 2048) :
    Enc.outAt (F := Ideal) V c Enc.tLast (ix2 p q)
      = normRelu (fun r s => (∑ k : Fin 16384, actArr V c (ix2 r k) * wtArr V c (ix2 s k)) + biasArr V c (ix1 s))
          (fun s => scaleArr V c (ix1 s)) (fun s => shiftArr V c (ix1 s)) p q := by
  refine (epilogue_apply (Enc.acc V c Enc.tLast.val Enc.tLast.isLt) (biasBlk V c Enc.tLast) (scaleBlk V c Enc.tLast)
    (shiftBlk V c Enc.tLast) p q).trans ?_
  rw [bias_block_eq V c Enc.tLast, scale_block_eq V c Enc.tLast, shift_block_eq V c Enc.tLast]
  refine congrArg (fun y => normRelu y (fun s => scaleArr V c (ix1 s)) (fun s => shiftArr V c (ix1 s)) p q) ?_
  funext r s
  rw [acc_last V c r s]

/-- THE ENCODER'S VALUE. Entered from buffers whose flattened-activation array is the reference's reshape of
    `x0`, the encoder region's result at the last grid point is the reference's Linear -> BatchNorm -> ReLU
    stage of `x0` and the weight, bias, scale and shift arrays: the sixteen accumulated block products are the
    one product over all columns, and the epilogue is the reference's chain operation for operation. -/
theorem enc_eq (V : (c : Dev nD) → (b : Ref sig .tc) → Buf (Elt Ideal) ((c : Thread nD τ).loc b)) (c : Dev nD)
    (x0 : (⟨Cert.ReferenceIdeal.S1024x64x16x16, .f32⟩ : BufTy).Contents (Elt Ideal))
    (hx : V c main_v0 = Cert.ReferenceIdeal.ReadP.val_main_v0 x0) :
    Cert.KernelIdeal.Enc.outAt (F := Ideal) V c Cert.KernelIdeal.Enc.tLast
      = Cert.ReferenceIdeal.ReadP.val_main_v31 x0 (V c main_arg1) (V c main_arg2) (V c main_arg3) (V c main_arg4) := by
  funext i
  obtain ⟨p, q, rfl⟩ : ∃ (p : Fin 1024) (q : Fin 2048), i = ix2 p q := ⟨i 0, i 1, eq_ix2 i⟩
  refine (enc_apply V c p q).trans ?_
  refine Eq.trans ?_ (ref_norm_apply x0 (V c main_arg1) (V c main_arg2) (V c main_arg3) (V c main_arg4) p q).symm
  refine congrArg (fun y => normRelu y (fun s => scaleArr V c (ix1 s)) (fun s => shiftArr V c (ix1 s)) p q) ?_
  funext r s
  have hx' : actArr V c = Cert.ReferenceIdeal.ReadP.val_main_v0 x0 := hx
  rw [ref_product_apply x0 (V c main_arg1) r s, hx']

end Cert.Bridge.Enc

end
-- ==== Proof.DecValuePayload.lean ====
/-
  One entry of the block the decoder's body stores, over the extended reals.

  The body loads a block x of h2 ([1024, 2048]), a block w of 1024 rows of W4 ([1024, 2048]) and the matching block b
  of the bias ([1024]). It multiplies x by the transpose of w into a zero accumulator and adds b to every row. The
  changes of float format in between are the identity on extended reals, and the sum of a contraction over one axis is
  a sum over that axis' coordinate, so entry (p, q) of the stored block is

      Σ_k x[p, k] · w[q, k]  +  b[q].
-/
import proofs.«108296_j46119358825052_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge.Dec

open Cert.KernelIdeal Cert.KernelIdeal.Gen
open Idealize.ShloMosaic Idealize.ShloMosaic.ValueIdx

/-! ## The product's operand indices

The product contracts axis 1 of its left operand with axis 0 of its right operand; the left operand's axis 0 and the
right operand's axis 1 are the result's two axes. -/

/-- The left operand is read on the result's row … -/
theorem lhs_row (i : S1024x1024.Idx) (κ : dot_S1024x2048_S2048x1024_S1024x1024_1_0_0_1_n_n.contr.Idx) :
    (dot_S1024x2048_S2048x1024_S1024x1024_1_0_0_1_n_n.lhsIdx i κ 0).val = (i 0).val := by
  unfold DotDims.lhsIdx
  rw [dif_neg (show ¬(0 : Fin S1024x2048.rank) ∈ dot_S1024x2048_S2048x1024_S1024x1024_1_0_0_1_n_n.lhsBatch by decide),
    dif_pos (show (0 : Fin S1024x2048.rank) ∈ dot_S1024x2048_S2048x1024_S1024x1024_1_0_0_1_n_n.lhsNonContracting by decide)]
  rfl

/-- … at the contracted coordinate; -/
theorem lhs_contr (i : S1024x1024.Idx) (κ : dot_S1024x2048_S2048x1024_S1024x1024_1_0_0_1_n_n.contr.Idx) :
    (dot_S1024x2048_S2048x1024_S1024x1024_1_0_0_1_n_n.lhsIdx i κ 1).val = (κ ⟨0, by decide⟩).val :=
  dot_S1024x2048_S2048x1024_S1024x1024_1_0_0_1_n_n.lhsIdx_val_of_single rfl i κ

/-- the right operand at the contracted coordinate … -/
theorem rhs_contr (i : S1024x1024.Idx) (κ : dot_S1024x2048_S2048x1024_S1024x1024_1_0_0_1_n_n.contr.Idx) :
    (dot_S1024x2048_S2048x1024_S1024x1024_1_0_0_1_n_n.rhsIdx i κ 0).val = (κ ⟨0, by decide⟩).val :=
  dot_S1024x2048_S2048x1024_S1024x1024_1_0_0_1_n_n.rhsIdx_val_of_single rfl i κ

/-- … on the result's column. -/
theorem rhs_col (i : S1024x1024.Idx) (κ : dot_S1024x2048_S2048x1024_S1024x1024_1_0_0_1_n_n.contr.Idx) :
    (dot_S1024x2048_S2048x1024_S1024x1024_1_0_0_1_n_n.rhsIdx i κ 1).val = (i 1).val := by
  unfold DotDims.rhsIdx
  rw [dif_neg (show ¬(1 : Fin S2048x1024.rank) ∈ dot_S1024x2048_S2048x1024_S1024x1024_1_0_0_1_n_n.rhsBatch by decide),
    dif_pos (show (1 : Fin S2048x1024.rank) ∈ dot_S1024x2048_S2048x1024_S1024x1024_1_0_0_1_n_n.rhsNonContracting by decide)]
  rfl

/-- The product into a zero accumulator, at entry (p, q): the row p of the left operand against the column q of the
    right one, summed over the 2048 contracted coordinates. -/
theorem product_apply (l : FVec Ideal S1024x2048 .bf16) (r : FVec Ideal S2048x1024 .bf16) (p q : Fin 1024) :
    matmul dot_S1024x2048_S2048x1024_S1024x1024_1_0_0_1_n_n none l r (constant (F := Ideal) S1024x1024 .f32 0x00000000#32) (ix2 p q)
      = ∑ k : Fin 2048, l (ix2 p k) * r (ix2 k q) := by
  simp only [matmul]
  rw [Ideal.matmul_constant_zero_apply,
    ← Equiv.sum_comp (contrEquiv1 dot_S1024x2048_S2048x1024_S1024x1024_1_0_0_1_n_n 2048 rfl rfl).symm]
  refine Finset.sum_congr rfl fun k _ => ?_
  have hk := contrEquiv1_symm_val dot_S1024x2048_S2048x1024_S1024x1024_1_0_0_1_n_n 2048 rfl rfl k
  have el : dot_S1024x2048_S2048x1024_S1024x1024_1_0_0_1_n_n.lhsIdx (ix2 p q)
      ((contrEquiv1 dot_S1024x2048_S2048x1024_S1024x1024_1_0_0_1_n_n 2048 rfl rfl).symm k) = ix2 p k :=
    funext fun a => Fin.ext (by
      match a with
      | ⟨0, _⟩ => exact lhs_row _ _
      | ⟨1, _⟩ => exact (lhs_contr _ _).trans hk)
  have er : dot_S1024x2048_S2048x1024_S1024x1024_1_0_0_1_n_n.rhsIdx (ix2 p q)
      ((contrEquiv1 dot_S1024x2048_S2048x1024_S1024x1024_1_0_0_1_n_n 2048 rfl rfl).symm k) = ix2 k q :=
    funext fun a => Fin.ext (by
      match a with
      | ⟨0, _⟩ => exact (rhs_contr _ _).trans hk
      | ⟨1, _⟩ => exact rhs_col _ _)
  rw [el, er]

/-- THE STORED BLOCK AT (p, q): the row p of x against the row q of w, plus the bias at q. -/
theorem pay_apply (x w : Vec Ideal S1024x2048 .f32) (b : Vec Ideal S1024 .f32) (p q : Fin 1024) :
    k1_pay1 (F := Ideal) x w b (ix2 p q) = (∑ k : Fin 2048, x (ix2 p k) * w (ix2 q k)) + b (ix1 q) := by
  unfold k1_pay1
  dsimp only
  refine (addf_apply _ _ (ix2 p q)).trans ?_
  refine congrArg₂ (· + ·) ?_ ?_
  · refine (product_apply _ _ p q).trans ?_
    refine Finset.sum_congr rfl fun k _ => ?_
    refine congrArg₂ (· * ·) ?_ ?_
    · refine (truncf_apply (φ := .f32) (ψ := .bf16) (shapeCast S1024x2048 x shapeCasts_S1024x2048_S1024x2048) bitsLt_bf16_f32 (ix2 p k)).trans ?_
      exact congrFun (shapeCast_self x shapeCasts_S1024x2048_S1024x2048) (ix2 p k)
    · refine (transpose_ix2_apply _ _ k q).trans ?_
      exact truncf_apply (φ := .f32) (ψ := .bf16) w bitsLt_bf16_f32 (ix2 q k)
  · refine (broadcastTo_1b_ab_apply _ _ p q).trans ?_
    exact shapeCast_a_1a_apply b _ 0 q

end Cert.Bridge.Dec

end
-- ==== Proof.DecValueSpec.lean ====
/-
  The decoder's result as one function of its three arrays.

  With h : [1024, 2048], w : [16384, 2048] and b : [16384], entry (p, r) of  h · wᵀ + b  is

      Σ_k h[p, k] · w[r, k]  +  b[r]

  over the extended reals. Stated over the literal shapes, so that both programs' shape names unfold to it.
-/
import Idealize.ShloMosaic.PureOps.Ideal
import Idealize.ShloMosaic.Lib.ValueIdx

noncomputable section

open scoped BigOperators

namespace Cert.Bridge.Dec

open Idealize.ShloMosaic Idealize.ShloMosaic.ValueIdx

/-- Entry (p, r): row p of h against row r of w, plus the bias at r. -/
def decAt (h : Vec Ideal ⟨2, ![1024, 2048]⟩ .f32) (w : Vec Ideal ⟨2, ![16384, 2048]⟩ .f32) (b : Vec Ideal ⟨1, ![16384]⟩ .f32)
    (p : Fin 1024) (r : Fin 16384) : EReal :=
  (∑ k : Fin 2048, h (ix2 p k) * w (ix2 r k)) + b (ix1 r)

/-- The whole [1024, 16384] array. -/
def decSpec (h : Vec Ideal ⟨2, ![1024, 2048]⟩ .f32) (w : Vec Ideal ⟨2, ![16384, 2048]⟩ .f32) (b : Vec Ideal ⟨1, ![16384]⟩ .f32) :
    Vec Ideal ⟨2, ![1024, 16384]⟩ .f32 :=
  fun i => decAt h w b ⟨(i 0).val, idx2_lt0 i⟩ ⟨(i 1).val, idx2_lt1 i⟩

/-- The array at an index whose two coordinates are known. -/
theorem decSpec_at (h : Vec Ideal ⟨2, ![1024, 2048]⟩ .f32) (w : Vec Ideal ⟨2, ![16384, 2048]⟩ .f32) (b : Vec Ideal ⟨1, ![16384]⟩ .f32)
    (i : (⟨2, ![1024, 16384]⟩ : Shape).Idx) (p : Fin 1024) (r : Fin 16384) (h0 : (i 0).val = p.val) (h1 : (i 1).val = r.val) :
    decSpec h w b i = decAt h w b p r := by
  have e0 : (⟨(i 0).val, idx2_lt0 i⟩ : Fin 1024) = p := Fin.ext h0
  have e1 : (⟨(i 1).val, idx2_lt1 i⟩ : Fin 16384) = r := Fin.ext h1
  subst e0 e1
  rfl

end Cert.Bridge.Dec

end
-- ==== Proof.DecValueBlocks.lean ====
/-
  From the decoder's blocks to its result array.

  The grid has sixteen points. Point t reads all of h2, rows 1024·t … 1024·t + 1023 of W4 and the same stretch of b4,
  and writes back columns 1024·t … 1024·t + 1023 of the result. Entry (p, q) of what it writes back is the body's
  arithmetic on those blocks, which is the specification at (p, 1024·t + q). The sixteen column blocks tile the
  result — column r lies in the block of point r / 1024 — so the array ends holding the specification everywhere.
-/
import proofs.«108296_j46119358825052_1_alg».proof.Proof.Dec
import proofs.«108296_j46119358825052_1_alg».proof.Proof.DecValuePayload
import proofs.«108296_j46119358825052_1_alg».proof.Proof.DecValueSpec
import Idealize.ShloMosaic.Lib.Pipeline.Value

set_option maxRecDepth 16384

noncomputable section

open scoped BigOperators

namespace Cert.Bridge.Dec

open Cert.KernelIdeal Cert.KernelIdeal.Gen Cert.KernelIdeal.Dec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- h2 as the region finds it. -/
abbrev h2A (c : Dev nD) : Vec Ideal S1024x2048 .f32 := V c main_v66
/-- W4 as the region finds it. -/
abbrev w4A (c : Dev nD) : Vec Ideal S16384x2048 .f32 := V c main_arg12
/-- b4 as the region finds it. -/
abbrev b4A (c : Dev nD) : Vec Ideal S16384 .f32 := V c main_arg13

/-- The block indices at point t: h2's block is always the first; W4's and b4's move down with t; the result's moves
    right with t. -/
theorem block_index : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 1) = t.val
    ∧ win1_3.index t (0 : Fin 2) = 0 ∧ win1_3.index t (1 : Fin 2) = t.val :=
  (by decide +kernel : ∀ t : Fin grid1.N, _)

/-- A point's number is below sixteen. -/
theorem point_lt (t : Fin cfg1.N) : t.val < 16 := by
  have h := t.isLt
  have hN : cfg1.N = 16 := N_1
  omega

/-! ## The three input blocks, read at an entry -/

/-- h2's block at any point is h2. -/
theorem h2_blk (c : Dev nD) (t : Fin cfg1.N) (p : Fin 1024) (k : Fin 2048) :
    (blk V c 0 t : Vec Ideal S1024x2048 .f32) (ix2 p k) = h2A V c (ix2 p k) := by
  obtain ⟨e0, e1, -⟩ := block_index t
  unfold blk
  rw [View.read_apply]
  show V c main_v66 (((cfg1.win 0).blk t).view.emb (ix2 p k)) = V c main_v66 (ix2 p k)
  refine congrArg (V c main_v66) (funext fun a => Fin.ext ?_)
  match a with
  | ⟨0, _⟩ => show win1_0.index t (0 : Fin 2) * 1024 + 1 * p.val = p.val; rw [e0]; omega
  | ⟨1, _⟩ => show win1_0.index t (1 : Fin 2) * 2048 + 1 * k.val = k.val; rw [e1]; omega

/-- W4's block at point t is rows 1024·t … of W4. -/
theorem w4_blk (c : Dev nD) (t : Fin cfg1.N) (q : Fin 1024) (k : Fin 2048) (r : Fin 16384) (hr : r.val = 1024 * t.val + q.val) :
    (blk V c 1 t : Vec Ideal S1024x2048 .f32) (ix2 q k) = w4A V c (ix2 r k) := by
  obtain ⟨-, -, e0, e1, -⟩ := block_index t
  unfold blk
  rw [View.read_apply]
  show V c main_arg12 (((cfg1.win 1).blk t).view.emb (ix2 q k)) = V c main_arg12 (ix2 r k)
  refine congrArg (V c main_arg12) (funext fun a => Fin.ext ?_)
  match a with
  | ⟨0, _⟩ => show win1_1.index t (0 : Fin 2) * 1024 + 1 * q.val = r.val; rw [e0, hr]; omega
  | ⟨1, _⟩ => show win1_1.index t (1 : Fin 2) * 2048 + 1 * k.val = k.val; rw [e1]; omega

/-- b4's block at point t is entries 1024·t … of b4. -/
theorem b4_blk (c : Dev nD) (t : Fin cfg1.N) (q : Fin 1024) (r : Fin 16384) (hr : r.val = 1024 * t.val + q.val) :
    (blk V c 2 t : Vec Ideal S1024 .f32) (ix1 q) = b4A V c (ix1 r) := by
  obtain ⟨-, -, -, -, e0, -⟩ := block_index t
  unfold blk
  rw [View.read_apply]
  show V c main_arg13 (((cfg1.win 2).blk t).view.emb (ix1 q)) = V c main_arg13 (ix1 r)
  refine congrArg (V c main_arg13) (funext fun a => Fin.ext ?_)
  match a with
  | ⟨0, _⟩ => show win1_2.index t (0 : Fin 1) * 1024 + 1 * q.val = r.val; rw [e0, hr]; omega

/-! ## What a point writes back -/

/-- Entry (p, q) of the block point t stores is the specification at (p, 1024·t + q). -/
theorem out_apply (c : Dev nD) (t : Fin cfg1.N) (p q : Fin 1024) (r : Fin 16384) (hr : r.val = 1024 * t.val + q.val) :
    outAt V c t (ix2 p q) = decAt (h2A V c) (w4A V c) (b4A V c) p r := by
  unfold outAt
  refine (pay_apply (blk V c 0 t) (blk V c 1 t) (blk V c 2 t) p q).trans ?_
  unfold decAt
  refine congrArg₂ (· + ·) (Finset.sum_congr rfl fun k _ => congrArg₂ (· * ·) ?_ ?_) ?_
  · exact h2_blk V c t p k
  · exact w4_blk V c t q k r hr
  · exact b4_blk V c t q r hr

/-- WHAT POINT t WRITES BACK is its block of the specification of the arrays the region found. -/
theorem flushed_eq (c : Dev nD) (t : Fin cfg1.N) :
    (dat (F := Ideal) V c).flushed 3 t
      = ((cfg1.win 3).blk t).view.read (Elt Ideal) (decSpec (h2A V c) (w4A V c) (b4A V c)) := by
  show (cfg1.win 3).cut (grid1.coords t) ((dat V c).after 3 t) = _
  rw [after_out]
  obtain ⟨-, -, -, -, -, e0, e1⟩ := block_index t
  have ht := point_lt t
  funext j
  have hj0 : (j 0).val < 1024 := Nat.lt_of_lt_of_le (j 0).isLt ((cfg1.win 3).xsize_le (grid1.coords t) 0)
  have hj1 : (j 1).val < 1024 := Nat.lt_of_lt_of_le (j 1).isLt ((cfg1.win 3).xsize_le (grid1.coords t) 1)
  have ej : (cfg1.win 3).xinj (grid1.coords t) j = ix2 (⟨(j 0).val, hj0⟩ : Fin 1024) (⟨(j 1).val, hj1⟩ : Fin 1024) :=
    funext fun a => match a with | ⟨0, _⟩ => rfl | ⟨1, _⟩ => rfl
  show outAt V c t ((cfg1.win 3).xinj (grid1.coords t) j)
    = decSpec (h2A V c) (w4A V c) (b4A V c) (((cfg1.win 3).blk t).view.emb j)
  rw [ej, out_apply V c t ⟨(j 0).val, hj0⟩ ⟨(j 1).val, hj1⟩ ⟨1024 * t.val + (j 1).val, by omega⟩ rfl]
  refine (decSpec_at _ _ _ _ ⟨(j 0).val, hj0⟩ ⟨1024 * t.val + (j 1).val, by omega⟩ ?_ ?_).symm
  · show win1_3.index t (0 : Fin 2) * 1024 + 1 * (j 0).val = (j 0).val; rw [e0]; omega
  · show win1_3.index t (1 : Fin 2) * 1024 + 1 * (j 1).val = 1024 * t.val + (j 1).val; rw [e1]; omega

/-! ## The blocks tile the result -/

/-- An index of the result is in point t's block iff each coordinate is in the block's range on its axis. -/
theorem mem_out_blk (t : Fin cfg1.N) (i : S1024x16384.Idx) :
    i ∈ ((cfg1.win 3).blk t).view.set
      ↔ ∀ a : Fin 2, win1_3.index t a * S1024x1024.size a ≤ (i a).val ∧ (i a).val < win1_3.index t a * S1024x1024.size a + S1024x1024.size a := by
  show i ∈ ((View.whole main_v67).slice (win1_3.rect t)).set ↔ _
  rw [View.set_slice_whole, Rect.mem_set_unit]
  exact Iff.rfl

/-- Column r of the result is written back by point r / 1024. -/
theorem covered (i : S1024x16384.Idx) :
    ∃ t : Fin cfg1.N, (cfg1.win 3).flush t = true ∧ i ∈ ((cfg1.win 3).blk t).view.set := by
  have hi0 : (i 0).val < 1024 := idx2_lt0 i
  have hi1 : (i 1).val < 16384 := idx2_lt1 i
  have hN : cfg1.N = 16 := N_1
  refine ⟨⟨(i 1).val / 1024, by omega⟩, flush1_3 _, ?_⟩
  obtain ⟨-, -, -, -, -, e0, e1⟩ := block_index ⟨(i 1).val / 1024, by omega⟩
  rw [mem_out_blk]
  intro a
  match a with
  | ⟨0, _⟩ =>
    show win1_3.index ⟨(i 1).val / 1024, _⟩ (0 : Fin 2) * 1024 ≤ (i 0).val ∧ (i 0).val < win1_3.index ⟨(i 1).val / 1024, _⟩ (0 : Fin 2) * 1024 + 1024
    rw [e0]; omega
  | ⟨1, _⟩ =>
    show win1_3.index ⟨(i 1).val / 1024, _⟩ (1 : Fin 2) * 1024 ≤ (i 1).val ∧ (i 1).val < win1_3.index ⟨(i 1).val / 1024, _⟩ (1 : Fin 2) * 1024 + 1024
    rw [e1]; show (i 1).val / 1024 * 1024 ≤ (i 1).val ∧ (i 1).val < (i 1).val / 1024 * 1024 + 1024; omega

/-- THE RESULT ARRAY after the sixteen write-backs is the specification of h2, W4 and b4 as the region found them. -/
theorem result_eq (c : Dev nD) :
    (dat (F := Ideal) V c).arrAt 3 cfg1.N = decSpec (h2A V c) (w4A V c) (b4A V c) :=
  (dat (F := Ideal) V c).arrAt_eq_of_cover 3 (decSpec (h2A V c) (w4A V c) (b4A V c))
    (fun t _ => flushed_eq V c t) (covered)

end Cert.Bridge.Dec

end
-- ==== Proof.DecValueRef.lean ====
/-
  The reference's decoder stage is the specification.

  The reference transposes W4, contracts h2's axis 1 with the transposed array's axis 0, and adds b4 broadcast first
  to one row and then to every row. Read at an index (i, r): the transposed array at (k, r) is W4 at (r, k), and either
  broadcast of the bias reads b4 at r; so the stage is  Σ_k h2[i, k] · W4[r, k] + b4[r].
-/
import proofs.«108296_j46119358825052_1_alg».proof.Proof.RefRead
import proofs.«108296_j46119358825052_1_alg».proof.Proof.DecValueSpec

noncomputable section

open scoped BigOperators

namespace Cert.Bridge.Dec

open Idealize.ShloMosaic Idealize.ShloMosaic.ValueIdx
open Cert.ReferenceIdeal Cert.ReferenceIdeal.ReadP

/-- The reference's last stage before its closing reshape, h2 · W4ᵀ + b4, is the specification applied to the
    reference's own h2 stage: the transposed operand read back at (r, k), the two broadcasts of the bias at r. -/
theorem ref_is_spec (x0 : (⟨S1024x64x16x16, .f32⟩ : BufTy).Contents (Elt Ideal)) (x1 : (⟨S2048x16384, .f32⟩ : BufTy).Contents (Elt Ideal)) (x2 x3 x4 : (⟨S2048, .f32⟩ : BufTy).Contents (Elt Ideal)) (x5 : (⟨S16x2048, .f32⟩ : BufTy).Contents (Elt Ideal)) (x6 : (⟨S16, .f32⟩ : BufTy).Contents (Elt Ideal)) (x7 : (⟨S25x16, .f32⟩ : BufTy).Contents (Elt Ideal)) (x8 : (⟨S2048x16, .f32⟩ : BufTy).Contents (Elt Ideal)) (x9 x10 x11 : (⟨S2048, .f32⟩ : BufTy).Contents (Elt Ideal))
    (x12 : (⟨S16384x2048, .f32⟩ : BufTy).Contents (Elt Ideal)) (x13 : (⟨S16384, .f32⟩ : BufTy).Contents (Elt Ideal)) :
    val_main_v101 (F := Ideal) x0 x1 x2 x3 x4 x5 x6 x7 x8 x9 x10 x11 x12 x13
      = decSpec (val_main_v96 (F := Ideal) x0 x1 x2 x3 x4 x5 x6 x7 x8 x9 x10 x11) x12 x13 := by
  funext i
  rw [val_main_v101_apply, val_main_v98_apply, val_main_v100_apply, val_main_v99_apply]
  generalize val_main_v96 (F := Ideal) x0 x1 x2 x3 x4 x5 x6 x7 x8 x9 x10 x11 = H
  simp only [val_main_v97_apply]
  refine Eq.trans ?_ (decSpec_at H x12 x13 i ⟨(i 0).val, idx2_lt0 i⟩ ⟨(i 1).val, idx2_lt1 i⟩ rfl rfl).symm
  show (∑ k : Fin 2048, H (lidx_main_v98 i k) * x12 (idx_main_v97 (ridx_main_v98 i k))) + x13 (idx_main_v99 (idx_main_v100 i)) = _
  unfold decAt
  have e1 : ∀ k : Fin 2048, lidx_main_v98 i k = ix2 ⟨(i 0).val, idx2_lt0 i⟩ k := fun k =>
    funext fun a => Fin.ext (by match a with | ⟨0, _⟩ => rfl | ⟨1, _⟩ => rfl)
  have e2 : ∀ k : Fin 2048, idx_main_v97 (ridx_main_v98 i k) = ix2 ⟨(i 1).val, idx2_lt1 i⟩ k := fun k =>
    funext fun a => Fin.ext (by match a with | ⟨0, _⟩ => rfl | ⟨1, _⟩ => rfl)
  have e3 : idx_main_v99 (idx_main_v100 i) = ix1 ⟨(i 1).val, idx2_lt1 i⟩ :=
    funext fun a => Fin.ext (by match a with | ⟨0, _⟩ => rfl)
  simp only [e1, e2, e3]

end Cert.Bridge.Dec

end
-- ==== Proof.DecValue.lean ====
/-
  The decoder region against the reference.

  The kernel's second region computes  h2 · W4ᵀ + b4  in sixteen column blocks; the reference computes it in one
  contraction. Both are the same function of (h2, W4, b4), entry by entry:  Σ_k h2[i, k] · W4[r, k] + b4[r].  Only
  the order in which the result's entries are produced differs, and no entry's sum is regrouped, so nothing about
  finiteness is needed.
-/
import proofs.«108296_j46119358825052_1_alg».proof.Proof.DecValueBlocks
import proofs.«108296_j46119358825052_1_alg».proof.Proof.DecValueRef

set_option maxRecDepth 16384

noncomputable section

namespace Cert.Bridge.Dec

open Idealize.ShloMosaic Idealize.ShloMosaic.TcCoe Idealize.SL.Sem

open Cert.KernelIdeal in
/-- THE DECODER REGION'S VALUE. If the region finds h2 at the reference's h2 stage, then after the region the result
    array holds the reference's  h2 · W4ᵀ + b4  stage of the same arguments, with W4 and b4 as the region found them:
    both are the specification of (h2, W4, b4). -/
theorem dec_eq (V : (c : Dev nD) → (b : Ref sig .tc) → Buf (Elt Ideal) ((c : Thread nD τ).loc b)) (c : Dev nD)
    (x0 : (⟨Cert.ReferenceIdeal.S1024x64x16x16, .f32⟩ : BufTy).Contents (Elt Ideal)) (x1 : (⟨Cert.ReferenceIdeal.S2048x16384, .f32⟩ : BufTy).Contents (Elt Ideal))
    (x2 x3 x4 : (⟨Cert.ReferenceIdeal.S2048, .f32⟩ : BufTy).Contents (Elt Ideal)) (x5 : (⟨Cert.ReferenceIdeal.S16x2048, .f32⟩ : BufTy).Contents (Elt Ideal))
    (x6 : (⟨Cert.ReferenceIdeal.S16, .f32⟩ : BufTy).Contents (Elt Ideal)) (x7 : (⟨Cert.ReferenceIdeal.S25x16, .f32⟩ : BufTy).Contents (Elt Ideal))
    (x8 : (⟨Cert.ReferenceIdeal.S2048x16, .f32⟩ : BufTy).Contents (Elt Ideal)) (x9 x10 x11 : (⟨Cert.ReferenceIdeal.S2048, .f32⟩ : BufTy).Contents (Elt Ideal))
    (hh : V c main_v66 = Cert.ReferenceIdeal.ReadP.val_main_v96 (F := Ideal) x0 x1 x2 x3 x4 x5 x6 x7 x8 x9 x10 x11) :
    (Cert.KernelIdeal.Dec.dat (F := Ideal) V c).arrAt 3 cfg1.N
      = Cert.ReferenceIdeal.ReadP.val_main_v101 (F := Ideal) x0 x1 x2 x3 x4 x5 x6 x7 x8 x9 x10 x11 (V c main_arg12) (V c main_arg13) := by
  rw [ref_is_spec, ← hh]
  exact result_eq V c

end Cert.Bridge.Dec

end
-- ==== Proof.Final.lean ====
/-
  The value of the whole program at the ideal instance: each of the four results the kernel's program leaves is
  the reference's stage function of the argument arrays. The encoder region's result array is the reference's
  hidden layer (a sum over 16384 terms regrouped into 16 blocks of 1024; the same batch normalisation and positive
  part); the latent-space host chain is one and the same function on both sides and is carried unopened; the decoder
  region's result array is the reference's last linear layer, one block of 1024 columns per grid point.
-/
import proofs.«108296_j46119358825052_1_alg».proof.Proof.Whole
import proofs.«108296_j46119358825052_1_alg».proof.Proof.KGlue
import proofs.«108296_j46119358825052_1_alg».proof.Proof.RGlue
import proofs.«108296_j46119358825052_1_alg».proof.Proof.EncValue
import proofs.«108296_j46119358825052_1_alg».proof.Proof.DecValue

noncomputable section

namespace Cert.Final

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The encoder region's result array is the reference's hidden layer of the launch arrays. -/
theorem enc_val : Whole.outs m 2 main_v1 c = Cert.ReferenceIdeal.ReadP.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have hx : Whole.encIn m c main_v0 = Cert.ReferenceIdeal.ReadP.val_main_v0 (F := Ideal) (m ((c.tc : Thread nD τ).loc main_arg0)) :=
    (Cert.KernelIdeal.Glue.k_xf m c).trans (Cert.ReferenceIdeal.Glue.r_xf _).symm
  have h := Cert.Bridge.Enc.enc_eq (Whole.encIn m) c _ hx
  rw [show Whole.encIn m c main_arg1 = m ((c.tc : Thread nD τ).loc main_arg1) from Cert.KernelIdeal.Glue.k_arg1 m c,
    show Whole.encIn m c main_arg2 = m ((c.tc : Thread nD τ).loc main_arg2) from Cert.KernelIdeal.Glue.k_arg2 m c,
    show Whole.encIn m c main_arg3 = m ((c.tc : Thread nD τ).loc main_arg3) from Cert.KernelIdeal.Glue.k_arg3 m c,
    show Whole.encIn m c main_arg4 = m ((c.tc : Thread nD τ).loc main_arg4) from Cert.KernelIdeal.Glue.k_arg4 m c] at h
  exact ((Whole.outs_enc m c).trans (Enc.final (Whole.encIn m) c)).trans h

/-- The latent code the kernel's program returns is the reference's. -/
theorem z_val : Gen.V8 m (Whole.outs m) c main_v6 = Cert.ReferenceIdeal.ReadP.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [Cert.KernelIdeal.Glue.k_z m (Whole.outs m) c, enc_val m c]
  exact (Cert.ReferenceIdeal.Glue.r_z _ _ _ _ _ _ _).symm

/-- The renormalised attention weights the kernel's program returns are the reference's. -/
theorem att_val : Gen.V8 m (Whole.outs m) c main_v34 = Cert.ReferenceIdeal.ReadP.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [Cert.KernelIdeal.Glue.k_att m (Whole.outs m) c, enc_val m c]
  exact (Cert.ReferenceIdeal.Glue.r_att _ _ _ _ _ _ _ _).symm

/-- The memory read-out the kernel's program returns is the reference's. -/
theorem zhat_val : Gen.V8 m (Whole.outs m) c main_v35 = Cert.ReferenceIdeal.ReadP.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [Cert.KernelIdeal.Glue.k_zhat m (Whole.outs m) c, enc_val m c]
  exact (Cert.ReferenceIdeal.Glue.r_zhat _ _ _ _ _ _ _ _).symm

/-- The decoder region is entered with the reference's second hidden layer in its first operand. -/
theorem h2_val : Whole.decIn m c main_v66 = Cert.ReferenceIdeal.ReadP.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have e : Whole.decIn m c main_v66 = Gen.V6 m (Whole.outs m) c main_v66 :=
    (congrFun (Whole.V6_outs m c) (Proc.devRef .tc main_v66)).symm
  rw [e, Cert.KernelIdeal.Glue.k_h2 m (Whole.outs m) c, enc_val m c]
  exact (Cert.ReferenceIdeal.Glue.r_h2 _ _ _ _ _ _ _ _ _ _ _ _).symm

/-- The reconstruction the kernel's program returns is the reference's. -/
theorem out_val : Gen.V8 m (Whole.outs m) c main_v68 = Cert.ReferenceIdeal.ReadP.val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  have h := Cert.Bridge.Dec.dec_eq (Whole.decIn m) c _ _ _ _ _ _ _ _ _ _ _ _ (h2_val m c)
  rw [show Whole.decIn m c main_arg12 = m ((c.tc : Thread nD τ).loc main_arg12) from Cert.KernelIdeal.Glue.k_arg12 m (Whole.outsEnc m) c,
    show Whole.decIn m c main_arg13 = m ((c.tc : Thread nD τ).loc main_arg13) from Cert.KernelIdeal.Glue.k_arg13 m (Whole.outsEnc m) c] at h
  rw [Cert.KernelIdeal.Glue.k_out m (Whole.outs m) c, Whole.outs_dec m c, h]
  exact (Cert.ReferenceIdeal.Glue.r_out _ _ _ _ _ _ _ _ _ _ _ _ _ _).symm

/-- An unscoped reference of the TensorCore is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE KERNEL'S RUN AT THE IDEAL INSTANCE: every weakly fair execution terminates, the four results at the reference's
    stage functions of the launch arrays, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v68) = Cert.ReferenceIdeal.ReadP.val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v34) = Cert.ReferenceIdeal.ReadP.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v6) = Cert.ReferenceIdeal.ReadP.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v35) = Cert.ReferenceIdeal.ReadP.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_v68 (by decide))).trans (out_val m c),
    (h c _ (mem_uc main_v34 (by decide))).trans (att_val m c),
    (h c _ (mem_uc main_v6 (by decide))).trans (z_val m c),
    (h c _ (mem_uc main_v35 (by decide))).trans (zhat_val m c),
    (h c _ (mem_uc main_arg0 (by decide))).trans (Gen.V8_main_arg0 m (Whole.outs m) c),
    (h c _ (mem_uc main_arg1 (by decide))).trans (Gen.V8_main_arg1 m (Whole.outs m) c),
    (h c _ (mem_uc main_arg2 (by decide))).trans (Gen.V8_main_arg2 m (Whole.outs m) c),
    (h c _ (mem_uc main_arg3 (by decide))).trans (Gen.V8_main_arg3 m (Whole.outs m) c),
    (h c _ (mem_uc main_arg4 (by decide))).trans (Gen.V8_main_arg4 m (Whole.outs m) c),
    (h c _ (mem_uc main_arg5 (by decide))).trans (Gen.V8_main_arg5 m (Whole.outs m) c),
    (h c _ (mem_uc main_arg6 (by decide))).trans (Gen.V8_main_arg6 m (Whole.outs m) c),
    (h c _ (mem_uc main_arg7 (by decide))).trans (Gen.V8_main_arg7 m (Whole.outs m) c),
    (h c _ (mem_uc main_arg8 (by decide))).trans (Gen.V8_main_arg8 m (Whole.outs m) c),
    (h c _ (mem_uc main_arg9 (by decide))).trans (Gen.V8_main_arg9 m (Whole.outs m) c),
    (h c _ (mem_uc main_arg10 (by decide))).trans (Gen.V8_main_arg10 m (Whole.outs m) c),
    (h c _ (mem_uc main_arg11 (by decide))).trans (Gen.V8_main_arg11 m (Whole.outs m) c),
    (h c _ (mem_uc main_arg12 (by decide))).trans (Gen.V8_main_arg12 m (Whole.outs m) c),
    (h c _ (mem_uc main_arg13 (by decide))).trans (Gen.V8_main_arg13 m (Whole.outs m) c)⟩) (Whole.run_all m ρ)

end Cert.Final

end
-- ==== Proof.RefStaged.lean ====
/-
  The reference program's run, read off stage by stage. The program is one straight line of 126 host
  operations; its final memory is the fold of their results over the launch contents. That fold is never
  evaluated whole: the line is cut at eleven places where few values are still to be read, and after each
  cut the few live buffers are shown to hold the corresponding stage of the reference's own staged
  definitions (each stage a function of the arguments, defined from earlier stages). A stretch is evaluated
  over the facts of the cut before it, so no term ever holds more than one stretch's operations.
  The stretches: operations 0-5 (the linear layer), 6-19 (column mean and variance), 20-38 (normalisation,
  scale, shift, positive part), 39-43 (encoder head), 44-59 (attention logits and softmax), 60-71 (hard
  shrinkage), 72-81 (renormalisation and read-out), 82-86 (decoder head), 87-100 (column mean and variance),
  101-119 (normalisation and positive part), 120-125 (output layer and the change of shape).
-/
import proofs.«108296_j46119358825052_1_alg».proof.Proof.RefOps
import proofs.«108296_j46119358825052_1_alg».proof.Proof.RefRead
import Idealize.ShloMosaic.Lib.Pipeline.Frame

set_option maxRecDepth 16384

noncomputable section

namespace Cert.ReferenceIdeal.Staged

open Cert.ReferenceIdeal Cert.ReferenceIdeal.Gen
open Idealize.ShloMosaic Idealize.ShloMosaic.TcCoe Idealize.SL.Sem Idealize.ShloMosaic.StableHlo
open Cert.ReferenceIdeal.ValueP (ops main_eq scopedRefs_eq scopedSems_eq ops_sub)

variable {F : FTy → Type} [FloatOps F]

/-! ## The valuation after a prefix of the line -/

section Chain

variable (V0 : Valuation τ sig (Elt F))

/-- What the buffers hold after the first `b` operations, from contents `V0`. -/
def W (b : ℕ) : Valuation τ sig (Elt F) := after ((ops (F := F)).take b) V0

/-- The next `n` operations take the valuation at `a` to the valuation at `a + n`. -/
theorem W_cut (a n b : ℕ) (h : b = a + n) : W V0 b = after (((ops (F := F)).drop a).take n) (W V0 a) := by
  subst h
  unfold W
  rw [List.take_add, StableHlo.after_append]

/-- The whole line is the operations from `a` on, run from the valuation at `a`. -/
theorem after_ops (a : ℕ) : after (ops (F := F)) V0 = after ((ops (F := F)).drop a) (W V0 a) := by
  unfold W
  rw [← StableHlo.after_append, List.take_append_drop]

/-- The valuation after all 126 operations is the line's. -/
theorem W_all : W V0 126 = after (ops (F := F)) V0 := by
  unfold W
  rw [List.take_of_length_le (show (ops (F := F)).length ≤ 126 from Nat.le_of_eq rfl)]

/-- Spells a stretch of the line out as a literal list, then evaluates it at the reference in the goal. -/
local macro "eval_stretch" : tactic =>
  `(tactic| (simp only [ops, List.drop_succ_cons, List.drop_zero, List.take_succ_cons, List.take_zero]; after_results_simp))

-- the arguments' contents
set_option quotPrecheck false
local notation "A0" => V0 (Proc.devRef .tc main_arg0)
local notation "A1" => V0 (Proc.devRef .tc main_arg1)
local notation "A2" => V0 (Proc.devRef .tc main_arg2)
local notation "A3" => V0 (Proc.devRef .tc main_arg3)
local notation "A4" => V0 (Proc.devRef .tc main_arg4)
local notation "A5" => V0 (Proc.devRef .tc main_arg5)
local notation "A6" => V0 (Proc.devRef .tc main_arg6)
local notation "A7" => V0 (Proc.devRef .tc main_arg7)
local notation "A8" => V0 (Proc.devRef .tc main_arg8)
local notation "A9" => V0 (Proc.devRef .tc main_arg9)
local notation "A10" => V0 (Proc.devRef .tc main_arg10)
local notation "A11" => V0 (Proc.devRef .tc main_arg11)
local notation "A12" => V0 (Proc.devRef .tc main_arg12)
local notation "A13" => V0 (Proc.devRef .tc main_arg13)

/-! ## No operation writes an argument: the arguments where a stretch reads them -/

theorem a20_3 : W V0 20 main_arg3 = A3 := by unfold W; eval_stretch
theorem a20_4 : W V0 20 main_arg4 = A4 := by unfold W; eval_stretch
theorem a39_5 : W V0 39 main_arg5 = A5 := by unfold W; eval_stretch
theorem a39_6 : W V0 39 main_arg6 = A6 := by unfold W; eval_stretch
theorem a44_7 : W V0 44 main_arg7 = A7 := by unfold W; eval_stretch
theorem a72_7 : W V0 72 main_arg7 = A7 := by unfold W; eval_stretch
theorem a82_8 : W V0 82 main_arg8 = A8 := by unfold W; eval_stretch
theorem a82_9 : W V0 82 main_arg9 = A9 := by unfold W; eval_stretch
theorem a101_10 : W V0 101 main_arg10 = A10 := by unfold W; eval_stretch
theorem a101_11 : W V0 101 main_arg11 = A11 := by unfold W; eval_stretch
theorem a120_12 : W V0 120 main_arg12 = A12 := by unfold W; eval_stretch
theorem a120_13 : W V0 120 main_arg13 = A13 := by unfold W; eval_stretch

/-! ## The stretches -/

/-- Operations 0-5: the first linear layer's output, bias added. -/
theorem f6_v5 : W V0 6 main_v5 = ReadP.val_main_v5 A0 A1 A2 := by
  unfold W
  eval_stretch
  rfl

/-- Operations 6-19 do not write it. -/
theorem f20_v5 : W V0 20 main_v5 = ReadP.val_main_v5 A0 A1 A2 := by
  rw [W_cut V0 6 14 20 rfl]
  eval_stretch
  exact f6_v5 V0

/-- Operations 6-10: the columns' means. -/
theorem f20_v8 : W V0 20 main_v8 = ReadP.val_main_v8 A0 A1 A2 := by
  rw [W_cut V0 6 14 20 rfl]
  eval_stretch
  rw [f6_v5]
  rfl

/-- Operations 11-19: the columns' variances. -/
theorem f20_v15 : W V0 20 main_v15 = ReadP.val_main_v15 A0 A1 A2 := by
  rw [W_cut V0 6 14 20 rfl]
  eval_stretch
  rw [f6_v5]
  rfl

/-- Operations 20-38: normalised, scaled, shifted, and the positive part taken: the encoder's result. -/
theorem f39_v31 : W V0 39 main_v31 = ReadP.val_main_v31 A0 A1 A2 A3 A4 := by
  rw [W_cut V0 20 19 39 rfl]
  eval_stretch
  rw [f20_v5, f20_v8, f20_v15, a20_3, a20_4]
  rfl

/-- Operations 39-43: the encoder head. -/
theorem f44_v36 : W V0 44 main_v36 = ReadP.val_main_v36 A0 A1 A2 A3 A4 A5 A6 := by
  rw [W_cut V0 39 5 44 rfl]
  eval_stretch
  rw [f39_v31, a39_5, a39_6]
  rfl

/-- Operations 44-59: the softmax of the attention logits. -/
theorem f60_v49 : W V0 60 main_v49 = ReadP.val_main_v49 A0 A1 A2 A3 A4 A5 A6 A7 := by
  rw [W_cut V0 44 16 60 rfl]
  eval_stretch
  rw [f44_v36, a44_7]
  rfl

/-- Operations 60-71: the hard shrinkage. -/
theorem f72_v57 : W V0 72 main_v57 = ReadP.val_main_v57 A0 A1 A2 A3 A4 A5 A6 A7 := by
  rw [W_cut V0 60 12 72 rfl]
  eval_stretch
  rw [f60_v49]
  rfl

/-- Operations 72-80: the renormalised weights. -/
theorem f82_v64 : W V0 82 main_v64 = ReadP.val_main_v64 A0 A1 A2 A3 A4 A5 A6 A7 := by
  rw [W_cut V0 72 10 82 rfl]
  eval_stretch
  rw [f72_v57]
  rfl

/-- Operation 81: the read-out. -/
theorem f82_v65 : W V0 82 main_v65 = ReadP.val_main_v65 A0 A1 A2 A3 A4 A5 A6 A7 := by
  rw [W_cut V0 72 10 82 rfl]
  eval_stretch
  rw [f72_v57, a72_7]
  rfl

/-- Operations 82-86: the decoder head. -/
theorem f87_v70 : W V0 87 main_v70 = ReadP.val_main_v70 A0 A1 A2 A3 A4 A5 A6 A7 A8 A9 := by
  rw [W_cut V0 82 5 87 rfl]
  eval_stretch
  rw [f82_v65, a82_8, a82_9]
  rfl

/-- Operations 87-100 do not write it. -/
theorem f101_v70 : W V0 101 main_v70 = ReadP.val_main_v70 A0 A1 A2 A3 A4 A5 A6 A7 A8 A9 := by
  rw [W_cut V0 87 14 101 rfl]
  eval_stretch
  exact f87_v70 V0

/-- Operations 87-91: the columns' means. -/
theorem f101_v73 : W V0 101 main_v73 = ReadP.val_main_v73 A0 A1 A2 A3 A4 A5 A6 A7 A8 A9 := by
  rw [W_cut V0 87 14 101 rfl]
  eval_stretch
  rw [f87_v70]
  rfl

/-- Operations 92-100: the columns' variances. -/
theorem f101_v80 : W V0 101 main_v80 = ReadP.val_main_v80 A0 A1 A2 A3 A4 A5 A6 A7 A8 A9 := by
  rw [W_cut V0 87 14 101 rfl]
  eval_stretch
  rw [f87_v70]
  rfl

/-- Operations 101-119: normalised, scaled, shifted, and the positive part taken. -/
theorem f120_v96 : W V0 120 main_v96 = ReadP.val_main_v96 A0 A1 A2 A3 A4 A5 A6 A7 A8 A9 A10 A11 := by
  rw [W_cut V0 101 19 120 rfl]
  eval_stretch
  rw [f101_v70, f101_v73, f101_v80, a101_10, a101_11]
  rfl

/-- Operations 120-125: the output layer, back at the images' shape. -/
theorem f126_v102 : W V0 126 main_v102 = ReadP.val_main_v102 A0 A1 A2 A3 A4 A5 A6 A7 A8 A9 A10 A11 A12 A13 := by
  rw [W_cut V0 120 6 126 rfl]
  eval_stretch
  rw [f120_v96, a120_12, a120_13]
  rfl

/-! ## What the whole line leaves -/

theorem out102 : after (ops (F := F)) V0 main_v102 = ReadP.val_main_v102 A0 A1 A2 A3 A4 A5 A6 A7 A8 A9 A10 A11 A12 A13 := by
  rw [← W_all]
  exact f126_v102 V0

/-- Operations 82-125 do not write the attention weights, -/
theorem out64 : after (ops (F := F)) V0 main_v64 = ReadP.val_main_v64 A0 A1 A2 A3 A4 A5 A6 A7 := by
  rw [after_ops V0 82]
  eval_stretch
  exact f82_v64 V0

/-- nor the read-out; -/
theorem out65 : after (ops (F := F)) V0 main_v65 = ReadP.val_main_v65 A0 A1 A2 A3 A4 A5 A6 A7 := by
  rw [after_ops V0 82]
  eval_stretch
  exact f82_v65 V0

/-- operations 44-125 do not write the encoder head. -/
theorem out36 : after (ops (F := F)) V0 main_v36 = ReadP.val_main_v36 A0 A1 A2 A3 A4 A5 A6 := by
  rw [after_ops V0 44]
  eval_stretch
  exact f44_v36 V0

/-- No operation of the line writes an argument. -/
theorem outArg0 : after (ops (F := F)) V0 main_arg0 = A0 := by after_results_simp
theorem outArg1 : after (ops (F := F)) V0 main_arg1 = A1 := by after_results_simp
theorem outArg2 : after (ops (F := F)) V0 main_arg2 = A2 := by after_results_simp
theorem outArg3 : after (ops (F := F)) V0 main_arg3 = A3 := by after_results_simp
theorem outArg4 : after (ops (F := F)) V0 main_arg4 = A4 := by after_results_simp
theorem outArg5 : after (ops (F := F)) V0 main_arg5 = A5 := by after_results_simp
theorem outArg6 : after (ops (F := F)) V0 main_arg6 = A6 := by after_results_simp
theorem outArg7 : after (ops (F := F)) V0 main_arg7 = A7 := by after_results_simp
theorem outArg8 : after (ops (F := F)) V0 main_arg8 = A8 := by after_results_simp
theorem outArg9 : after (ops (F := F)) V0 main_arg9 = A9 := by after_results_simp
theorem outArg10 : after (ops (F := F)) V0 main_arg10 = A10 := by after_results_simp
theorem outArg11 : after (ops (F := F)) V0 main_arg11 = A11 := by after_results_simp
theorem outArg12 : after (ops (F := F)) V0 main_arg12 = A12 := by after_results_simp
theorem outArg13 : after (ops (F := F)) V0 main_arg13 = A13 := by after_results_simp

end Chain

/-! ## The run -/

/-- Every operation of the line determines its results. -/
theorem ops_fresh : (ops : List (HloOp τ sig (Elt F))).Forall fun op => op.fresh = ∅ := by
  simp only [List.Forall]; repeat' constructor

/-- Every weakly fair execution of the reference program terminates, each buffer at the fold of the line's results
    over its launch contents. -/
theorem launch (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ
    (fun _ => List.forall_iff_forall_mem.mp ops_fresh)

/-- Every weakly fair execution of the reference program terminates with the four results at their stages of the
    launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v102) = ReadP.val_main_v102 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v64) = ReadP.val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v36) = ReadP.val_main_v36 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v65) = ReadP.val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v102).trans (out102 (launchContents m c)),
      (h c main_v64).trans (out64 (launchContents m c)),
      (h c main_v36).trans (out36 (launchContents m c)),
      (h c main_v65).trans (out65 (launchContents m c)),
      (h c main_arg0).trans (outArg0 (launchContents m c)),
      (h c main_arg1).trans (outArg1 (launchContents m c)),
      (h c main_arg2).trans (outArg2 (launchContents m c)),
      (h c main_arg3).trans (outArg3 (launchContents m c)),
      (h c main_arg4).trans (outArg4 (launchContents m c)),
      (h c main_arg5).trans (outArg5 (launchContents m c)),
      (h c main_arg6).trans (outArg6 (launchContents m c)),
      (h c main_arg7).trans (outArg7 (launchContents m c)),
      (h c main_arg8).trans (outArg8 (launchContents m c)),
      (h c main_arg9).trans (outArg9 (launchContents m c)),
      (h c main_arg10).trans (outArg10 (launchContents m c)),
      (h c main_arg11).trans (outArg11 (launchContents m c)),
      (h c main_arg12).trans (outArg12 (launchContents m c)),
      (h c main_arg13).trans (outArg13 (launchContents m c))⟩)
    (launch m ρ)

end Cert.ReferenceIdeal.Staged

end
-- ==== Proof.lean ====
/-
  The certificate of the memory-bottleneck autoencoder: a dense encoder (Linear -> BatchNorm -> ReLU -> Linear),
  softmax addressing of a learned memory with hard shrinkage and L1 renormalisation, and a dense decoder
  (Linear -> BatchNorm -> ReLU -> Linear), the two wide linear layers computed by grid kernels — the first tiling
  the contraction axis with a carried accumulator, the second tiling the output columns — against the plain formulas.
  Frames: each program runs to its end, faults nowhere and leaves its arguments as launched; for the two kernel
  programs this is the launch of two kernel regions among host stretches, for the reference its run read back stage by stage.
  Value: at the ideal instance the kernel program's four results are the reference's, stage by stage.
  The idealization changes nothing in the kernel's text, so the preservation claim is empty.
-/
import proofs.«108296_j46119358825052_1_alg».proof.Defs
import proofs.«108296_j46119358825052_1_alg».proof.Proof.Gen.Kernel
import proofs.«108296_j46119358825052_1_alg».proof.Proof.Gen.KernelIdeal
import proofs.«108296_j46119358825052_1_alg».proof.Proof.Gen.ReferenceIdeal
import proofs.«108296_j46119358825052_1_alg».proof.Proof.Gen.Pre_finite_inputs
import proofs.«108296_j46119358825052_1_alg».proof.Proof.KWhole
import proofs.«108296_j46119358825052_1_alg».proof.Proof.Final
import proofs.«108296_j46119358825052_1_alg».proof.Proof.RefStaged
import Idealize.ShloMosaic.Adequacy
import Idealize.ShloMosaic.Init

noncomputable section

namespace Cert.Proof

open Idealize.ShloMosaic Idealize.SL.Sem

/-- The word-level program's frame: the two-region launch at the bit-exact instance. -/
theorem frame_k : Cert.frame_Kernel := fun m ρ _ => Cert.Kernel.Whole.frame (F := Bits) m ρ

/-- The idealized program's frame: the same launch at the ideal instance. -/
theorem frame_ki : Cert.frame_KernelIdeal := fun m ρ _ => Cert.KernelIdeal.Whole.frame (F := Ideal) m ρ

/-- The reference's frame: its run read back, the results dropped. -/
theorem frame_ri : Cert.frame_ReferenceIdeal := fun m ρ _ =>
  (θ_run Cert.ReferenceIdeal.defs _ _).mono (fun _ h c => (h c).2.2.2.2) (Cert.ReferenceIdeal.Staged.run (F := Ideal) m ρ)

/-- Both runs end with the same four arrays: the kernel program's are the reference's stage functions of the launch
    arrays, the reference's are the same functions of arrays that agree with them. -/
theorem algebraic : Cert.algebraic_KernelIdeal_ReferenceIdeal := by
  intro m ρ m' ρ' _ hagree
  refine ⟨_, _, _, _, Cert.Final.kernel_run m ρ, ?_⟩
  refine (θ_run Cert.ReferenceIdeal.defs _ _).mono (fun r h c => ?_) (Cert.ReferenceIdeal.Staged.run (F := Ideal) m' ρ')
  obtain ⟨a0, a1, a2, a3, a4, a5, a6, a7, a8, a9, a10, a11, a12, a13⟩ := hagree c
  refine ⟨(h c).1.trans ?_, (h c).2.1.trans ?_, (h c).2.2.1.trans ?_, (h c).2.2.2.1.trans ?_, (h c).2.2.2.2⟩
  · rw [a0, a1, a2, a3, a4, a5, a6, a7, a8, a9, a10, a11, a12, a13]
  · rw [a0, a1, a2, a3, a4, a5, a6, a7]
  · rw [a0, a1, a2, a3, a4, a5, a6]
  · rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
